-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  main_v38

def fn_part1 {F : FTy → Type} [FloatOps F] (main_arg6 : FVec F S128x128 .f32) (main_arg7 : FVec F S128x1 .f32) (main_arg8 : FVec F S1 .f32) (main_arg9 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : FVec F S800000x16 .f32) (main_arg3 : IVec S50000 32) (main_arg4 : FVec F S128x128 .f32) (main_arg5 : FVec F S128 .f32) (main_arg6 : FVec F S128x128 .f32) (main_arg7 : FVec F S128x1 .f32) (main_arg8 : FVec F S1 .f32) (main_arg9 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x1 : Shape := ⟨2, ![1, 1]⟩
abbrev S5000x1 : Shape := ⟨2, ![5000, 1]⟩
abbrev S64x1 : Shape := ⟨2, ![64, 1]⟩
abbrev S5000x64 : Shape := ⟨2, ![5000, 64]⟩
abbrev S64x5000 : Shape := ⟨2, ![64, 5000]⟩

abbrev nBuf : Space → Nat
  | .hbm => 63
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x1, .f32⟩
  | .hbm, ⟨8, _⟩ => ⟨S1, .f32⟩
  | .hbm, ⟨9, _⟩ => ⟨S128x1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x1, .f32⟩
  | .hbm, ⟨60, _⟩ => ⟨S50000x1, .f32⟩
  | .hbm, ⟨61, _⟩ => ⟨S50000x1, .i32⟩
  | .hbm, ⟨62, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x1, .f32⟩
  | .local _ .vmem, ⟨14, _⟩ => ⟨S1x1, .f32⟩
  | .local _ .vmem, ⟨15, _⟩ => ⟨S128x1, .f32⟩
  | .local _ .vmem, ⟨16, _⟩ => ⟨S5000x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x1, .i32⟩
  | .local _ .vmem, ⟨21, _⟩ => ⟨S5000x1, .i32⟩
  | .local _ .vmem, ⟨22, _⟩ => ⟨S64x1, .f32⟩
  | .local _ .vmem, ⟨23, _⟩ => ⟨S64x1, .f32⟩
  | .local _ .vmem, ⟨24, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_scratch0 : Ref sig .tc := ⟨.vmem, 23, rfl⟩
abbrev cc2_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_14 : BitVec 32 := 0#32
  let v31 : BitVec 1 := Scalar.cmpi .ne v30 c0_i32_14
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000_S50000x1 : S50000.ShapeCasts S50000x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  transposes_S5000x64_p1_0_S64x5000 : S5000x64.Transposes [1, 0] S64x5000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  dot_S64x5000_S5000x1_S64x1_1_0_0_1_n_n_wf : DotDims.WF S64x5000 S5000x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S50000x1.size a
  hwx1_5 : ∀ i : grid1.Coords, EltTy.bits .f32 = 32 ∨ (Rect.block (s := S50000x1) S5000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S50000x1.size a
  hwx2_0 : ∀ i : grid2.Coords, EltTy.bits .f32 = 32 ∨ (Rect.block (s := S50000x1) S5000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .i32 = 32 ∨ (Rect.block (s := S50000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S64x5000_S5000x1_S64x1_1_0_0_1_n_n : DotDims S64x5000 S5000x1 S64x1 where
  lhsContracting := [1]
  rhsContracting := [0]
  lhsNonContracting := [0]
  rhsNonContracting := [1]
  lhsBatch := []
  rhsBatch := []
  wf := dot_S64x5000_S5000x1_S64x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S64x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S1x1 : Shape := ⟨2, ![1, 1]⟩
abbrev S64x1 : Shape := ⟨2, ![64, 1]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x1, .f32⟩
  | .hbm, ⟨8, _⟩ => ⟨S1, .f32⟩
  | .hbm, ⟨9, _⟩ => ⟨S128x1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x1, .f32⟩
  | .hbm, ⟨67, _⟩ => ⟨S1x1, .f32⟩
  | .hbm, ⟨68, _⟩ => ⟨S50000x1, .f32⟩
  | .hbm, ⟨69, _⟩ => ⟨S50000x1, .f32⟩
  | .hbm, ⟨70, _⟩ => ⟨S50000x1, .f32⟩
  | .hbm, ⟨71, _⟩ => ⟨S50000x1, .f32⟩
  | .hbm, ⟨72, _⟩ => ⟨S_, .f32⟩
  | .hbm, ⟨73, _⟩ => ⟨S64x1, .f32⟩
  | .hbm, ⟨74, _⟩ => ⟨S50000x1, .i32⟩
  | .hbm, ⟨75, _⟩ => ⟨S64x1, .f32⟩
  | .hbm, ⟨76, _⟩ => ⟨S_, .f32⟩
  | .hbm, ⟨77, _⟩ => ⟨S50000x1, .f32⟩
  | .hbm, ⟨78, _⟩ => ⟨S_, .f32⟩
  | .hbm, ⟨79, _⟩ => ⟨S64x1, .f32⟩
  | .hbm, ⟨80, _⟩ => ⟨S50000x1, .i32⟩
  | .hbm, ⟨81, _⟩ => ⟨S64x1, .f32⟩
  | .hbm, ⟨82, _⟩ => ⟨S_, .f32⟩
  | .hbm, ⟨83, _⟩ => ⟨S64x1, .f32⟩
  | .hbm, ⟨84, _⟩ => ⟨S64x1, .f32⟩
  | .hbm, ⟨85, _⟩ => ⟨S64x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S64x1 : S_.BroadcastsInDim S64x1 (![] : Fin 0 → Fin S64x1.rank)
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  scatter_S64x1_S50000x1_S50000x1_1_0_0_1_wf : ScatterDims.WF S64x1 S50000x1 S50000x1 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.K.Reg0.lean ====
/-
  The launch of dense layer 1, one grid point at a time. The grid has ten points; point t stages rows
  5000·t … 5000·t + 4999 of the aggregated features and of the node features (windows 0 and 1, 128 columns each),
  the two weight matrices and the bias row whole (windows 2, 4 and 3), and writes back the same rows of the result
  (window 5). The body reads its five inputs whole and stores one value over the whole output block, the
  payload `k0_pay1`: the two matrix products added, then the bias row added to every row (then, in layer 1 only, the
  maximum with zero). Stated for any float instance and for any contents V of the buffers at the launch's entry.
-/
import proofs.«416588_j74285754351848_1_alg».proof.Proof.Gen.Kernel.Launch
import proofs.«416588_j74285754351848_1_alg».proof.Proof.Gen.Kernel.Skeleton
import proofs.«416588_j74285754351848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window w's block at point t, cut out of its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetched it or not: where it
    was not fetched the block index has not moved since the fetch. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem found0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem found0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## What the body stores -/

/-- The whole block of a row window, of a weight window, of the bias window and of the output window, as rectangles. -/
abbrev rRows0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0
abbrev rOut0 : Rect S5000x128 := Rect.unit (s := S5000x128) ![0, 0] S5000x128.size inb_S5000x128_S5000x128_0_0 -- [out]

/-- The output block after the body, from the five input blocks: one store of the payload over the whole block. -/
def out0_5 (x0 x1 : Vec F S5000x128 .f32) (x2 : Vec F S128x128 .f32) (x3 : Vec F S1x128 .f32) (x4 : Vec F S128x128 .f32) :
    Vec F S5000x128 .f32 := -- [out]
  View.canon [⟨rOut0, k0_pay1 (View.ld x0 rRows0) (View.ld x1 rRows0) (View.ld x2 rW0) (View.ld x4 rW0) (View.ld x3 rB0)⟩]

/-- The one store covers the block. -/
theorem cover0_5 (p0 : Vec F S5000x128 .f32) (y : S5000x128.Idx) : -- [out]
    ∃ pc ∈ ([⟨rOut0, p0⟩] : List (View.Piece (Elt F) S5000x128 .f32)), y ∈ pc.1.set := -- [out]
  View.cover_of_tiled [⟨rOut0, p0⟩] S5000x128.size (by rfl) y -- [out]

/-! ## The body's triple -/

set_option maxHeartbeats 1000000 in
/-- The body on whole staging memrefs, the inputs at known contents and the output at anything, ends with the
    inputs as they were and the output at `out0_5` of the inputs. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole)
    (arg6 : Memref sig .tc .vmem S5000x128 .f32) (harg6 : arg6.IsWhole) -- [out]
    (x0 x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The launch's proof data -/

/-- Per point: each input's buffer keeps its block, the output's holds `out0_5` of the input blocks; between
    points the launch keeps only the scoped buffers it does not stage and the generator register; nothing is owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0_5 (blk0 V c 0 t) (blk0 V c 1 t) (blk0 V c 2 t) (blk0 V c 3 t) (blk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) :
    (dat0 V c).after 5 t = out0_5 (blk0 V c 0 t) (blk0 V c 1 t) (blk0 V c 2 t) (blk0 V c 3 t) (blk0 V c 4 t) := by dsimp only [dat0]

theorem found0_0 (c : Dev nD) (t : Fin cfg0.N) (d) : (dat0 V c).before 0 t d = blk0 V c 0 t :=
  found0_0_of V (dat0 V c) (A_eq0 V c 0) (after0_0 V c) t d
theorem found0_1 (c : Dev nD) (t : Fin cfg0.N) (d) : (dat0 V c).before 1 t d = blk0 V c 1 t :=
  found0_1_of V (dat0 V c) (A_eq0 V c 1) (after0_1 V c) t d
theorem found0_2 (c : Dev nD) (t : Fin cfg0.N) (d) : (dat0 V c).before 2 t d = blk0 V c 2 t :=
  found0_2_of V (dat0 V c) (A_eq0 V c 2) (after0_2 V c) t d
theorem found0_3 (c : Dev nD) (t : Fin cfg0.N) (d) : (dat0 V c).before 3 t d = blk0 V c 3 t :=
  found0_3_of V (dat0 V c) (A_eq0 V c 3) (after0_3 V c) t d
theorem found0_4 (c : Dev nD) (t : Fin cfg0.N) (d) : (dat0 V c).before 4 t d = blk0 V c 4 t :=
  found0_4_of V (dat0 V c) (A_eq0 V c 4) (after0_4 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the inputs' buffers hold their blocks, so the body's triple applies; what the launch keeps between
    points passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3, found0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The launch of dense layer 2, one grid point at a time. The grid has ten points; point t stages rows
  5000·t … 5000·t + 4999 of the aggregated features and of the node features (windows 0 and 1, 128 columns each),
  the two weight matrices and the bias row whole (windows 2, 4 and 3), and writes back the same rows of the result
  (window 5). The body reads its five inputs whole and stores one value over the whole output block, the
  payload `k1_pay1`: the two matrix products added, then the bias row added to every row (the layer-1
  maximum with zero is absent here). Stated for any float instance and for any contents V of the buffers at the launch's entry.
-/
import proofs.«416588_j74285754351848_1_alg».proof.Proof.Gen.Kernel.Launch
import proofs.«416588_j74285754351848_1_alg».proof.Proof.Gen.Kernel.Skeleton
import proofs.«416588_j74285754351848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window w's block at point t, cut out of its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or not: where it
    was not fetched the block index has not moved since the fetch. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem found1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

theorem found1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## What the body stores -/

/-- The whole block of a row window, of a weight window, of the bias window and of the output window, as rectangles. -/
abbrev rRows1 : Rect S5000x128 := Rect.unit (s := S5000x128) ![0, 0] S5000x128.size inb_S5000x128_S5000x128_0_0
abbrev rW1 : Rect S128x1 := Rect.unit (s := S128x1) ![0, 0] S128x1.size inb_S128x1_S128x1_0_0
abbrev rB1 : Rect S1x1 := Rect.unit (s := S1x1) ![0, 0] S1x1.size inb_S1x1_S1x1_0_0
abbrev rOut1 : Rect S5000x1 := Rect.unit (s := S5000x1) ![0, 0] S5000x1.size inb_S5000x1_S5000x1_0_0 -- [out]

/-- The output block after the body, from the five input blocks: one store of the payload over the whole block. -/
def out1_5 (x0 x1 : Vec F S5000x128 .f32) (x2 : Vec F S128x1 .f32) (x3 : Vec F S1x1 .f32) (x4 : Vec F S128x1 .f32) :
    Vec F S5000x1 .f32 := -- [out]
  View.canon [⟨rOut1, k1_pay1 (View.ld x0 rRows1) (View.ld x1 rRows1) (View.ld x2 rW1) (View.ld x4 rW1) (View.ld x3 rB1)⟩]

/-- The one store covers the block. -/
theorem cover1_5 (p0 : Vec F S5000x1 .f32) (y : S5000x1.Idx) : -- [out]
    ∃ pc ∈ ([⟨rOut1, p0⟩] : List (View.Piece (Elt F) S5000x1 .f32)), y ∈ pc.1.set := -- [out]
  View.cover_of_tiled [⟨rOut1, p0⟩] S5000x1.size (by rfl) y -- [out]

/-! ## The body's triple -/

set_option maxHeartbeats 1000000 in
/-- The body on whole staging memrefs, the inputs at known contents and the output at anything, ends with the
    inputs as they were and the output at `out1_5` of the inputs. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S128x1 .f32) (harg5 : arg5.IsWhole)
    (arg6 : Memref sig .tc .vmem S5000x1 .f32) (harg6 : arg6.IsWhole) -- [out]
    (x0 x1 : Vec F S5000x128 .f32) (x2 : Vec F S128x1 .f32) (x3 : Vec F S1x1 .f32) (x4 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The launch's proof data -/

/-- Per point: each input's buffer keeps its block, the output's holds `out1_5` of the input blocks; between
    points the launch keeps only the scoped buffers it does not stage and the generator register; nothing is owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1_5 (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = out1_5 (blk1 V c 0 t) (blk1 V c 1 t) (blk1 V c 2 t) (blk1 V c 3 t) (blk1 V c 4 t) := by dsimp only [dat1]

theorem found1_0 (c : Dev nD) (t : Fin cfg1.N) (d) : (dat1 V c).before 0 t d = blk1 V c 0 t :=
  found1_0_of V (dat1 V c) (A_eq1 V c 0) (after1_0 V c) t d
theorem found1_1 (c : Dev nD) (t : Fin cfg1.N) (d) : (dat1 V c).before 1 t d = blk1 V c 1 t :=
  found1_1_of V (dat1 V c) (A_eq1 V c 1) (after1_1 V c) t d
theorem found1_2 (c : Dev nD) (t : Fin cfg1.N) (d) : (dat1 V c).before 2 t d = blk1 V c 2 t :=
  found1_2_of V (dat1 V c) (A_eq1 V c 2) (after1_2 V c) t d
theorem found1_3 (c : Dev nD) (t : Fin cfg1.N) (d) : (dat1 V c).before 3 t d = blk1 V c 3 t :=
  found1_3_of V (dat1 V c) (A_eq1 V c 3) (after1_3 V c) t d
theorem found1_4 (c : Dev nD) (t : Fin cfg1.N) (d) : (dat1 V c).before 4 t d = blk1 V c 4 t :=
  found1_4_of V (dat1 V c) (A_eq1 V c 4) (after1_4 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the inputs' buffers hold their blocks, so the body's triple applies; what the launch keeps between
    points passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2, found1_3, found1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The pooling launch, one grid point at a time. The grid has ten points; point t stages rows 5000·t … 5000·t + 4999
  of the per-node value column and of the graph-id column (windows 0 and 1), and the 64 × 1 result (window 2) is
  written back after the last point only. The body keeps two 64 × 1 accumulators in scratch buffers of its own, the
  per-graph sum and the per-graph count: the first point clears both, every point adds its block's contribution to
  each, and the last point stores sum / max(count, 1) into the result's buffer. So the body has three control cases
  over the grid — first point (A), points 1 … 8 (B), last point (C) — and between points the launch's invariant must
  remember what the two accumulators hold. Stated for any float instance and any contents V at the launch's entry.
-/
import proofs.«416588_j74285754351848_1_alg».proof.Proof.Gen.Kernel.Launch
import proofs.«416588_j74285754351848_1_alg».proof.Proof.Gen.Kernel.Skeleton
import proofs.«416588_j74285754351848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window w's block at point t, cut out of its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## The two conditions of the body, over the grid -/

/-- "This is the first point", as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last point". -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the result's window is idle: everywhere but at the last point, and it is written back only there -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

/-- The result's staging buffer, as a view through which its contents are stated. -/
abbrev VO2_2 : View sig .tc .vmem S64x1 .f32 := (Memref.whole cc2_stg2_0 : Memref sig .tc .vmem S64x1 .f32).view
abbrev ms2_0 (t : Fin cfg2.N) : Memref sig .tc .vmem S5000x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
/-- The two accumulators: whole scoped buffers of the kernel's own. -/
abbrev scM2_0 : Memref sig .tc .vmem S64x1 .f32 := Memref.whole cc2_scratch0
abbrev scM2_1 : Memref sig .tc .vmem S64x1 .f32 := Memref.whole cc2_scratch1
abbrev VS2_0 : View sig .tc .vmem S64x1 .f32 := scM2_0.view
abbrev VS2_1 : View sig .tc .vmem S64x1 .f32 := scM2_1.view

/-! ## The scoped buffers the launch does not stage: the other launches' staging buffers, and the two accumulators -/

/-- The eighteen staging buffers of the two dense layers' launches, each at some contents: the pooling body never
    touches them. -/
def idleScoped2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The class's invariant hands over those eighteen buffers, the two accumulators at some contents, and the generator
    register, -/
theorem PhiA2_split (c : Dev nD) :
    (Pipeline.ΦA spec2 c : sProp 𝕄)
      ⊢ iprop(idleScoped2 (F := F) c ∗ (∃ d, owns (c : Thread nD τ) scM2_0 fullShare d) ∗ (∃ d, owns (c : Thread nD τ) scM2_1 fullShare d) ∗ (∃ r, prngReg c r)) := by
  unfold Pipeline.ΦA idleScoped2; rw [scopedRest2_eq]; simp only [scM2_0, scM2_1, owns_whole]
  iintro ⟨⟨R0, R1, R2, R3, R4, R5, R6, R7, R8, R9, R10, R11, R12, R13, R14, R15, R16, R17, HS0, HS1⟩, Hg⟩
  isplitl [R0 R1 R2 R3 R4 R5 R6 R7 R8 R9 R10 R11 R12 R13 R14 R15 R16 R17]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    iexact R17
  isplitl [HS0]; · iexact HS0
  isplitl [HS1]; · iexact HS1
  iexact Hg

/-- and takes them back. -/
theorem PhiA2_join (c : Dev nD) :
    iprop(idleScoped2 (F := F) c ∗ (∃ d, owns (c : Thread nD τ) scM2_0 fullShare d) ∗ (∃ d, owns (c : Thread nD τ) scM2_1 fullShare d) ∗ (∃ r, prngReg c r))
      ⊢ (Pipeline.ΦA spec2 c : sProp 𝕄) := by
  unfold Pipeline.ΦA idleScoped2; rw [scopedRest2_eq]; simp only [scM2_0, scM2_1, owns_whole]
  iintro ⟨⟨R0, R1, R2, R3, R4, R5, R6, R7, R8, R9, R10, R11, R12, R13, R14, R15, R16, R17⟩, HS0, HS1, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [HS0]; · iexact HS0
  iexact HS1

/-! ## The body on any staging memrefs, case by case: what its stores leave, found by running it -/

set_option maxHeartbeats 2000000 in
/-- CASE A (the first point): both accumulators are cleared and then added to; the result's buffer is not stored
    into and is handed back as found. The stores into each accumulator, last first, are the witnesses the run finds. -/
noncomputable def kernelRun2_A (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) :
    Σ' (LS0 : List (View.Piece (Elt F) S64x1 .f32)), { LS1 : List (View.Piece (Elt F) S64x1 .f32) //
      ∀ (xi : Vec F S64x1 .f32) (E : Set ℕ) (K : PUnit → sProp 𝕄),
        iprop(owns (c : Thread nD τ) arg1 fullShare x0 ∗ owns (c : Thread nD τ) arg2 fullShare x1 ∗ owns (c : Thread nD τ) arg3 fullShare xi
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__pool_kernel i arg1 harg1 arg2 harg2 arg3 harg3 arg4 harg4 arg5 harg5) K } := by
  refine ⟨?_, ?_, fun xi E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- CASE B (points 1 … 8): both accumulators, at what the point before left, are added to; the result's buffer is
    handed back as found. -/
noncomputable def kernelRun2_B (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) :
    Σ' (LS0 : List (View.Piece (Elt F) S64x1 .f32)), { LS1 : List (View.Piece (Elt F) S64x1 .f32) //
      ∀ (xi : Vec F S64x1 .f32) (E : Set ℕ) (K : PUnit → sProp 𝕄),
        iprop(owns (c : Thread nD τ) arg1 fullShare x0 ∗ owns (c : Thread nD τ) arg2 fullShare x1 ∗ owns (c : Thread nD τ) arg3 fullShare xi
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__pool_kernel i arg1 harg1 arg2 harg2 arg3 harg3 arg4 harg4 arg5 harg5) K } := by
  refine ⟨?_, ?_, fun xi E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- CASE C (the last point): both accumulators are added to, and the quotient of the sum by the count (the count
    raised to at least one) is stored over the result's buffer. -/
noncomputable def kernelRun2_C (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) :
    Σ' (L2 : List (View.Piece (Elt F) S64x1 .f32)) (LS0 : List (View.Piece (Elt F) S64x1 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__pool_kernel i arg1 harg1 arg2 harg2 arg3 harg3 arg4 harg4 arg5 harg5) K } := by
  refine ⟨?_, ?_, ?_, fun E K => ?run⟩
  case run =>
    simp only [cc2__pool_kernel_eq_skeleton]; unfold cc2__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

/-! ## What each case leaves: its stores cover each accumulator (and, at the last point, the result's buffer), and the
    contents are the stores read back -/

theorem scover2_A_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) (y : S64x1.Idx) :
    ∃ pc ∈ (kernelRun2_A c i arg1 harg1 arg2 harg2 arg3 harg3 arg4 harg4 arg5 harg5 hc0 hc1 x0 x1).1, y ∈ pc.1.set :=
  View.cover_of_tiledL (kernelRun2_A c i arg1 harg1 arg2 harg2 arg3 harg3 arg4 harg4 arg5 harg5 hc0 hc1 x0 x1).1 S64x1.size (by sl_kernel_rfl) y

theorem scover2_A_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) (y : S64x1.Idx) :
    ∃ pc ∈ (kernelRun2_A c i arg1 harg1 arg2 harg2 arg3 harg3 arg4 harg4 arg5 harg5 hc0 hc1 x0 x1).2.1, y ∈ pc.1.set :=
  View.cover_of_tiledL (kernelRun2_A c i arg1 harg1 arg2 harg2 arg3 harg3 arg4 harg4 arg5 harg5 hc0 hc1 x0 x1).2.1 S64x1.size (by sl_kernel_rfl) y

def sout2_A_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) : Vec F S64x1 .f32 :=
  VS2_0.read (Elt F) (VS2_0.writes (Elt F) VS2_0.junk (kernelRun2_A c i arg1 harg1 arg2 harg2 arg3 harg3 arg4 harg4 arg5 harg5 hc0 hc1 x0 x1).1)

def sout2_A_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) : Vec F S64x1 .f32 :=
  VS2_1.read (Elt F) (VS2_1.writes (Elt F) VS2_1.junk (kernelRun2_A c i arg1 harg1 arg2 harg2 arg3 harg3 arg4 harg4 arg5 harg5 hc0 hc1 x0 x1).2.1)

theorem scover2_B_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) (y : S64x1.Idx) :
    ∃ pc ∈ (kernelRun2_B c i arg1 harg1 arg2 harg2 arg3 harg3 arg4 harg4 arg5 harg5 hc0 hc1 x0 x1 xs0 xs1).1, y ∈ pc.1.set :=
  View.cover_of_tiledL (kernelRun2_B c i arg1 harg1 arg2 harg2 arg3 harg3 arg4 harg4 arg5 harg5 hc0 hc1 x0 x1 xs0 xs1).1 S64x1.size (by sl_kernel_rfl) y

theorem scover2_B_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) (y : S64x1.Idx) :
    ∃ pc ∈ (kernelRun2_B c i arg1 harg1 arg2 harg2 arg3 harg3 arg4 harg4 arg5 harg5 hc0 hc1 x0 x1 xs0 xs1).2.1, y ∈ pc.1.set :=
  View.cover_of_tiledL (kernelRun2_B c i arg1 harg1 arg2 harg2 arg3 harg3 arg4 harg4 arg5 harg5 hc0 hc1 x0 x1 xs0 xs1).2.1 S64x1.size (by sl_kernel_rfl) y

def sout2_B_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) : Vec F S64x1 .f32 :=
  VS2_0.read (Elt F) (VS2_0.writes (Elt F) VS2_0.junk (kernelRun2_B c i arg1 harg1 arg2 harg2 arg3 harg3 arg4 harg4 arg5 harg5 hc0 hc1 x0 x1 xs0 xs1).1)

def sout2_B_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) : Vec F S64x1 .f32 :=
  VS2_1.read (Elt F) (VS2_1.writes (Elt F) VS2_1.junk (kernelRun2_B c i arg1 harg1 arg2 harg2 arg3 harg3 arg4 harg4 arg5 harg5 hc0 hc1 x0 x1 xs0 xs1).2.1)

theorem cover2_C_2 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) (y : S64x1.Idx) :
    ∃ pc ∈ (kernelRun2_C c i arg1 harg1 arg2 harg2 arg3 harg3 arg4 harg4 arg5 harg5 hc0 hc1 x0 x1 xs0 xs1).1, y ∈ pc.1.set :=
  View.cover_of_tiledL (kernelRun2_C c i arg1 harg1 arg2 harg2 arg3 harg3 arg4 harg4 arg5 harg5 hc0 hc1 x0 x1 xs0 xs1).1 S64x1.size (by sl_kernel_rfl) y

theorem scover2_C_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) (y : S64x1.Idx) :
    ∃ pc ∈ (kernelRun2_C c i arg1 harg1 arg2 harg2 arg3 harg3 arg4 harg4 arg5 harg5 hc0 hc1 x0 x1 xs0 xs1).2.1, y ∈ pc.1.set :=
  View.cover_of_tiledL (kernelRun2_C c i arg1 harg1 arg2 harg2 arg3 harg3 arg4 harg4 arg5 harg5 hc0 hc1 x0 x1 xs0 xs1).2.1 S64x1.size (by sl_kernel_rfl) y

theorem scover2_C_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) (y : S64x1.Idx) :
    ∃ pc ∈ (kernelRun2_C c i arg1 harg1 arg2 harg2 arg3 harg3 arg4 harg4 arg5 harg5 hc0 hc1 x0 x1 xs0 xs1).2.2.1, y ∈ pc.1.set :=
  View.cover_of_tiledL (kernelRun2_C c i arg1 harg1 arg2 harg2 arg3 harg3 arg4 harg4 arg5 harg5 hc0 hc1 x0 x1 xs0 xs1).2.2.1 S64x1.size (by sl_kernel_rfl) y

def out2_C_2 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) : Vec F S64x1 .f32 :=
  VO2_2.read (Elt F) (VO2_2.writes (Elt F) VO2_2.junk (kernelRun2_C c i arg1 harg1 arg2 harg2 arg3 harg3 arg4 harg4 arg5 harg5 hc0 hc1 x0 x1 xs0 xs1).1)

def sout2_C_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) : Vec F S64x1 .f32 :=
  VS2_0.read (Elt F) (VS2_0.writes (Elt F) VS2_0.junk (kernelRun2_C c i arg1 harg1 arg2 harg2 arg3 harg3 arg4 harg4 arg5 harg5 hc0 hc1 x0 x1 xs0 xs1).2.1)

def sout2_C_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) : Vec F S64x1 .f32 :=
  VS2_1.read (Elt F) (VS2_1.writes (Elt F) VS2_1.junk (kernelRun2_C c i arg1 harg1 arg2 harg2 arg3 harg3 arg4 harg4 arg5 harg5 hc0 hc1 x0 x1 xs0 xs1).2.2.1)

/-! ## Point by point -/

/-- A point after the first is not the first. -/
theorem succ_ne_first (n : ℕ) (hn : n + 1 < cfg2.N) : ¬ ((⟨n + 1, hn⟩ : Fin cfg2.N).val % 10 = 0) := by
  have hN : n + 1 < 10 := lt_of_lt_of_eq hn (show cfg2.N = 10 from N_2)
  intro h; (try dsimp only at h); omega

/-- What the result's buffer holds where the body does not store into it: nothing anyone reads. -/
def idleOut2 : Vec F S64x1 .f32 := VO2_2.read (Elt F) VO2_2.junk

/-- THE ACCUMULATION. After the body at position n: the result's buffer, the sum accumulator, the count accumulator.
    The first point is case A; a later point is case C if it is the last and case B otherwise, run over what the point
    before left in the two accumulators. -/
def outsAt2 (c : Dev nD) : (n : ℕ) → n < cfg2.N → Vec F S64x1 .f32 × Vec F S64x1 .f32 × Vec F S64x1 .f32
  | 0, hn => (idleOut2,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (blk2 V c 0 ⟨0, hn⟩) (blk2 V c 1 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (blk2 V c 0 ⟨0, hn⟩) (blk2 V c 1 ⟨0, hn⟩))
  | n + 1, hn =>
    if h1 : (n + 1) % 10 = 9 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) ((hcond2_1 ⟨n + 1, hn⟩).mpr h1) (blk2 V c 0 ⟨n + 1, hn⟩) (blk2 V c 1 ⟨n + 1, hn⟩) (outsAt2 c n (Nat.lt_of_succ_lt hn)).2.1 (outsAt2 c n (Nat.lt_of_succ_lt hn)).2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) ((hcond2_1 ⟨n + 1, hn⟩).mpr h1) (blk2 V c 0 ⟨n + 1, hn⟩) (blk2 V c 1 ⟨n + 1, hn⟩) (outsAt2 c n (Nat.lt_of_succ_lt hn)).2.1 (outsAt2 c n (Nat.lt_of_succ_lt hn)).2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) ((hcond2_1 ⟨n + 1, hn⟩).mpr h1) (blk2 V c 0 ⟨n + 1, hn⟩) (blk2 V c 1 ⟨n + 1, hn⟩) (outsAt2 c n (Nat.lt_of_succ_lt hn)).2.1 (outsAt2 c n (Nat.lt_of_succ_lt hn)).2.2)
    else
      (idleOut2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) (fun h => h1 ((hcond2_1 ⟨n + 1, hn⟩).mp h)) (blk2 V c 0 ⟨n + 1, hn⟩) (blk2 V c 1 ⟨n + 1, hn⟩) (outsAt2 c n (Nat.lt_of_succ_lt hn)).2.1 (outsAt2 c n (Nat.lt_of_succ_lt hn)).2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) (fun h => h1 ((hcond2_1 ⟨n + 1, hn⟩).mp h)) (blk2 V c 0 ⟨n + 1, hn⟩) (blk2 V c 1 ⟨n + 1, hn⟩) (outsAt2 c n (Nat.lt_of_succ_lt hn)).2.1 (outsAt2 c n (Nat.lt_of_succ_lt hn)).2.2)

/-- At the first point: case A's contents. -/
theorem outsAt2_A (c : Dev nD) (t : Fin cfg2.N) (h0 : t.val % 10 = 0) (h1 : ¬t.val % 10 = 9) :
    outsAt2 V c t.val t.isLt = (idleOut2, sout2_A_0 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (blk2 V c 0 t) (blk2 V c 1 t), sout2_A_1 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (blk2 V c 0 t) (blk2 V c 1 t)) := by
  obtain ⟨n, hn⟩ := t
  cases n with
  | zero => exact rfl
  | succ n => exact absurd h0 (succ_ne_first n hn)

/-- At points 1 … 8: case B's contents, over what the point before left. -/
theorem outsAt2_B (c : Dev nD) (t : Fin cfg2.N) (h0 : ¬t.val % 10 = 0) (h1 : ¬t.val % 10 = 9) :
    outsAt2 V c t.val t.isLt = (idleOut2, sout2_B_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- At the last point: case C's contents, over what the point before left. -/
theorem outsAt2_C (c : Dev nD) (t : Fin cfg2.N) (h0 : ¬t.val % 10 = 0) (h1 : t.val % 10 = 9) :
    outsAt2 V c t.val t.isLt = (out2_C_2 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The launch's invariant between points -/

/-- Before the first point the class's invariant (both accumulators at anything); before a later point the eighteen
    untouched buffers, each accumulator at what the point before left in it, and the generator register. -/
def PhiS2 (c : Dev nD) : (n : ℕ) → n ≤ cfg2.N → sProp 𝕄
  | 0, _ => Pipeline.ΦA spec2 c
  | n + 1, hn => iprop(idleScoped2 (F := F) c ∗ owns (c : Thread nD τ) scM2_0 fullShare (outsAt2 V c n hn).2.1 ∗ owns (c : Thread nD τ) scM2_1 fullShare (outsAt2 V c n hn).2.2 ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(idleScoped2 (F := F) c ∗ owns (c : Thread nD τ) scM2_0 fullShare (outsAt2 V c n hn).2.1 ∗ owns (c : Thread nD τ) scM2_1 fullShare (outsAt2 V c n hn).2.2 ∗ (∃ r, prngReg c r)) := rfl

theorem PhiS2_pos (c : Dev nD) (n : ℕ) (h : n ≤ cfg2.N) (hz : n ≠ 0) :
    PhiS2 V c n h = iprop(idleScoped2 (F := F) c ∗ owns (c : Thread nD τ) scM2_0 fullShare (outsAt2 V c (n - 1) (by omega)).2.1 ∗ owns (c : Thread nD τ) scM2_1 fullShare (outsAt2 V c (n - 1) (by omega)).2.2 ∗ (∃ r, prngReg c r)) := by
  cases n with
  | zero => exact absurd rfl hz
  | succ n => rfl

/-! ## The launch's proof data -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = (outsAt2 V c t.val t.isLt).1 := by dsimp only [dat2]

theorem found2_0 (c : Dev nD) (t : Fin cfg2.N) (d) : (dat2 V c).before 0 t d = blk2 V c 0 t :=
  found2_0_of V (dat2 V c) (A_eq2 V c 0) (after2_0 V c) t d
theorem found2_1 (c : Dev nD) (t : Fin cfg2.N) (d) : (dat2 V c).before 1 t d = blk2 V c 1 t :=
  found2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- At any point the inputs' buffers hold their blocks; the two conditions' closed forms say which case the point is
    in; the invariant hands the body the accumulators at what the point before left (at anything, at the first point)
    and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [found2_0, found2_1]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 10 = 0
  · have h1 : ¬t.val % 10 = 9 := by omega
    have hz : t.val = 0 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0 sout2_A_1; (try dsimp only)
    rw [PhiS2_castSucc V c t, PhiS2_zero V c _ _ hz]
    iintro ⟨HΦ, Ho, ⟨%d0, H0⟩, ⟨%d1, H1⟩, ⟨%d2, H2⟩⟩
    ihave HΦ' := (PhiA2_split (F := F) c) $$ HΦ
    icases HΦ' with ⟨HR, HS0, HS1, Hg⟩
    iapply ((kernelRun2_A c (grid2.coords t) _ _ _ _ _ _ _ _ _ _ ((hcond2_0 t).mpr h0) (fun h => h1 ((hcond2_1 t).mp h)) (blk2 V c 0 t) (blk2 V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HR HS0 HS1 Hg]
    · isplitl [HR]; · iexact HR
      isplitl [HS0]
      · unfold owns; iexists _; isplitr
        swap; · iexact HS0
        ipureintro; exact View.read_writes_of_cover _ _ _ _ _ (scover2_A_0 c _ _ _ _ _ _ _ _ _ _ _ _ _ _ _)
      isplitl [HS1]
      · unfold owns; iexists _; isplitr
        swap; · iexact HS1
        ipureintro; exact View.read_writes_of_cover _ _ _ _ _ (scover2_A_1 c _ _ _ _ _ _ _ _ _ _ _ _ _ _ _)
      iexact Hg
    isplitl [Ho]; · iexact Ho
    isplitl [H0]; · iexact H0
    isplitl [H1]; · iexact H1
    iexists _; iexact H2
  · have hz : t.val ≠ 0 := fun e => h0 (by rw [e])
    by_cases h1 : t.val % 10 = 9
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0 sout2_C_1; (try dsimp only)
      rw [PhiS2_castSucc V c t, PhiS2_pos V c _ _ hz]
      iintro ⟨⟨HR, HS0, HS1, Hg⟩, Ho, ⟨%d0, H0⟩, ⟨%d1, H1⟩, ⟨%d2, H2⟩⟩
      iapply ((kernelRun2_C c (grid2.coords t) _ _ _ _ _ _ _ _ _ _ (fun h => h0 ((hcond2_0 t).mp h)) ((hcond2_1 t).mpr h1) (blk2 V c 0 t) (blk2 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover2_C_0 c _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0 sout2_B_1; (try dsimp only)
      rw [PhiS2_castSucc V c t, PhiS2_pos V c _ _ hz]
      iintro ⟨⟨HR, HS0, HS1, Hg⟩, Ho, ⟨%d0, H0⟩, ⟨%d1, H1⟩, ⟨%d2, H2⟩⟩
      iapply ((kernelRun2_B c (grid2.coords t) _ _ _ _ _ _ _ _ _ _ (fun h => h0 ((hcond2_0 t).mp h)) (fun h => h1 ((hcond2_1 t).mp h)) (blk2 V c 0 t) (blk2 V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover2_B_0 c _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _)
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: what the accumulators hold is forgotten. -/
theorem hout2 (c : Dev nD) : (dat2 V c).Φ (Fin.last cfg2.N) ⊢ Pipeline.ΦA spec2 c := by
  have hne : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl,
    PhiS2_pos V c _ _ hne]
  refine BIBase.Entails.trans ?_ (PhiA2_join (F := F) c)
  iintro ⟨HR, HS0, HS1, Hg⟩
  isplitl [HR]; · iexact HR
  isplitl [HS0]; · iexists _; iexact HS0
  isplitl [HS1]; · iexists _; iexact HS1
  iexact Hg

end Cert.Kernel.Hand

end
-- ==== Proof.K.Run.lean ====
/-
  The whole program as a run of six segments: three stretches of host operations, each followed by one of the three
  launches. The contents of the buffers at each boundary are a fold from the launch memory: a host stretch applies its
  operations, a launch replaces the arrays of its windows by what its write-backs leave (an array it only reads is
  left as found). No host operation and no launch writes an argument, so every argument ends as launched; and the
  last launch's output array ends at what its write-backs leave, which is the program's result.
-/
import proofs.«416588_j74285754351848_1_alg».proof.Proof.K.Reg0
import proofs.«416588_j74285754351848_1_alg».proof.Proof.K.Reg1
import proofs.«416588_j74285754351848_1_alg».proof.Proof.K.Reg2
import proofs.«416588_j74285754351848_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)

/-- Before launch 0: the host operations of the stretch before it applied. -/
abbrev W1 : Dev nD → Valuation τ sig (Elt F) := fun c => StableHlo.after hostOps0 (W0 m ρ c)
/-- The same, read at the core's own references: what launch 0's proof data are stated at. -/
abbrev E1 : (c : Dev nD) → (b : Ref sig .tc) → Buf (Elt F) ((c : Thread nD τ).loc b) := fun c b => W1 m ρ c b
/-- After launch 0: its arrays at what its write-backs leave, every other buffer as before it. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An array launch 0 only reads is left as found. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hw _).trans (A_eq0 (E1 m ρ) c w))
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- Before launch 1: the host operations of the stretch before it applied. -/
abbrev W3 : Dev nD → Valuation τ sig (Elt F) := fun c => StableHlo.after hostOps1 (W2 m ρ c)
/-- The same, read at the core's own references: what launch 1's proof data are stated at. -/
abbrev E3 : (c : Dev nD) → (b : Ref sig .tc) → Buf (Elt F) ((c : Thread nD τ).loc b) := fun c b => W3 m ρ c b
/-- After launch 1: its arrays at what its write-backs leave, every other buffer as before it. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An array launch 1 only reads is left as found. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hw _).trans (A_eq1 (E3 m ρ) c w))
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- Before launch 2: the host operations of the stretch before it applied. -/
abbrev W5 : Dev nD → Valuation τ sig (Elt F) := fun c => StableHlo.after hostOps2 (W4 m ρ c)
/-- The same, read at the core's own references: what launch 2's proof data are stated at. -/
abbrev E5 : (c : Dev nD) → (b : Ref sig .tc) → Buf (Elt F) ((c : Thread nD τ).loc b) := fun c b => W5 m ρ c b
/-- After launch 2: its arrays at what its write-backs leave, every other buffer as before it. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An array launch 2 only reads is left as found. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (E5 m ρ) c).arrAt_in w hw _).trans (A_eq2 (E5 m ρ) c w))
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-! ## Every argument ends as launched -/

theorem W6_main_arg0 (c : Dev nD) : W6 m ρ c (Proc.devRef .tc main_arg0) = m ((c : Thread nD τ).loc main_arg0) :=
  (W6_of_ne m ρ c main_arg0 (by decide)).trans <| (StableHlo.after_of_writes_sub hostOps2 _ hostOps2_writes (by decide : main_arg0 ∉ hostOps2_W)).trans <| (W4_of_ne m ρ c main_arg0 (by decide)).trans <| (StableHlo.after_of_writes_sub hostOps1 _ hostOps1_writes (by decide : main_arg0 ∉ hostOps1_W)).trans <| (W2_in m ρ c 1 rfl).trans <| (StableHlo.after_of_writes_sub hostOps0 _ hostOps0_writes (by decide : main_arg0 ∉ hostOps0_W)).trans rfl
theorem W6_main_arg1 (c : Dev nD) : W6 m ρ c (Proc.devRef .tc main_arg1) = m ((c : Thread nD τ).loc main_arg1) :=
  (W6_of_ne m ρ c main_arg1 (by decide)).trans <| (StableHlo.after_of_writes_sub hostOps2 _ hostOps2_writes (by decide : main_arg1 ∉ hostOps2_W)).trans <| (W4_of_ne m ρ c main_arg1 (by decide)).trans <| (StableHlo.after_of_writes_sub hostOps1 _ hostOps1_writes (by decide : main_arg1 ∉ hostOps1_W)).trans <| (W2_of_ne m ρ c main_arg1 (by decide)).trans <| (StableHlo.after_of_writes_sub hostOps0 _ hostOps0_writes (by decide : main_arg1 ∉ hostOps0_W)).trans rfl
theorem W6_main_arg2 (c : Dev nD) : W6 m ρ c (Proc.devRef .tc main_arg2) = m ((c : Thread nD τ).loc main_arg2) :=
  (W6_of_ne m ρ c main_arg2 (by decide)).trans <| (StableHlo.after_of_writes_sub hostOps2 _ hostOps2_writes (by decide : main_arg2 ∉ hostOps2_W)).trans <| (W4_of_ne m ρ c main_arg2 (by decide)).trans <| (StableHlo.after_of_writes_sub hostOps1 _ hostOps1_writes (by decide : main_arg2 ∉ hostOps1_W)).trans <| (W2_of_ne m ρ c main_arg2 (by decide)).trans <| (StableHlo.after_of_writes_sub hostOps0 _ hostOps0_writes (by decide : main_arg2 ∉ hostOps0_W)).trans rfl
theorem W6_main_arg3 (c : Dev nD) : W6 m ρ c (Proc.devRef .tc main_arg3) = m ((c : Thread nD τ).loc main_arg3) :=
  (W6_of_ne m ρ c main_arg3 (by decide)).trans <| (StableHlo.after_of_writes_sub hostOps2 _ hostOps2_writes (by decide : main_arg3 ∉ hostOps2_W)).trans <| (W4_of_ne m ρ c main_arg3 (by decide)).trans <| (StableHlo.after_of_writes_sub hostOps1 _ hostOps1_writes (by decide : main_arg3 ∉ hostOps1_W)).trans <| (W2_of_ne m ρ c main_arg3 (by decide)).trans <| (StableHlo.after_of_writes_sub hostOps0 _ hostOps0_writes (by decide : main_arg3 ∉ hostOps0_W)).trans rfl
theorem W6_main_arg4 (c : Dev nD) : W6 m ρ c (Proc.devRef .tc main_arg4) = m ((c : Thread nD τ).loc main_arg4) :=
  (W6_of_ne m ρ c main_arg4 (by decide)).trans <| (StableHlo.after_of_writes_sub hostOps2 _ hostOps2_writes (by decide : main_arg4 ∉ hostOps2_W)).trans <| (W4_of_ne m ρ c main_arg4 (by decide)).trans <| (StableHlo.after_of_writes_sub hostOps1 _ hostOps1_writes (by decide : main_arg4 ∉ hostOps1_W)).trans <| (W2_in m ρ c 2 rfl).trans <| (StableHlo.after_of_writes_sub hostOps0 _ hostOps0_writes (by decide : main_arg4 ∉ hostOps0_W)).trans rfl
theorem W6_main_arg5 (c : Dev nD) : W6 m ρ c (Proc.devRef .tc main_arg5) = m ((c : Thread nD τ).loc main_arg5) :=
  (W6_of_ne m ρ c main_arg5 (by decide)).trans <| (StableHlo.after_of_writes_sub hostOps2 _ hostOps2_writes (by decide : main_arg5 ∉ hostOps2_W)).trans <| (W4_of_ne m ρ c main_arg5 (by decide)).trans <| (StableHlo.after_of_writes_sub hostOps1 _ hostOps1_writes (by decide : main_arg5 ∉ hostOps1_W)).trans <| (W2_of_ne m ρ c main_arg5 (by decide)).trans <| (StableHlo.after_of_writes_sub hostOps0 _ hostOps0_writes (by decide : main_arg5 ∉ hostOps0_W)).trans rfl
theorem W6_main_arg6 (c : Dev nD) : W6 m ρ c (Proc.devRef .tc main_arg6) = m ((c : Thread nD τ).loc main_arg6) :=
  (W6_of_ne m ρ c main_arg6 (by decide)).trans <| (StableHlo.after_of_writes_sub hostOps2 _ hostOps2_writes (by decide : main_arg6 ∉ hostOps2_W)).trans <| (W4_of_ne m ρ c main_arg6 (by decide)).trans <| (StableHlo.after_of_writes_sub hostOps1 _ hostOps1_writes (by decide : main_arg6 ∉ hostOps1_W)).trans <| (W2_in m ρ c 4 rfl).trans <| (StableHlo.after_of_writes_sub hostOps0 _ hostOps0_writes (by decide : main_arg6 ∉ hostOps0_W)).trans rfl
theorem W6_main_arg7 (c : Dev nD) : W6 m ρ c (Proc.devRef .tc main_arg7) = m ((c : Thread nD τ).loc main_arg7) :=
  (W6_of_ne m ρ c main_arg7 (by decide)).trans <| (StableHlo.after_of_writes_sub hostOps2 _ hostOps2_writes (by decide : main_arg7 ∉ hostOps2_W)).trans <| (W4_in m ρ c 2 rfl).trans <| (StableHlo.after_of_writes_sub hostOps1 _ hostOps1_writes (by decide : main_arg7 ∉ hostOps1_W)).trans <| (W2_of_ne m ρ c main_arg7 (by decide)).trans <| (StableHlo.after_of_writes_sub hostOps0 _ hostOps0_writes (by decide : main_arg7 ∉ hostOps0_W)).trans rfl
theorem W6_main_arg8 (c : Dev nD) : W6 m ρ c (Proc.devRef .tc main_arg8) = m ((c : Thread nD τ).loc main_arg8) :=
  (W6_of_ne m ρ c main_arg8 (by decide)).trans <| (StableHlo.after_of_writes_sub hostOps2 _ hostOps2_writes (by decide : main_arg8 ∉ hostOps2_W)).trans <| (W4_of_ne m ρ c main_arg8 (by decide)).trans <| (StableHlo.after_of_writes_sub hostOps1 _ hostOps1_writes (by decide : main_arg8 ∉ hostOps1_W)).trans <| (W2_of_ne m ρ c main_arg8 (by decide)).trans <| (StableHlo.after_of_writes_sub hostOps0 _ hostOps0_writes (by decide : main_arg8 ∉ hostOps0_W)).trans rfl
theorem W6_main_arg9 (c : Dev nD) : W6 m ρ c (Proc.devRef .tc main_arg9) = m ((c : Thread nD τ).loc main_arg9) :=
  (W6_of_ne m ρ c main_arg9 (by decide)).trans <| (StableHlo.after_of_writes_sub hostOps2 _ hostOps2_writes (by decide : main_arg9 ∉ hostOps2_W)).trans <| (W4_in m ρ c 4 rfl).trans <| (StableHlo.after_of_writes_sub hostOps1 _ hostOps1_writes (by decide : main_arg9 ∉ hostOps1_W)).trans <| (W2_of_ne m ρ c main_arg9 (by decide)).trans <| (StableHlo.after_of_writes_sub hostOps0 _ hostOps0_writes (by decide : main_arg9 ∉ hostOps0_W)).trans rfl

/-! ## The proof data family and what rides beside the buffers -/

/-- Each launch's proof data, at the contents its launch is entered with. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the register. -/
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered with every unscoped buffer at `W1`, left with them at `W2`. Its arrays
    are split out of the unscoped buffers at the entry and put back at the exit; the generator register goes into the
    launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its arrays
    are split out of the unscoped buffers at the entry and put back at the exit; the generator register goes into the
    launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left with them at `W6`. Its arrays
    are split out of the unscoped buffers at the entry and put back at the exit; the generator register goes into the
    launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m ρ) c)
    unfold Pipeline.ΦA
    iintro ⟨Hp, -, Hr⟩
    isplitl [Hr]; · iexact Hr
    iexact Hp
  hout c := by
    rw [Pipeline.ownSems0_none]
    refine BIBase.Entails.trans (hout2 (E5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, and every final state holds
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c)⟩) (run_all m ρ)

/-- THE RESULT: the output array ends at what the pooling launch's write-backs leave, the arguments as launched. -/
theorem run_result : θ_run defs (onTc (τ := τ) (main (F := F))) ⟨m, fun _ => 0, ρ⟩ (fun r => ∀ c : Dev nD,
      r.2.mem ((c.tc : Thread nD τ).loc main_v42) = (dat2 (E5 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v42 (by decide))).trans (W6_arr m ρ c 2),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c)⟩) (run_all m ρ)

end Cert.Kernel.Hand

end
-- ==== Proof.KI.Reg0.lean ====
/-
  The launch of dense layer 1, one grid point at a time. The grid has ten points; point t stages rows
  5000·t … 5000·t + 4999 of the aggregated features and of the node features (windows 0 and 1, 128 columns each),
  the two weight matrices and the bias row whole (windows 2, 4 and 3), and writes back the same rows of the result
  (window 5). The body reads its five inputs whole and stores one value over the whole output block, the
  payload `k0_pay1`: the two matrix products added, then the bias row added to every row (then, in layer 1 only, the
  maximum with zero). Stated for any float instance and for any contents V of the buffers at the launch's entry.
-/
import proofs.«416588_j74285754351848_1_alg».proof.Proof.Gen.KernelIdeal.Launch
import proofs.«416588_j74285754351848_1_alg».proof.Proof.Gen.KernelIdeal.Skeleton
import proofs.«416588_j74285754351848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window w's block at point t, cut out of its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the point fetched it or not: where it
    was not fetched the block index has not moved since the fetch. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem found0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem found0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## What the body stores -/

/-- The whole block of a row window, of a weight window, of the bias window and of the output window, as rectangles. -/
abbrev rRows0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0
abbrev rOut0 : Rect S5000x128 := Rect.unit (s := S5000x128) ![0, 0] S5000x128.size inb_S5000x128_S5000x128_0_0 -- [out]

/-- The output block after the body, from the five input blocks: one store of the payload over the whole block. -/
def out0_5 (x0 x1 : Vec F S5000x128 .f32) (x2 : Vec F S128x128 .f32) (x3 : Vec F S1x128 .f32) (x4 : Vec F S128x128 .f32) :
    Vec F S5000x128 .f32 := -- [out]
  View.canon [⟨rOut0, k0_pay1 (View.ld x0 rRows0) (View.ld x1 rRows0) (View.ld x2 rW0) (View.ld x4 rW0) (View.ld x3 rB0)⟩]

/-- The one store covers the block. -/
theorem cover0_5 (p0 : Vec F S5000x128 .f32) (y : S5000x128.Idx) : -- [out]
    ∃ pc ∈ ([⟨rOut0, p0⟩] : List (View.Piece (Elt F) S5000x128 .f32)), y ∈ pc.1.set := -- [out]
  View.cover_of_tiled [⟨rOut0, p0⟩] S5000x128.size (by rfl) y -- [out]

/-! ## The body's triple -/

set_option maxHeartbeats 1000000 in
/-- The body on whole staging memrefs, the inputs at known contents and the output at anything, ends with the
    inputs as they were and the output at `out0_5` of the inputs. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole)
    (arg6 : Memref sig .tc .vmem S5000x128 .f32) (harg6 : arg6.IsWhole) -- [out]
    (x0 x1 : Vec F S5000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The launch's proof data -/

/-- Per point: each input's buffer keeps its block, the output's holds `out0_5` of the input blocks; between
    points the launch keeps only the scoped buffers it does not stage and the generator register; nothing is owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0_5 (blk0 V c 0 t) (blk0 V c 1 t) (blk0 V c 2 t) (blk0 V c 3 t) (blk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) :
    (dat0 V c).after 5 t = out0_5 (blk0 V c 0 t) (blk0 V c 1 t) (blk0 V c 2 t) (blk0 V c 3 t) (blk0 V c 4 t) := by dsimp only [dat0]

theorem found0_0 (c : Dev nD) (t : Fin cfg0.N) (d) : (dat0 V c).before 0 t d = blk0 V c 0 t :=
  found0_0_of V (dat0 V c) (A_eq0 V c 0) (after0_0 V c) t d
theorem found0_1 (c : Dev nD) (t : Fin cfg0.N) (d) : (dat0 V c).before 1 t d = blk0 V c 1 t :=
  found0_1_of V (dat0 V c) (A_eq0 V c 1) (after0_1 V c) t d
theorem found0_2 (c : Dev nD) (t : Fin cfg0.N) (d) : (dat0 V c).before 2 t d = blk0 V c 2 t :=
  found0_2_of V (dat0 V c) (A_eq0 V c 2) (after0_2 V c) t d
theorem found0_3 (c : Dev nD) (t : Fin cfg0.N) (d) : (dat0 V c).before 3 t d = blk0 V c 3 t :=
  found0_3_of V (dat0 V c) (A_eq0 V c 3) (after0_3 V c) t d
theorem found0_4 (c : Dev nD) (t : Fin cfg0.N) (d) : (dat0 V c).before 4 t d = blk0 V c 4 t :=
  found0_4_of V (dat0 V c) (A_eq0 V c 4) (after0_4 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the inputs' buffers hold their blocks, so the body's triple applies; what the launch keeps between
    points passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3, found0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The launch of dense layer 2, one grid point at a time. The grid has ten points; point t stages rows
  5000·t … 5000·t + 4999 of the aggregated features and of the node features (windows 0 and 1, 128 columns each),
  the two weight matrices and the bias row whole (windows 2, 4 and 3), and writes back the same rows of the result
  (window 5). The body reads its five inputs whole and stores one value over the whole output block, the
  payload `k1_pay1`: the two matrix products added, then the bias row added to every row (the layer-1
  maximum with zero is absent here). Stated for any float instance and for any contents V of the buffers at the launch's entry.
-/
import proofs.«416588_j74285754351848_1_alg».proof.Proof.Gen.KernelIdeal.Launch
import proofs.«416588_j74285754351848_1_alg».proof.Proof.Gen.KernelIdeal.Skeleton
import proofs.«416588_j74285754351848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window w's block at point t, cut out of its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the point fetched it or not: where it
    was not fetched the block index has not moved since the fetch. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem found1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

theorem found1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## What the body stores -/

/-- The whole block of a row window, of a weight window, of the bias window and of the output window, as rectangles. -/
abbrev rRows1 : Rect S5000x128 := Rect.unit (s := S5000x128) ![0, 0] S5000x128.size inb_S5000x128_S5000x128_0_0
abbrev rW1 : Rect S128x1 := Rect.unit (s := S128x1) ![0, 0] S128x1.size inb_S128x1_S128x1_0_0
abbrev rB1 : Rect S1x1 := Rect.unit (s := S1x1) ![0, 0] S1x1.size inb_S1x1_S1x1_0_0
abbrev rOut1 : Rect S5000x1 := Rect.unit (s := S5000x1) ![0, 0] S5000x1.size inb_S5000x1_S5000x1_0_0 -- [out]

/-- The output block after the body, from the five input blocks: one store of the payload over the whole block. -/
def out1_5 (x0 x1 : Vec F S5000x128 .f32) (x2 : Vec F S128x1 .f32) (x3 : Vec F S1x1 .f32) (x4 : Vec F S128x1 .f32) :
    Vec F S5000x1 .f32 := -- [out]
  View.canon [⟨rOut1, k1_pay1 (View.ld x0 rRows1) (View.ld x1 rRows1) (View.ld x2 rW1) (View.ld x4 rW1) (View.ld x3 rB1)⟩]

/-- The one store covers the block. -/
theorem cover1_5 (p0 : Vec F S5000x1 .f32) (y : S5000x1.Idx) : -- [out]
    ∃ pc ∈ ([⟨rOut1, p0⟩] : List (View.Piece (Elt F) S5000x1 .f32)), y ∈ pc.1.set := -- [out]
  View.cover_of_tiled [⟨rOut1, p0⟩] S5000x1.size (by rfl) y -- [out]

/-! ## The body's triple -/

set_option maxHeartbeats 1000000 in
/-- The body on whole staging memrefs, the inputs at known contents and the output at anything, ends with the
    inputs as they were and the output at `out1_5` of the inputs. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S128x1 .f32) (harg5 : arg5.IsWhole)
    (arg6 : Memref sig .tc .vmem S5000x1 .f32) (harg6 : arg6.IsWhole) -- [out]
    (x0 x1 : Vec F S5000x128 .f32) (x2 : Vec F S128x1 .f32) (x3 : Vec F S1x1 .f32) (x4 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The launch's proof data -/

/-- Per point: each input's buffer keeps its block, the output's holds `out1_5` of the input blocks; between
    points the launch keeps only the scoped buffers it does not stage and the generator register; nothing is owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1_5 (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = out1_5 (blk1 V c 0 t) (blk1 V c 1 t) (blk1 V c 2 t) (blk1 V c 3 t) (blk1 V c 4 t) := by dsimp only [dat1]

theorem found1_0 (c : Dev nD) (t : Fin cfg1.N) (d) : (dat1 V c).before 0 t d = blk1 V c 0 t :=
  found1_0_of V (dat1 V c) (A_eq1 V c 0) (after1_0 V c) t d
theorem found1_1 (c : Dev nD) (t : Fin cfg1.N) (d) : (dat1 V c).before 1 t d = blk1 V c 1 t :=
  found1_1_of V (dat1 V c) (A_eq1 V c 1) (after1_1 V c) t d
theorem found1_2 (c : Dev nD) (t : Fin cfg1.N) (d) : (dat1 V c).before 2 t d = blk1 V c 2 t :=
  found1_2_of V (dat1 V c) (A_eq1 V c 2) (after1_2 V c) t d
theorem found1_3 (c : Dev nD) (t : Fin cfg1.N) (d) : (dat1 V c).before 3 t d = blk1 V c 3 t :=
  found1_3_of V (dat1 V c) (A_eq1 V c 3) (after1_3 V c) t d
theorem found1_4 (c : Dev nD) (t : Fin cfg1.N) (d) : (dat1 V c).before 4 t d = blk1 V c 4 t :=
  found1_4_of V (dat1 V c) (A_eq1 V c 4) (after1_4 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the inputs' buffers hold their blocks, so the body's triple applies; what the launch keeps between
    points passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2, found1_3, found1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The pooling launch, one grid point at a time. The grid has ten points; point t stages rows 5000·t … 5000·t + 4999
  of the per-node value column and of the graph-id column (windows 0 and 1), and the 64 × 1 result (window 2) is
  written back after the last point only. The body keeps two 64 × 1 accumulators in scratch buffers of its own, the
  per-graph sum and the per-graph count: the first point clears both, every point adds its block's contribution to
  each, and the last point stores sum / max(count, 1) into the result's buffer. So the body has three control cases
  over the grid — first point (A), points 1 … 8 (B), last point (C) — and between points the launch's invariant must
  remember what the two accumulators hold. Stated for any float instance and any contents V at the launch's entry.
-/
import proofs.«416588_j74285754351848_1_alg».proof.Proof.Gen.KernelIdeal.Launch
import proofs.«416588_j74285754351848_1_alg».proof.Proof.Gen.KernelIdeal.Skeleton
import proofs.«416588_j74285754351848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the points stage -/

/-- Window w's block at point t, cut out of its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## The two conditions of the body, over the grid -/

/-- "This is the first point", as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- "This is the last point". -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

/-! ## Where the result's window is idle: everywhere but at the last point, and it is written back only there -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

/-- The result's staging buffer, as a view through which its contents are stated. -/
abbrev VO2_2 : View sig .tc .vmem S64x1 .f32 := (Memref.whole cc2_stg2_0 : Memref sig .tc .vmem S64x1 .f32).view
abbrev ms2_0 (t : Fin cfg2.N) : Memref sig .tc .vmem S5000x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x1 .f32 := win2_2.stage (cfg2.slots t 2)
abbrev hs2_2 (t : Fin cfg2.N) : (ms2_2 t).IsWhole := hstage2_2 ((cfg2.slots t 2).cast nbuf2_2)
/-- The two accumulators: whole scoped buffers of the kernel's own. -/
abbrev scM2_0 : Memref sig .tc .vmem S64x1 .f32 := Memref.whole cc2_scratch0
abbrev scM2_1 : Memref sig .tc .vmem S64x1 .f32 := Memref.whole cc2_scratch1
abbrev VS2_0 : View sig .tc .vmem S64x1 .f32 := scM2_0.view
abbrev VS2_1 : View sig .tc .vmem S64x1 .f32 := scM2_1.view

/-! ## The scoped buffers the launch does not stage: the other launches' staging buffers, and the two accumulators -/

/-- The eighteen staging buffers of the two dense layers' launches, each at some contents: the pooling body never
    touches them. -/
def idleScoped2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The class's invariant hands over those eighteen buffers, the two accumulators at some contents, and the generator
    register, -/
theorem PhiA2_split (c : Dev nD) :
    (Pipeline.ΦA spec2 c : sProp 𝕄)
      ⊢ iprop(idleScoped2 (F := F) c ∗ (∃ d, owns (c : Thread nD τ) scM2_0 fullShare d) ∗ (∃ d, owns (c : Thread nD τ) scM2_1 fullShare d) ∗ (∃ r, prngReg c r)) := by
  unfold Pipeline.ΦA idleScoped2; rw [scopedRest2_eq]; simp only [scM2_0, scM2_1, owns_whole]
  iintro ⟨⟨R0, R1, R2, R3, R4, R5, R6, R7, R8, R9, R10, R11, R12, R13, R14, R15, R16, R17, HS0, HS1⟩, Hg⟩
  isplitl [R0 R1 R2 R3 R4 R5 R6 R7 R8 R9 R10 R11 R12 R13 R14 R15 R16 R17]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    iexact R17
  isplitl [HS0]; · iexact HS0
  isplitl [HS1]; · iexact HS1
  iexact Hg

/-- and takes them back. -/
theorem PhiA2_join (c : Dev nD) :
    iprop(idleScoped2 (F := F) c ∗ (∃ d, owns (c : Thread nD τ) scM2_0 fullShare d) ∗ (∃ d, owns (c : Thread nD τ) scM2_1 fullShare d) ∗ (∃ r, prngReg c r))
      ⊢ (Pipeline.ΦA spec2 c : sProp 𝕄) := by
  unfold Pipeline.ΦA idleScoped2; rw [scopedRest2_eq]; simp only [scM2_0, scM2_1, owns_whole]
  iintro ⟨⟨R0, R1, R2, R3, R4, R5, R6, R7, R8, R9, R10, R11, R12, R13, R14, R15, R16, R17⟩, HS0, HS1, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  isplitl [R17]; · iexact R17
  isplitl [HS0]; · iexact HS0
  iexact HS1

/-! ## The body on any staging memrefs, case by case: what its stores leave, found by running it -/

set_option maxHeartbeats 2000000 in
/-- CASE A (the first point): both accumulators are cleared and then added to; the result's buffer is not stored
    into and is handed back as found. The stores into each accumulator, last first, are the witnesses the run finds. -/
noncomputable def kernelRun2_A (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) :
    Σ' (LS0 : List (View.Piece (Elt F) S64x1 .f32)), { LS1 : List (View.Piece (Elt F) S64x1 .f32) //
      ∀ (xi : Vec F S64x1 .f32) (E : Set ℕ) (K : PUnit → sProp 𝕄),
        iprop(owns (c : Thread nD τ) arg1 fullShare x0 ∗ owns (c : Thread nD τ) arg2 fullShare x1 ∗ owns (c : Thread nD τ) arg3 fullShare xi
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__pool_kernel i arg1 harg1 arg2 harg2 arg3 harg3 arg4 harg4 arg5 harg5) K } := by
  refine ⟨?_, ?_, fun xi E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- CASE B (points 1 … 8): both accumulators, at what the point before left, are added to; the result's buffer is
    handed back as found. -/
noncomputable def kernelRun2_B (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) :
    Σ' (LS0 : List (View.Piece (Elt F) S64x1 .f32)), { LS1 : List (View.Piece (Elt F) S64x1 .f32) //
      ∀ (xi : Vec F S64x1 .f32) (E : Set ℕ) (K : PUnit → sProp 𝕄),
        iprop(owns (c : Thread nD τ) arg1 fullShare x0 ∗ owns (c : Thread nD τ) arg2 fullShare x1 ∗ owns (c : Thread nD τ) arg3 fullShare xi
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__pool_kernel i arg1 harg1 arg2 harg2 arg3 harg3 arg4 harg4 arg5 harg5) K } := by
  refine ⟨?_, ?_, fun xi E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 2000000 in
/-- CASE C (the last point): both accumulators are added to, and the quotient of the sum by the count (the count
    raised to at least one) is stored over the result's buffer. -/
noncomputable def kernelRun2_C (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) :
    Σ' (L2 : List (View.Piece (Elt F) S64x1 .f32)) (LS0 : List (View.Piece (Elt F) S64x1 .f32)), { LS1 : List (View.Piece (Elt F) S64x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc2__pool_kernel i arg1 harg1 arg2 harg2 arg3 harg3 arg4 harg4 arg5 harg5) K } := by
  refine ⟨?_, ?_, ?_, fun E K => ?run⟩
  case run =>
    simp only [cc2__pool_kernel_eq_skeleton]; unfold cc2__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

/-! ## What each case leaves: its stores cover each accumulator (and, at the last point, the result's buffer), and the
    contents are the stores read back -/

theorem scover2_A_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) (y : S64x1.Idx) :
    ∃ pc ∈ (kernelRun2_A c i arg1 harg1 arg2 harg2 arg3 harg3 arg4 harg4 arg5 harg5 hc0 hc1 x0 x1).1, y ∈ pc.1.set :=
  View.cover_of_tiledL (kernelRun2_A c i arg1 harg1 arg2 harg2 arg3 harg3 arg4 harg4 arg5 harg5 hc0 hc1 x0 x1).1 S64x1.size (by sl_kernel_rfl) y

theorem scover2_A_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) (y : S64x1.Idx) :
    ∃ pc ∈ (kernelRun2_A c i arg1 harg1 arg2 harg2 arg3 harg3 arg4 harg4 arg5 harg5 hc0 hc1 x0 x1).2.1, y ∈ pc.1.set :=
  View.cover_of_tiledL (kernelRun2_A c i arg1 harg1 arg2 harg2 arg3 harg3 arg4 harg4 arg5 harg5 hc0 hc1 x0 x1).2.1 S64x1.size (by sl_kernel_rfl) y

def sout2_A_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) : Vec F S64x1 .f32 :=
  VS2_0.read (Elt F) (VS2_0.writes (Elt F) VS2_0.junk (kernelRun2_A c i arg1 harg1 arg2 harg2 arg3 harg3 arg4 harg4 arg5 harg5 hc0 hc1 x0 x1).1)

def sout2_A_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) : Vec F S64x1 .f32 :=
  VS2_1.read (Elt F) (VS2_1.writes (Elt F) VS2_1.junk (kernelRun2_A c i arg1 harg1 arg2 harg2 arg3 harg3 arg4 harg4 arg5 harg5 hc0 hc1 x0 x1).2.1)

theorem scover2_B_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) (y : S64x1.Idx) :
    ∃ pc ∈ (kernelRun2_B c i arg1 harg1 arg2 harg2 arg3 harg3 arg4 harg4 arg5 harg5 hc0 hc1 x0 x1 xs0 xs1).1, y ∈ pc.1.set :=
  View.cover_of_tiledL (kernelRun2_B c i arg1 harg1 arg2 harg2 arg3 harg3 arg4 harg4 arg5 harg5 hc0 hc1 x0 x1 xs0 xs1).1 S64x1.size (by sl_kernel_rfl) y

theorem scover2_B_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) (y : S64x1.Idx) :
    ∃ pc ∈ (kernelRun2_B c i arg1 harg1 arg2 harg2 arg3 harg3 arg4 harg4 arg5 harg5 hc0 hc1 x0 x1 xs0 xs1).2.1, y ∈ pc.1.set :=
  View.cover_of_tiledL (kernelRun2_B c i arg1 harg1 arg2 harg2 arg3 harg3 arg4 harg4 arg5 harg5 hc0 hc1 x0 x1 xs0 xs1).2.1 S64x1.size (by sl_kernel_rfl) y

def sout2_B_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) : Vec F S64x1 .f32 :=
  VS2_0.read (Elt F) (VS2_0.writes (Elt F) VS2_0.junk (kernelRun2_B c i arg1 harg1 arg2 harg2 arg3 harg3 arg4 harg4 arg5 harg5 hc0 hc1 x0 x1 xs0 xs1).1)

def sout2_B_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) : Vec F S64x1 .f32 :=
  VS2_1.read (Elt F) (VS2_1.writes (Elt F) VS2_1.junk (kernelRun2_B c i arg1 harg1 arg2 harg2 arg3 harg3 arg4 harg4 arg5 harg5 hc0 hc1 x0 x1 xs0 xs1).2.1)

theorem cover2_C_2 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) (y : S64x1.Idx) :
    ∃ pc ∈ (kernelRun2_C c i arg1 harg1 arg2 harg2 arg3 harg3 arg4 harg4 arg5 harg5 hc0 hc1 x0 x1 xs0 xs1).1, y ∈ pc.1.set :=
  View.cover_of_tiledL (kernelRun2_C c i arg1 harg1 arg2 harg2 arg3 harg3 arg4 harg4 arg5 harg5 hc0 hc1 x0 x1 xs0 xs1).1 S64x1.size (by sl_kernel_rfl) y

theorem scover2_C_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) (y : S64x1.Idx) :
    ∃ pc ∈ (kernelRun2_C c i arg1 harg1 arg2 harg2 arg3 harg3 arg4 harg4 arg5 harg5 hc0 hc1 x0 x1 xs0 xs1).2.1, y ∈ pc.1.set :=
  View.cover_of_tiledL (kernelRun2_C c i arg1 harg1 arg2 harg2 arg3 harg3 arg4 harg4 arg5 harg5 hc0 hc1 x0 x1 xs0 xs1).2.1 S64x1.size (by sl_kernel_rfl) y

theorem scover2_C_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) (y : S64x1.Idx) :
    ∃ pc ∈ (kernelRun2_C c i arg1 harg1 arg2 harg2 arg3 harg3 arg4 harg4 arg5 harg5 hc0 hc1 x0 x1 xs0 xs1).2.2.1, y ∈ pc.1.set :=
  View.cover_of_tiledL (kernelRun2_C c i arg1 harg1 arg2 harg2 arg3 harg3 arg4 harg4 arg5 harg5 hc0 hc1 x0 x1 xs0 xs1).2.2.1 S64x1.size (by sl_kernel_rfl) y

def out2_C_2 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) : Vec F S64x1 .f32 :=
  VO2_2.read (Elt F) (VO2_2.writes (Elt F) VO2_2.junk (kernelRun2_C c i arg1 harg1 arg2 harg2 arg3 harg3 arg4 harg4 arg5 harg5 hc0 hc1 x0 x1 xs0 xs1).1)

def sout2_C_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) : Vec F S64x1 .f32 :=
  VS2_0.read (Elt F) (VS2_0.writes (Elt F) VS2_0.junk (kernelRun2_C c i arg1 harg1 arg2 harg2 arg3 harg3 arg4 harg4 arg5 harg5 hc0 hc1 x0 x1 xs0 xs1).2.1)

def sout2_C_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) : Vec F S64x1 .f32 :=
  VS2_1.read (Elt F) (VS2_1.writes (Elt F) VS2_1.junk (kernelRun2_C c i arg1 harg1 arg2 harg2 arg3 harg3 arg4 harg4 arg5 harg5 hc0 hc1 x0 x1 xs0 xs1).2.2.1)

/-! ## Point by point -/

/-- A point after the first is not the first. -/
theorem succ_ne_first (n : ℕ) (hn : n + 1 < cfg2.N) : ¬ ((⟨n + 1, hn⟩ : Fin cfg2.N).val % 10 = 0) := by
  have hN : n + 1 < 10 := lt_of_lt_of_eq hn (show cfg2.N = 10 from N_2)
  intro h; (try dsimp only at h); omega

/-- What the result's buffer holds where the body does not store into it: nothing anyone reads. -/
def idleOut2 : Vec F S64x1 .f32 := VO2_2.read (Elt F) VO2_2.junk

/-- THE ACCUMULATION. After the body at position n: the result's buffer, the sum accumulator, the count accumulator.
    The first point is case A; a later point is case C if it is the last and case B otherwise, run over what the point
    before left in the two accumulators. -/
def outsAt2 (c : Dev nD) : (n : ℕ) → n < cfg2.N → Vec F S64x1 .f32 × Vec F S64x1 .f32 × Vec F S64x1 .f32
  | 0, hn => (idleOut2,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (blk2 V c 0 ⟨0, hn⟩) (blk2 V c 1 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (blk2 V c 0 ⟨0, hn⟩) (blk2 V c 1 ⟨0, hn⟩))
  | n + 1, hn =>
    if h1 : (n + 1) % 10 = 9 then
      (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) ((hcond2_1 ⟨n + 1, hn⟩).mpr h1) (blk2 V c 0 ⟨n + 1, hn⟩) (blk2 V c 1 ⟨n + 1, hn⟩) (outsAt2 c n (Nat.lt_of_succ_lt hn)).2.1 (outsAt2 c n (Nat.lt_of_succ_lt hn)).2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) ((hcond2_1 ⟨n + 1, hn⟩).mpr h1) (blk2 V c 0 ⟨n + 1, hn⟩) (blk2 V c 1 ⟨n + 1, hn⟩) (outsAt2 c n (Nat.lt_of_succ_lt hn)).2.1 (outsAt2 c n (Nat.lt_of_succ_lt hn)).2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) ((hcond2_1 ⟨n + 1, hn⟩).mpr h1) (blk2 V c 0 ⟨n + 1, hn⟩) (blk2 V c 1 ⟨n + 1, hn⟩) (outsAt2 c n (Nat.lt_of_succ_lt hn)).2.1 (outsAt2 c n (Nat.lt_of_succ_lt hn)).2.2)
    else
      (idleOut2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) (fun h => h1 ((hcond2_1 ⟨n + 1, hn⟩).mp h)) (blk2 V c 0 ⟨n + 1, hn⟩) (blk2 V c 1 ⟨n + 1, hn⟩) (outsAt2 c n (Nat.lt_of_succ_lt hn)).2.1 (outsAt2 c n (Nat.lt_of_succ_lt hn)).2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => succ_ne_first n hn ((hcond2_0 ⟨n + 1, hn⟩).mp h)) (fun h => h1 ((hcond2_1 ⟨n + 1, hn⟩).mp h)) (blk2 V c 0 ⟨n + 1, hn⟩) (blk2 V c 1 ⟨n + 1, hn⟩) (outsAt2 c n (Nat.lt_of_succ_lt hn)).2.1 (outsAt2 c n (Nat.lt_of_succ_lt hn)).2.2)

/-- At the first point: case A's contents. -/
theorem outsAt2_A (c : Dev nD) (t : Fin cfg2.N) (h0 : t.val % 10 = 0) (h1 : ¬t.val % 10 = 9) :
    outsAt2 V c t.val t.isLt = (idleOut2, sout2_A_0 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (blk2 V c 0 t) (blk2 V c 1 t), sout2_A_1 c (grid2.coords t) (ms2_0 t) (hs2_0 t) (ms2_1 t) (hs2_1 t) (ms2_2 t) (hs2_2 t) scM2_0 (Memref.isWhole_whole _) scM2_1 (Memref.isWhole_whole _) ((hcond2_0 t).mpr h0) (fun h => h1 ((hcond2_1 t).mp h)) (blk2 V c 0 t) (blk2 V c 1 t)) := by
  obtain ⟨n, hn⟩ := t
  cases n with
  | zero => exact rfl
  | succ n => exact absurd h0 (succ_ne_first n hn)

/-- At points 1 … 8: case B's contents, over what the point before left. -/
theorem outsAt2_B (c : Dev nD) (t : Fin cfg2.N) (h0 : ¬t.val % 10 = 0) (h1 : ¬t.val % 10 = 9) :
    outsAt2 V c t.val t.isLt = (idleOut2, sout2_B_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_B_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (fun h => h1 ((hcond2_1 t).mp h)) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- At the last point: case C's contents, over what the point before left. -/
theorem outsAt2_C (c : Dev nD) (t : Fin cfg2.N) (h0 : ¬t.val % 10 = 0) (h1 : t.val % 10 = 9) :
    outsAt2 V c t.val t.isLt = (out2_C_2 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2, sout2_C_1 c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) ((hcond2_1 t).mpr h1) (blk2 V c 0 t) (blk2 V c 1 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The launch's invariant between points -/

/-- Before the first point the class's invariant (both accumulators at anything); before a later point the eighteen
    untouched buffers, each accumulator at what the point before left in it, and the generator register. -/
def PhiS2 (c : Dev nD) : (n : ℕ) → n ≤ cfg2.N → sProp 𝕄
  | 0, _ => Pipeline.ΦA spec2 c
  | n + 1, hn => iprop(idleScoped2 (F := F) c ∗ owns (c : Thread nD τ) scM2_0 fullShare (outsAt2 V c n hn).2.1 ∗ owns (c : Thread nD τ) scM2_1 fullShare (outsAt2 V c n hn).2.2 ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(idleScoped2 (F := F) c ∗ owns (c : Thread nD τ) scM2_0 fullShare (outsAt2 V c n hn).2.1 ∗ owns (c : Thread nD τ) scM2_1 fullShare (outsAt2 V c n hn).2.2 ∗ (∃ r, prngReg c r)) := rfl

theorem PhiS2_pos (c : Dev nD) (n : ℕ) (h : n ≤ cfg2.N) (hz : n ≠ 0) :
    PhiS2 V c n h = iprop(idleScoped2 (F := F) c ∗ owns (c : Thread nD τ) scM2_0 fullShare (outsAt2 V c (n - 1) (by omega)).2.1 ∗ owns (c : Thread nD τ) scM2_1 fullShare (outsAt2 V c (n - 1) (by omega)).2.2 ∗ (∃ r, prngReg c r)) := by
  cases n with
  | zero => exact absurd rfl hz
  | succ n => rfl

/-! ## The launch's proof data -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = (outsAt2 V c t.val t.isLt).1 := by dsimp only [dat2]

theorem found2_0 (c : Dev nD) (t : Fin cfg2.N) (d) : (dat2 V c).before 0 t d = blk2 V c 0 t :=
  found2_0_of V (dat2 V c) (A_eq2 V c 0) (after2_0 V c) t d
theorem found2_1 (c : Dev nD) (t : Fin cfg2.N) (d) : (dat2 V c).before 1 t d = blk2 V c 1 t :=
  found2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- At any point the inputs' buffers hold their blocks; the two conditions' closed forms say which case the point is
    in; the invariant hands the body the accumulators at what the point before left (at anything, at the first point)
    and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [found2_0, found2_1]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 10 = 0
  · have h1 : ¬t.val % 10 = 9 := by omega
    have hz : t.val = 0 := by omega
    rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
    rw [outsAt2_A V c t h0 h1]
    unfold sout2_A_0 sout2_A_1; (try dsimp only)
    rw [PhiS2_castSucc V c t, PhiS2_zero V c _ _ hz]
    iintro ⟨HΦ, Ho, ⟨%d0, H0⟩, ⟨%d1, H1⟩, ⟨%d2, H2⟩⟩
    ihave HΦ' := (PhiA2_split (F := F) c) $$ HΦ
    icases HΦ' with ⟨HR, HS0, HS1, Hg⟩
    iapply ((kernelRun2_A c (grid2.coords t) _ _ _ _ _ _ _ _ _ _ ((hcond2_0 t).mpr h0) (fun h => h1 ((hcond2_1 t).mp h)) (blk2 V c 0 t) (blk2 V c 1 t)).2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HR HS0 HS1 Hg]
    · isplitl [HR]; · iexact HR
      isplitl [HS0]
      · unfold owns; iexists _; isplitr
        swap; · iexact HS0
        ipureintro; exact View.read_writes_of_cover _ _ _ _ _ (scover2_A_0 c _ _ _ _ _ _ _ _ _ _ _ _ _ _ _)
      isplitl [HS1]
      · unfold owns; iexists _; isplitr
        swap; · iexact HS1
        ipureintro; exact View.read_writes_of_cover _ _ _ _ _ (scover2_A_1 c _ _ _ _ _ _ _ _ _ _ _ _ _ _ _)
      iexact Hg
    isplitl [Ho]; · iexact Ho
    isplitl [H0]; · iexact H0
    isplitl [H1]; · iexact H1
    iexists _; iexact H2
  · have hz : t.val ≠ 0 := fun e => h0 (by rw [e])
    by_cases h1 : t.val % 10 = 9
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0 sout2_C_1; (try dsimp only)
      rw [PhiS2_castSucc V c t, PhiS2_pos V c _ _ hz]
      iintro ⟨⟨HR, HS0, HS1, Hg⟩, Ho, ⟨%d0, H0⟩, ⟨%d1, H1⟩, ⟨%d2, H2⟩⟩
      iapply ((kernelRun2_C c (grid2.coords t) _ _ _ _ _ _ _ _ _ _ (fun h => h0 ((hcond2_0 t).mp h)) ((hcond2_1 t).mpr h1) (blk2 V c 0 t) (blk2 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover2_C_0 c _ _ _ _ _ _ _ _ _ _ _ _ _ _ _ _ _)
        isplitl [HS1]
        · unfold owns; iexists _; isplitr
          swap; · iexact HS1
          ipureintro; exact View.read_writes_of_cover _ _ _ _ _ (scover2_C_1 c _ _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0 sout2_B_1; (try dsimp only)
      rw [PhiS2_castSucc V c t, PhiS2_pos V c _ _ hz]
      iintro ⟨⟨HR, HS0, HS1, Hg⟩, Ho, ⟨%d0, H0⟩, ⟨%d1, H1⟩, ⟨%d2, H2⟩⟩
      iapply ((kernelRun2_B c (grid2.coords t) _ _ _ _ _ _ _ _ _ _ (fun h => h0 ((hcond2_0 t).mp h)) (fun h => h1 ((hcond2_1 t).mp h)) (blk2 V c 0 t) (blk2 V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (scover2_B_0 c _ _ _ _ _ _ _ _ _ _ _ _ _ _ _ _ _)
        isplitl [HS1]
        · unfold owns; iexists _; isplitr
          swap; · iexact HS1
          ipureintro; exact View.read_writes_of_cover _ _ _ _ _ (scover2_B_1 c _ _ _ _ _ _ _ _ _ _ _ _ _ _ _ _ _)
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: what the accumulators hold is forgotten. -/
theorem hout2 (c : Dev nD) : (dat2 V c).Φ (Fin.last cfg2.N) ⊢ Pipeline.ΦA spec2 c := by
  have hne : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl,
    PhiS2_pos V c _ _ hne]
  refine BIBase.Entails.trans ?_ (PhiA2_join (F := F) c)
  iintro ⟨HR, HS0, HS1, Hg⟩
  isplitl [HR]; · iexact HR
  isplitl [HS0]; · iexists _; iexact HS0
  isplitl [HS1]; · iexists _; iexact HS1
  iexact Hg

end Cert.KernelIdeal.Hand

end
-- ==== Proof.KI.Run.lean ====
/-
  The whole program as a run of six segments: three stretches of host operations, each followed by one of the three
  launches. The contents of the buffers at each boundary are a fold from the launch memory: a host stretch applies its
  operations, a launch replaces the arrays of its windows by what its write-backs leave (an array it only reads is
  left as found). No host operation and no launch writes an argument, so every argument ends as launched; and the
  last launch's output array ends at what its write-backs leave, which is the program's result.
-/
import proofs.«416588_j74285754351848_1_alg».proof.Proof.KI.Reg0
import proofs.«416588_j74285754351848_1_alg».proof.Proof.KI.Reg1
import proofs.«416588_j74285754351848_1_alg».proof.Proof.KI.Reg2
import proofs.«416588_j74285754351848_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)

/-- Before launch 0: the host operations of the stretch before it applied. -/
abbrev W1 : Dev nD → Valuation τ sig (Elt F) := fun c => StableHlo.after hostOps0 (W0 m ρ c)
/-- The same, read at the core's own references: what launch 0's proof data are stated at. -/
abbrev E1 : (c : Dev nD) → (b : Ref sig .tc) → Buf (Elt F) ((c : Thread nD τ).loc b) := fun c b => W1 m ρ c b
/-- After launch 0: its arrays at what its write-backs leave, every other buffer as before it. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An array launch 0 only reads is left as found. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hw _).trans (A_eq0 (E1 m ρ) c w))
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- Before launch 1: the host operations of the stretch before it applied. -/
abbrev W3 : Dev nD → Valuation τ sig (Elt F) := fun c => StableHlo.after hostOps1 (W2 m ρ c)
/-- The same, read at the core's own references: what launch 1's proof data are stated at. -/
abbrev E3 : (c : Dev nD) → (b : Ref sig .tc) → Buf (Elt F) ((c : Thread nD τ).loc b) := fun c b => W3 m ρ c b
/-- After launch 1: its arrays at what its write-backs leave, every other buffer as before it. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An array launch 1 only reads is left as found. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hw _).trans (A_eq1 (E3 m ρ) c w))
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- Before launch 2: the host operations of the stretch before it applied. -/
abbrev W5 : Dev nD → Valuation τ sig (Elt F) := fun c => StableHlo.after hostOps2 (W4 m ρ c)
/-- The same, read at the core's own references: what launch 2's proof data are stated at. -/
abbrev E5 : (c : Dev nD) → (b : Ref sig .tc) → Buf (Elt F) ((c : Thread nD τ).loc b) := fun c b => W5 m ρ c b
/-- After launch 2: its arrays at what its write-backs leave, every other buffer as before it. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An array launch 2 only reads is left as found. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (E5 m ρ) c).arrAt_in w hw _).trans (A_eq2 (E5 m ρ) c w))
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-! ## Every argument ends as launched -/

theorem W6_main_arg0 (c : Dev nD) : W6 m ρ c (Proc.devRef .tc main_arg0) = m ((c : Thread nD τ).loc main_arg0) :=
  (W6_of_ne m ρ c main_arg0 (by decide)).trans <| (StableHlo.after_of_writes_sub hostOps2 _ hostOps2_writes (by decide : main_arg0 ∉ hostOps2_W)).trans <| (W4_of_ne m ρ c main_arg0 (by decide)).trans <| (StableHlo.after_of_writes_sub hostOps1 _ hostOps1_writes (by decide : main_arg0 ∉ hostOps1_W)).trans <| (W2_in m ρ c 1 rfl).trans <| (StableHlo.after_of_writes_sub hostOps0 _ hostOps0_writes (by decide : main_arg0 ∉ hostOps0_W)).trans rfl
theorem W6_main_arg1 (c : Dev nD) : W6 m ρ c (Proc.devRef .tc main_arg1) = m ((c : Thread nD τ).loc main_arg1) :=
  (W6_of_ne m ρ c main_arg1 (by decide)).trans <| (StableHlo.after_of_writes_sub hostOps2 _ hostOps2_writes (by decide : main_arg1 ∉ hostOps2_W)).trans <| (W4_of_ne m ρ c main_arg1 (by decide)).trans <| (StableHlo.after_of_writes_sub hostOps1 _ hostOps1_writes (by decide : main_arg1 ∉ hostOps1_W)).trans <| (W2_of_ne m ρ c main_arg1 (by decide)).trans <| (StableHlo.after_of_writes_sub hostOps0 _ hostOps0_writes (by decide : main_arg1 ∉ hostOps0_W)).trans rfl
theorem W6_main_arg2 (c : Dev nD) : W6 m ρ c (Proc.devRef .tc main_arg2) = m ((c : Thread nD τ).loc main_arg2) :=
  (W6_of_ne m ρ c main_arg2 (by decide)).trans <| (StableHlo.after_of_writes_sub hostOps2 _ hostOps2_writes (by decide : main_arg2 ∉ hostOps2_W)).trans <| (W4_of_ne m ρ c main_arg2 (by decide)).trans <| (StableHlo.after_of_writes_sub hostOps1 _ hostOps1_writes (by decide : main_arg2 ∉ hostOps1_W)).trans <| (W2_of_ne m ρ c main_arg2 (by decide)).trans <| (StableHlo.after_of_writes_sub hostOps0 _ hostOps0_writes (by decide : main_arg2 ∉ hostOps0_W)).trans rfl
theorem W6_main_arg3 (c : Dev nD) : W6 m ρ c (Proc.devRef .tc main_arg3) = m ((c : Thread nD τ).loc main_arg3) :=
  (W6_of_ne m ρ c main_arg3 (by decide)).trans <| (StableHlo.after_of_writes_sub hostOps2 _ hostOps2_writes (by decide : main_arg3 ∉ hostOps2_W)).trans <| (W4_of_ne m ρ c main_arg3 (by decide)).trans <| (StableHlo.after_of_writes_sub hostOps1 _ hostOps1_writes (by decide : main_arg3 ∉ hostOps1_W)).trans <| (W2_of_ne m ρ c main_arg3 (by decide)).trans <| (StableHlo.after_of_writes_sub hostOps0 _ hostOps0_writes (by decide : main_arg3 ∉ hostOps0_W)).trans rfl
theorem W6_main_arg4 (c : Dev nD) : W6 m ρ c (Proc.devRef .tc main_arg4) = m ((c : Thread nD τ).loc main_arg4) :=
  (W6_of_ne m ρ c main_arg4 (by decide)).trans <| (StableHlo.after_of_writes_sub hostOps2 _ hostOps2_writes (by decide : main_arg4 ∉ hostOps2_W)).trans <| (W4_of_ne m ρ c main_arg4 (by decide)).trans <| (StableHlo.after_of_writes_sub hostOps1 _ hostOps1_writes (by decide : main_arg4 ∉ hostOps1_W)).trans <| (W2_in m ρ c 2 rfl).trans <| (StableHlo.after_of_writes_sub hostOps0 _ hostOps0_writes (by decide : main_arg4 ∉ hostOps0_W)).trans rfl
theorem W6_main_arg5 (c : Dev nD) : W6 m ρ c (Proc.devRef .tc main_arg5) = m ((c : Thread nD τ).loc main_arg5) :=
  (W6_of_ne m ρ c main_arg5 (by decide)).trans <| (StableHlo.after_of_writes_sub hostOps2 _ hostOps2_writes (by decide : main_arg5 ∉ hostOps2_W)).trans <| (W4_of_ne m ρ c main_arg5 (by decide)).trans <| (StableHlo.after_of_writes_sub hostOps1 _ hostOps1_writes (by decide : main_arg5 ∉ hostOps1_W)).trans <| (W2_of_ne m ρ c main_arg5 (by decide)).trans <| (StableHlo.after_of_writes_sub hostOps0 _ hostOps0_writes (by decide : main_arg5 ∉ hostOps0_W)).trans rfl
theorem W6_main_arg6 (c : Dev nD) : W6 m ρ c (Proc.devRef .tc main_arg6) = m ((c : Thread nD τ).loc main_arg6) :=
  (W6_of_ne m ρ c main_arg6 (by decide)).trans <| (StableHlo.after_of_writes_sub hostOps2 _ hostOps2_writes (by decide : main_arg6 ∉ hostOps2_W)).trans <| (W4_of_ne m ρ c main_arg6 (by decide)).trans <| (StableHlo.after_of_writes_sub hostOps1 _ hostOps1_writes (by decide : main_arg6 ∉ hostOps1_W)).trans <| (W2_in m ρ c 4 rfl).trans <| (StableHlo.after_of_writes_sub hostOps0 _ hostOps0_writes (by decide : main_arg6 ∉ hostOps0_W)).trans rfl
theorem W6_main_arg7 (c : Dev nD) : W6 m ρ c (Proc.devRef .tc main_arg7) = m ((c : Thread nD τ).loc main_arg7) :=
  (W6_of_ne m ρ c main_arg7 (by decide)).trans <| (StableHlo.after_of_writes_sub hostOps2 _ hostOps2_writes (by decide : main_arg7 ∉ hostOps2_W)).trans <| (W4_in m ρ c 2 rfl).trans <| (StableHlo.after_of_writes_sub hostOps1 _ hostOps1_writes (by decide : main_arg7 ∉ hostOps1_W)).trans <| (W2_of_ne m ρ c main_arg7 (by decide)).trans <| (StableHlo.after_of_writes_sub hostOps0 _ hostOps0_writes (by decide : main_arg7 ∉ hostOps0_W)).trans rfl
theorem W6_main_arg8 (c : Dev nD) : W6 m ρ c (Proc.devRef .tc main_arg8) = m ((c : Thread nD τ).loc main_arg8) :=
  (W6_of_ne m ρ c main_arg8 (by decide)).trans <| (StableHlo.after_of_writes_sub hostOps2 _ hostOps2_writes (by decide : main_arg8 ∉ hostOps2_W)).trans <| (W4_of_ne m ρ c main_arg8 (by decide)).trans <| (StableHlo.after_of_writes_sub hostOps1 _ hostOps1_writes (by decide : main_arg8 ∉ hostOps1_W)).trans <| (W2_of_ne m ρ c main_arg8 (by decide)).trans <| (StableHlo.after_of_writes_sub hostOps0 _ hostOps0_writes (by decide : main_arg8 ∉ hostOps0_W)).trans rfl
theorem W6_main_arg9 (c : Dev nD) : W6 m ρ c (Proc.devRef .tc main_arg9) = m ((c : Thread nD τ).loc main_arg9) :=
  (W6_of_ne m ρ c main_arg9 (by decide)).trans <| (StableHlo.after_of_writes_sub hostOps2 _ hostOps2_writes (by decide : main_arg9 ∉ hostOps2_W)).trans <| (W4_in m ρ c 4 rfl).trans <| (StableHlo.after_of_writes_sub hostOps1 _ hostOps1_writes (by decide : main_arg9 ∉ hostOps1_W)).trans <| (W2_of_ne m ρ c main_arg9 (by decide)).trans <| (StableHlo.after_of_writes_sub hostOps0 _ hostOps0_writes (by decide : main_arg9 ∉ hostOps0_W)).trans rfl

/-! ## The proof data family and what rides beside the buffers -/

/-- Each launch's proof data, at the contents its launch is entered with. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the register. -/
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered with every unscoped buffer at `W1`, left with them at `W2`. Its arrays
    are split out of the unscoped buffers at the entry and put back at the exit; the generator register goes into the
    launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left with them at `W4`. Its arrays
    are split out of the unscoped buffers at the entry and put back at the exit; the generator register goes into the
    launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left with them at `W6`. Its arrays
    are split out of the unscoped buffers at the entry and put back at the exit; the generator register goes into the
    launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m ρ) c)
    unfold Pipeline.ΦA
    iintro ⟨Hp, -, Hr⟩
    isplitl [Hr]; · iexact Hr
    iexact Hp
  hout c := by
    rw [Pipeline.ownSems0_none]
    refine BIBase.Entails.trans (hout2 (E5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, and every final state holds
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c)⟩) (run_all m ρ)

/-- THE RESULT: the output array ends at what the pooling launch's write-backs leave, the arguments as launched. -/
theorem run_result : θ_run defs (onTc (τ := τ) (main (F := F))) ⟨m, fun _ => 0, ρ⟩ (fun r => ∀ c : Dev nD,
      r.2.mem ((c.tc : Thread nD τ).loc main_v42) = (dat2 (E5 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v42 (by decide))).trans (W6_arr m ρ c 2),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c)⟩) (run_all m ρ)

end Cert.KernelIdeal.Hand

end
-- ==== Proof.KI.Entry.lean ====
/-
  What each launch finds in the arrays of its windows, read off the fold of host operations and launches, at the
  ideal instance. The host stretch before the first dense layer computes the mean aggregation of the node features
  — the very operations the reference applies —, so launch 0 finds that aggregation of the argument; the stretch
  before the second dense layer applies the same aggregation to launch 0's result; the stretch before the pooling
  only reshapes the graph-id argument into a column.
-/
import proofs.«416588_j74285754351848_1_alg».proof.Proof.KI.Run
import proofs.«416588_j74285754351848_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Arguments pass through untouched -/

theorem W1_arg0 : W1 m ρ c (Proc.devRef .tc main_arg0) = (m ((c.tc : Thread nD τ).loc main_arg0)) := (StableHlo.after_of_writes_sub hostOps0 _ hostOps0_writes (by decide : main_arg0 ∉ hostOps0_W)).trans rfl
theorem W1_arg4 : W1 m ρ c (Proc.devRef .tc main_arg4) = (m ((c.tc : Thread nD τ).loc main_arg4)) := (StableHlo.after_of_writes_sub hostOps0 _ hostOps0_writes (by decide : main_arg4 ∉ hostOps0_W)).trans rfl
theorem W1_arg5 : W1 m ρ c (Proc.devRef .tc main_arg5) = (m ((c.tc : Thread nD τ).loc main_arg5)) := (StableHlo.after_of_writes_sub hostOps0 _ hostOps0_writes (by decide : main_arg5 ∉ hostOps0_W)).trans rfl
theorem W1_arg6 : W1 m ρ c (Proc.devRef .tc main_arg6) = (m ((c.tc : Thread nD τ).loc main_arg6)) := (StableHlo.after_of_writes_sub hostOps0 _ hostOps0_writes (by decide : main_arg6 ∉ hostOps0_W)).trans rfl
theorem W2_arg8 : W2 m ρ c (Proc.devRef .tc main_arg8) = (m ((c.tc : Thread nD τ).loc main_arg8)) := (W2_of_ne m ρ c main_arg8 (by decide)).trans <| (StableHlo.after_of_writes_sub hostOps0 _ hostOps0_writes (by decide : main_arg8 ∉ hostOps0_W)).trans <| rfl
theorem W3_arg7 : W3 m ρ c (Proc.devRef .tc main_arg7) = (m ((c.tc : Thread nD τ).loc main_arg7)) := (StableHlo.after_of_writes_sub hostOps1 _ hostOps1_writes (by decide : main_arg7 ∉ hostOps1_W)).trans <| (W2_of_ne m ρ c main_arg7 (by decide)).trans <| (StableHlo.after_of_writes_sub hostOps0 _ hostOps0_writes (by decide : main_arg7 ∉ hostOps0_W)).trans <| rfl
theorem W3_arg9 : W3 m ρ c (Proc.devRef .tc main_arg9) = (m ((c.tc : Thread nD τ).loc main_arg9)) := (StableHlo.after_of_writes_sub hostOps1 _ hostOps1_writes (by decide : main_arg9 ∉ hostOps1_W)).trans <| (W2_of_ne m ρ c main_arg9 (by decide)).trans <| (StableHlo.after_of_writes_sub hostOps0 _ hostOps0_writes (by decide : main_arg9 ∉ hostOps0_W)).trans <| rfl
theorem W4_arg3 : W4 m ρ c (Proc.devRef .tc main_arg3) = (m ((c.tc : Thread nD τ).loc main_arg3)) := (W4_of_ne m ρ c main_arg3 (by decide)).trans <| (StableHlo.after_of_writes_sub hostOps1 _ hostOps1_writes (by decide : main_arg3 ∉ hostOps1_W)).trans <| (W2_of_ne m ρ c main_arg3 (by decide)).trans <| (StableHlo.after_of_writes_sub hostOps0 _ hostOps0_writes (by decide : main_arg3 ∉ hostOps0_W)).trans <| rfl

/-! ## The first stretch: the edge endpoints, the inverse degrees, the aggregation of the node features -/

theorem W1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results; rfl
theorem W1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results; rfl
theorem W1_v12 : W1 m ρ c (Proc.devRef .tc main_v12) = Cert.ReferenceIdeal.Read.val_main_v12 (F := Ideal) (m ((c.tc : Thread nD τ).loc main_arg1)) := by
  show StableHlo.after hostOps0 (W0 m ρ c) (Proc.devRef .tc main_v12) = _
  after_results; rfl

set_option maxHeartbeats 8000000 in
/-- Launch 0's first window: the mean aggregation of the node features, as the reference computes it. -/
theorem E1_v24 : E1 m ρ c main_v24 = Cert.ReferenceIdeal.Read.val_main_v24 (F := Ideal) (m ((c.tc : Thread nD τ).loc main_arg0)) (m ((c.tc : Thread nD τ).loc main_arg1)) := by
  show StableHlo.after hostOps0 (W0 m ρ c) (Proc.devRef .tc main_v24) = _
  after_results_simp <;> rfl
/-- Its bias window: the bias vector as one row. -/
theorem E1_v25 : E1 m ρ c main_v25 = shapeCast S1x128 (m ((c.tc : Thread nD τ).loc main_arg5)) shapeCasts_S128_S1x128 := by
  show StableHlo.after hostOps0 (W0 m ρ c) (Proc.devRef .tc main_v25) = _
  after_results; rfl
theorem E1_arg0 : E1 m ρ c main_arg0 = (m ((c.tc : Thread nD τ).loc main_arg0)) := W1_arg0 m ρ c
theorem E1_arg4 : E1 m ρ c main_arg4 = (m ((c.tc : Thread nD τ).loc main_arg4)) := W1_arg4 m ρ c
theorem E1_arg6 : E1 m ρ c main_arg6 = (m ((c.tc : Thread nD τ).loc main_arg6)) := W1_arg6 m ρ c

/-! ## The second stretch: the same aggregation, of launch 0's result -/

theorem W2_v1 : W2 m ρ c (Proc.devRef .tc main_v1) = Cert.ReferenceIdeal.Read.val_main_v1 (F := Ideal) (m ((c.tc : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W2_v12 : W2 m ρ c (Proc.devRef .tc main_v12) = Cert.ReferenceIdeal.Read.val_main_v12 (F := Ideal) (m ((c.tc : Thread nD τ).loc main_arg1)) :=
  (W2_of_ne m ρ c main_v12 (by decide)).trans (W1_v12 m ρ c)

/-- What launch 0 leaves: its output array after the ten write-backs. -/
theorem E2_v26 : E2 m ρ c main_v26 = (dat0 (E1 m ρ) c).arrAt 5 cfg0.N := W2_arr m ρ c 5
theorem E3_v26 : E3 m ρ c main_v26 = E2 m ρ c main_v26 :=
  StableHlo.after_of_writes_sub hostOps1 _ hostOps1_writes (by decide : main_v26 ∉ hostOps1_W)

set_option maxHeartbeats 8000000 in
/-- Launch 1's first window: the mean aggregation of launch 0's result. -/
theorem E3_v38 : E3 m ρ c main_v38 = Cert.ReferenceIdeal.Read.val_main_v24 (F := Ideal) (E2 m ρ c main_v26) (m ((c.tc : Thread nD τ).loc main_arg1)) := by
  have h1 := W2_v1 m ρ c
  have h3 := W2_v3 m ρ c
  have h12 := W2_v12 m ρ c
  show StableHlo.after hostOps1 (W2 m ρ c) (Proc.devRef .tc main_v38)
    = Cert.ReferenceIdeal.Read.val_main_v24 (F := Ideal) (W2 m ρ c (Proc.devRef .tc main_v26)) _
  generalize W2 m ρ c = Wv at h1 h3 h12 ⊢
  after_results_simp
  rw [h1, h3, h12]
  rfl
theorem E3_v39 : E3 m ρ c main_v39 = shapeCast S1x1 (m ((c.tc : Thread nD τ).loc main_arg8)) shapeCasts_S1_S1x1 := by
  show StableHlo.after hostOps1 (W2 m ρ c) (Proc.devRef .tc main_v39) = _
  after_results
  rw [W2_arg8]
  rfl
theorem E3_arg7 : E3 m ρ c main_arg7 = (m ((c.tc : Thread nD τ).loc main_arg7)) := W3_arg7 m ρ c
theorem E3_arg9 : E3 m ρ c main_arg9 = (m ((c.tc : Thread nD τ).loc main_arg9)) := W3_arg9 m ρ c

/-! ## The third stretch: the graph ids as a column -/

theorem E4_v40 : E4 m ρ c main_v40 = (dat1 (E3 m ρ) c).arrAt 5 cfg1.N := W4_arr m ρ c 5
theorem E5_v40 : E5 m ρ c main_v40 = (dat1 (E3 m ρ) c).arrAt 5 cfg1.N :=
  (StableHlo.after_of_writes_sub hostOps2 _ hostOps2_writes (by decide : main_v40 ∉ hostOps2_W)).trans (E4_v40 m ρ c)
theorem E5_v41 : E5 m ρ c main_v41 = shapeCast S50000x1 (m ((c.tc : Thread nD τ).loc main_arg3)) shapeCasts_S50000_S50000x1 := by
  show StableHlo.after hostOps2 (W4 m ρ c) (Proc.devRef .tc main_v41) = _
  after_results
  rw [W4_arg3]
  rfl

end Cert.KernelIdeal.Hand

end
-- ==== Proof.KI.Dense.lean ====
/-
  The two dense layers read at an element. Each launch stages ten blocks of 5000 rows; every point stores, over its
  whole output block, the two matrix products added, then the bias row added to every row (then, in layer 1 only, the
  maximum with zero). Since the ten row blocks tile the 50000 rows and every point writes its block back, the output
  array after the launch is that expression of the arrays the launch found, row by row.
-/
import proofs.«416588_j74285754351848_1_alg».proof.Proof.KI.Reg0
import proofs.«416588_j74285754351848_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- Layer 1 at node n and feature j: the two products' sums added, then the bias, then the maximum with zero. -/
def dense1At (a x : FVec Ideal S50000x128 .f32) (wl : FVec Ideal S128x128 .f32) (b : FVec Ideal S1x128 .f32) (wr : FVec Ideal S128x128 .f32)
    (n : Fin 50000) (j : Fin 128) : EReal :=
  max (((∑ k : Fin 128, a (ix2 n k) * wl (ix2 k j)) + ∑ k : Fin 128, x (ix2 n k) * wr (ix2 k j)) + b (ix2 (0 : Fin 1) j)) 0

/-- Layer 2 at node n: the two products' sums added, then the bias. -/
def dense2At (a x : FVec Ideal S50000x128 .f32) (wl : FVec Ideal S128x1 .f32) (b : FVec Ideal S1x1 .f32) (wr : FVec Ideal S128x1 .f32)
    (n : Fin 50000) : EReal :=
  ((∑ k : Fin 128, a (ix2 n k) * wl (ix2 k (0 : Fin 1))) + ∑ k : Fin 128, x (ix2 n k) * wr (ix2 k (0 : Fin 1))) + b (ix2 (0 : Fin 1) (0 : Fin 1))

/-- The zero offsets of a whole-block rectangle, as a constant function. -/
theorem zeroOffsets : (![0, 0] : Fin 2 → Nat) = fun _ => 0 := funext fun a => by fin_cases a <;> rfl

/-! ## Layer 1: the body's stored value at an element -/

/-- In the first product's dimension numbers the left operand's row is the output's row, -/
theorem lhsRow1 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column the summation index; -/
theorem lhsCol1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's row is the summation index, -/
theorem rhsRow1 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and its column the output's column. -/
theorem rhsCol1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000×128 block with a 128×128 matrix into the zero accumulator, at row p and column q, is the sum
    over k of the block at (p, k) times the matrix at (k, q). -/
theorem product1_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsRow1 _ _
    | ⟨1, _⟩ => exact (lhsCol1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsRow1 _ _).trans hk
    | ⟨1, _⟩ => exact rhsCol1 _ _)
  rw [el, er]

/-- What layer 1's body stores, at row p and column q of the block, from the five blocks it loads. -/
theorem stored1_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max (((∑ k : Fin 128, x0 (ix2 p k) * x2 (ix2 k q)) + ∑ k : Fin 128, x1 (ix2 p k) * x4 (ix2 k q)) + x3 (ix2 (0 : Fin 1) q)) 0 := by
  unfold k0_pay1
  refine (maximumf_apply _ _ (ix2 p q)).trans ?_
  refine congrArg₂ max ?_ ?_
  · refine (addf_apply _ _ (ix2 p q)).trans ?_
    refine congrArg₂ (· + ·) ?_ ?_
    · refine (addf_apply _ _ (ix2 p q)).trans ?_
      refine congrArg₂ (· + ·) ?_ ?_
      · refine (product1_apply _ _ p q).trans ?_
        rw [shapeCast_self]
        rfl
      · refine (product1_apply _ _ p q).trans ?_
        rfl
    · refine (broadcastTo_1b_ab_apply _ broadcasts_S1x128_S5000x128 p q).trans ?_
      rw [shapeCast_self]
  · show Ideal.ofBits .f32 0x00000000#32 = 0
    exact Ideal.ofBits_zero_f32

/-! ## Layer 1: from the blocks to the array -/

/-- The printed index maps over the grid: a row window's block index is the point on the rows and zero on the
    columns; a whole window's is zero on both. -/
theorem blockIndex1 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A point is below ten. -/
theorem point_lt1 (t : Fin cfg0.N) : t.val < 10 := by
  have h : t.val < cfg0.N := t.isLt
  have e : cfg0.N = 10 := N_0
  omega

/-- Row p of point t's block is row 5000·t + p of the array. -/
def rowAt1 (t : Fin cfg0.N) (p : Fin 5000) : Fin 50000 := ⟨t.val * 5000 + p.val, by have := point_lt1 t; have := p.isLt; omega⟩

/-- Layer 1 over the whole output array, from the arrays the launch finds. -/
def dense1 (a x : FVec Ideal S50000x128 .f32) (wl : FVec Ideal S128x128 .f32) (b : FVec Ideal S1x128 .f32) (wr : FVec Ideal S128x128 .f32) :
    FVec Ideal S50000x128 .f32 := fun i => dense1At a x wl b wr (i 0) (i 1)

/-- Where an element of each block sits in its array. -/
theorem place1_0 (t : Fin cfg0.N) (p : Fin 5000) (k : Fin 128) :
    ((cfg0.win 0).blk t).view.emb (ix2 p k) = ix2 (rowAt1 t p) k := by
  obtain ⟨e0, e1, -⟩ := blockIndex1 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem place1_1 (t : Fin cfg0.N) (p : Fin 5000) (k : Fin 128) :
    ((cfg0.win 1).blk t).view.emb (ix2 p k) = ix2 (rowAt1 t p) k := by
  obtain ⟨-, -, e0, e1, -⟩ := blockIndex1 t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

theorem place1_2 (t : Fin cfg0.N) (k : Fin 128) (q : Fin 128) :
    ((cfg0.win 2).blk t).view.emb (ix2 k q) = ix2 k q := by
  obtain ⟨-, -, -, -, e0, e1, -⟩ := blockIndex1 t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem place1_3 (t : Fin cfg0.N) (z : Fin 1) (q : Fin 128) :
    ((cfg0.win 3).blk t).view.emb (ix2 z q) = ix2 z q := by
  obtain ⟨-, -, -, -, -, -, e0, e1, -⟩ := blockIndex1 t
  funext a; apply Fin.ext
  match a with
  | ⟨0, _⟩ => show win0_3.index t (0 : Fin 2) * 1 + 1 * z.val = z.val; omega
  | ⟨1, _⟩ => show win0_3.index t (1 : Fin 2) * 128 + 1 * q.val = q.val; omega

theorem place1_4 (t : Fin cfg0.N) (k : Fin 128) (q : Fin 128) :
    ((cfg0.win 4).blk t).view.emb (ix2 k q) = ix2 k q := by
  obtain ⟨-, -, -, -, -, -, -, -, e0, e1, -⟩ := blockIndex1 t
  funext a; apply Fin.ext
  match a with
  | ⟨0, _⟩ => show win0_4.index t (0 : Fin 2) * 128 + 1 * k.val = k.val; omega
  | ⟨1, _⟩ => show win0_4.index t (1 : Fin 2) * 128 + 1 * q.val = q.val; omega

theorem place1_5 (t : Fin cfg0.N) (p : Fin 5000) (q : Fin 128) :
    ((cfg0.win 5).blk t).view.emb (ix2 p q) = ix2 (rowAt1 t p) q := by
  obtain ⟨-, -, -, -, -, -, -, -, -, -, e0, e1⟩ := blockIndex1 t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- The stored value from blocks that are the arrays' rows 5000·t … and the whole weights and bias is layer 1 at the
    array's row. -/
theorem stored1_of_rows (x0 x1 : Vec Ideal S5000x128 .f32) (x2 x4 : Vec Ideal S128x128 .f32) (x3 : Vec Ideal S1x128 .f32)
    (a x : FVec Ideal S50000x128 .f32) (wl : FVec Ideal S128x128 .f32) (b : FVec Ideal S1x128 .f32) (wr : FVec Ideal S128x128 .f32)
    (r : Fin 50000) (p : Fin 5000) (q : Fin 128)
    (h0 : ∀ k : Fin 128, x0 (ix2 p k) = a (ix2 r k)) (h1 : ∀ k : Fin 128, x1 (ix2 p k) = x (ix2 r k))
    (h2 : ∀ k : Fin 128, x2 (ix2 k q) = wl (ix2 k q)) (h4 : ∀ k : Fin 128, x4 (ix2 k q) = wr (ix2 k q))
    (h3 : x3 (ix2 (0 : Fin 1) q) = b (ix2 (0 : Fin 1) q)) :
    k0_pay1 (F := Ideal) x0 x1 x2 x4 x3 (ix2 p q) = dense1At a x wl b wr r q := by
  rw [stored1_apply]
  unfold dense1At
  simp only [h0, h1, h2, h4, h3]

variable (V : (c : Dev nD) → (b : Ref sig .tc) → Buf (Elt Ideal) ((c : Thread nD τ).loc b))

/-- What point t writes back is its block of layer 1 of the arrays the launch finds. -/
theorem flushed1_eq (c : Dev nD) (t : Fin cfg0.N) :
    (dat0 (F := Ideal) V c).flushed 5 t
      = ((cfg0.win 5).blk t).view.read (Elt Ideal) (dense1 (V c main_v24) (V c main_arg0) (V c main_arg4) (V c main_v25) (V c main_arg6)) := by
  show (cfg0.win 5).cut (grid0.coords t) ((dat0 (F := Ideal) V c).after 5 t) = _
  rw [after0_5]
  unfold out0_5
  rw [View.canon_unit_zero zeroOffsets]
  simp only [View.ld_unit_zero (S := S5000x128) zeroOffsets, View.ld_unit_zero (S := S128x128) zeroOffsets, View.ld_unit_zero (S := S1x128) zeroOffsets]
  refine funext fun (y : S5000x128.Idx) => ?_
  obtain ⟨p, q, rfl⟩ : ∃ (p : Fin 5000) (q : Fin 128), y = ix2 p q := ⟨y 0, y 1, eq_ix2 y⟩
  show k0_pay1 (F := Ideal) (blk0 V c 0 t) (blk0 V c 1 t) (blk0 V c 2 t) (blk0 V c 4 t) (blk0 V c 3 t) (ix2 p q)
    = dense1 (V c main_v24) (V c main_arg0) (V c main_arg4) (V c main_v25) (V c main_arg6) (((cfg0.win 5).blk t).view.emb (ix2 p q))
  rw [place1_5 t p q]
  show _ = dense1At (V c main_v24) (V c main_arg0) (V c main_arg4) (V c main_v25) (V c main_arg6) (rowAt1 t p) q
  refine stored1_of_rows (blk0 V c 0 t) (blk0 V c 1 t) (blk0 V c 2 t) (blk0 V c 4 t) (blk0 V c 3 t)
    (V c main_v24) (V c main_arg0) (V c main_arg4) (V c main_v25) (V c main_arg6) (rowAt1 t p) p q ?_ ?_ ?_ ?_ ?_
  · intro k
    show V c main_v24 (((cfg0.win 0).blk t).view.emb (ix2 p k)) = _
    rw [place1_0 t p k]
  · intro k
    show V c main_arg0 (((cfg0.win 1).blk t).view.emb (ix2 p k)) = _
    rw [place1_1 t p k]
  · intro k
    show V c main_arg4 (((cfg0.win 2).blk t).view.emb (ix2 k q)) = _
    rw [place1_2 t k q]
  · intro k
    show V c main_arg6 (((cfg0.win 4).blk t).view.emb (ix2 k q)) = _
    rw [place1_4 t k q]
  · show V c main_v25 (((cfg0.win 3).blk t).view.emb (ix2 (0 : Fin 1) q)) = _
    rw [place1_3 t 0 q]

/-- An index of the array is in point t's block iff each coordinate is in the block's range on its axis. -/
theorem mem_block1 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row r of the array is in the block of point r / 5000, which writes it back. -/
theorem covered1 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 5000 < cfg0.N := by rw [show cfg0.N = 10 from N_0]; omega
  refine ⟨⟨(i 0).val / 5000, ht⟩, flush0_5 _, ?_⟩
  obtain ⟨-, -, -, -, -, -, -, -, -, -, e0, e1⟩ := blockIndex1 ⟨(i 0).val / 5000, ht⟩
  have e0' : win0_5.index ⟨(i 0).val / 5000, ht⟩ (0 : Fin 2) = (i 0).val / 5000 := e0
  rw [mem_block1]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    omega

/-- The output array after launch 0 is layer 1 of the arrays the launch finds. -/
theorem layer1_array (c : Dev nD) :
    (dat0 (F := Ideal) V c).arrAt 5 cfg0.N = dense1 (V c main_v24) (V c main_arg0) (V c main_arg4) (V c main_v25) (V c main_arg6) :=
  (dat0 (F := Ideal) V c).arrAt_eq_of_cover 5 _ (fun t _ => flushed1_eq V c t) covered1

theorem layer1_at (V : (c : Dev nD) → (b : Ref sig .tc) → Buf (Elt Ideal) ((c : Thread nD τ).loc b)) (c : Dev nD) (n : Fin 50000) (j : Fin 128) :
    (dat0 (F := Ideal) V c).arrAt 5 cfg0.N (ix2 n j)
      = dense1At (V c main_v24) (V c main_arg0) (V c main_arg4) (V c main_v25) (V c main_arg6) n j :=
  congrFun (layer1_array V c) (ix2 n j)

/-! ## Layer 2: the body's stored value at an element -/

/-- In the second product's dimension numbers the left operand's row is the output's row, -/
theorem lhsRow2 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- its column the summation index; -/
theorem lhsCol2 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- the right operand's row is the summation index, -/
theorem rhsRow2 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- and its column the output's column. -/
theorem rhsCol2 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A product of a 5000×128 block with a 128×1 column into the zero accumulator, at row p, is the sum over k of the
    block at (p, k) times the column at k. -/
theorem product2_apply {φ₁ φ₂ : FTy} (l : FVec Ideal S5000x128 φ₁) (r : FVec Ideal S128x1 φ₂) (p : Fin 5000) (z : Fin 1) :
    matmul dot_S5000x128_S128x1_S5000x1_1_0_0_1_n_n none l r (constant (F := Ideal) S5000x1 .f32 0x00000000#32) (ix2 p z)
      = ∑ k : Fin 128, l (ix2 p k) * r (ix2 k z) := by
  simp only [matmul]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p z) ((ValueIdx.contrEquiv1 dot_S5000x128_S128x1_S5000x1_1_0_0_1_n_n 128 rfl rfl).symm k) = ix2 p k := funext fun a => Fin.ext (by
    match a with
    | ⟨0, _⟩ => exact lhsRow2 _ _
    | ⟨1, _⟩ => exact (lhsCol2 _ _).trans hk)
  have er : dot_S5000x128_S128x1_S5000x1_1_0_0_1_n_n.rhsIdx (ix2 p z) ((ValueIdx.contrEquiv1 dot_S5000x128_S128x1_S5000x1_1_0_0_1_n_n 128 rfl rfl).symm k) = ix2 k z := funext fun a => Fin.ext (by
    match a with
    | ⟨0, _⟩ => exact (rhsRow2 _ _).trans hk
    | ⟨1, _⟩ => exact rhsCol2 _ _)
  rw [el, er]

/-- What layer 2's body stores, at row p of the block, from the five blocks it loads. -/
theorem stored2_apply (x0 x1 : Vec Ideal S5000x128 .f32) (x2 x4 : Vec Ideal S128x1 .f32) (x3 : Vec Ideal S1x1 .f32)
    (p : Fin 5000) :
    k1_pay1 (F := Ideal) x0 x1 x2 x4 x3 (ix2 p (0 : Fin 1))
      = ((∑ k : Fin 128, x0 (ix2 p k) * x2 (ix2 k (0 : Fin 1))) + ∑ k : Fin 128, x1 (ix2 p k) * x4 (ix2 k (0 : Fin 1))) + x3 (ix2 (0 : Fin 1) (0 : Fin 1)) := by
  unfold k1_pay1
  refine (addf_apply _ _ (ix2 p (0 : Fin 1))).trans ?_
  refine congrArg₂ (· + ·) ?_ ?_
  · refine (addf_apply _ _ (ix2 p (0 : Fin 1))).trans ?_
    refine congrArg₂ (· + ·) ?_ ?_
    · refine (product2_apply _ _ p 0).trans ?_
      rw [shapeCast_self]
      rfl
    · refine (product2_apply _ _ p 0).trans ?_
      rw [shapeCast_self]
      rfl
  · refine (broadcastTo_1b_ab_apply _ broadcasts_S1x1_S5000x1 p 0).trans ?_
    rw [shapeCast_self]

/-! ## Layer 2: from the blocks to the array -/

/-- The printed index maps over the grid: a row window's block index is the point on the rows and zero on the
    columns; a whole window's is zero on both. -/
theorem blockIndex2 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point is below ten. -/
theorem point_lt2 (t : Fin cfg1.N) : t.val < 10 := by
  have h : t.val < cfg1.N := t.isLt
  have e : cfg1.N = 10 := N_1
  omega

/-- Row p of point t's block is row 5000·t + p of the array. -/
def rowAt2 (t : Fin cfg1.N) (p : Fin 5000) : Fin 50000 := ⟨t.val * 5000 + p.val, by have := point_lt2 t; have := p.isLt; omega⟩

/-- Layer 2 over the whole output array, from the arrays the launch finds. -/
def dense2 (a x : FVec Ideal S50000x128 .f32) (wl : FVec Ideal S128x1 .f32) (b : FVec Ideal S1x1 .f32) (wr : FVec Ideal S128x1 .f32) :
    FVec Ideal S50000x1 .f32 := fun i => dense2At a x wl b wr (i 0)

/-- Where an element of each block sits in its array. -/
theorem place2_0 (t : Fin cfg1.N) (p : Fin 5000) (k : Fin 128) :
    ((cfg1.win 0).blk t).view.emb (ix2 p k) = ix2 (rowAt2 t p) k := by
  obtain ⟨e0, e1, -⟩ := blockIndex2 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem place2_1 (t : Fin cfg1.N) (p : Fin 5000) (k : Fin 128) :
    ((cfg1.win 1).blk t).view.emb (ix2 p k) = ix2 (rowAt2 t p) k := by
  obtain ⟨-, -, e0, e1, -⟩ := blockIndex2 t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

theorem place2_2 (t : Fin cfg1.N) (k : Fin 128) (z : Fin 1) :
    ((cfg1.win 2).blk t).view.emb (ix2 k z) = ix2 k z := by
  obtain ⟨-, -, -, -, e0, e1, -⟩ := blockIndex2 t
  funext a; apply Fin.ext
  match a with
  | ⟨0, _⟩ => show win1_2.index t (0 : Fin 2) * 128 + 1 * k.val = k.val; omega
  | ⟨1, _⟩ => show win1_2.index t (1 : Fin 2) * 1 + 1 * z.val = z.val; omega

theorem place2_3 (t : Fin cfg1.N) (u : Fin 1) (z : Fin 1) :
    ((cfg1.win 3).blk t).view.emb (ix2 u z) = ix2 u z := by
  obtain ⟨-, -, -, -, -, -, e0, e1, -⟩ := blockIndex2 t
  funext a; apply Fin.ext
  match a with
  | ⟨0, _⟩ => show win1_3.index t (0 : Fin 2) * 1 + 1 * u.val = u.val; omega
  | ⟨1, _⟩ => show win1_3.index t (1 : Fin 2) * 1 + 1 * z.val = z.val; omega

theorem place2_4 (t : Fin cfg1.N) (k : Fin 128) (z : Fin 1) :
    ((cfg1.win 4).blk t).view.emb (ix2 k z) = ix2 k z := by
  obtain ⟨-, -, -, -, -, -, -, -, e0, e1, -⟩ := blockIndex2 t
  funext a; apply Fin.ext
  match a with
  | ⟨0, _⟩ => show win1_4.index t (0 : Fin 2) * 128 + 1 * k.val = k.val; omega
  | ⟨1, _⟩ => show win1_4.index t (1 : Fin 2) * 1 + 1 * z.val = z.val; omega

theorem place2_5 (t : Fin cfg1.N) (p : Fin 5000) (z : Fin 1) :
    ((cfg1.win 5).blk t).view.emb (ix2 p z) = ix2 (rowAt2 t p) z := by
  obtain ⟨-, -, -, -, -, -, -, -, -, -, e0, e1⟩ := blockIndex2 t
  funext a; apply Fin.ext
  match a with
  | ⟨0, _⟩ => show win1_5.index t (0 : Fin 2) * 5000 + 1 * p.val = t.val * 5000 + p.val; omega
  | ⟨1, _⟩ => show win1_5.index t (1 : Fin 2) * 1 + 1 * z.val = z.val; omega

/-- The stored value from blocks that are the arrays' rows 5000·t … and the whole weights and bias is layer 2 at the
    array's row. -/
theorem stored2_of_rows (x0 x1 : Vec Ideal S5000x128 .f32) (x2 x4 : Vec Ideal S128x1 .f32) (x3 : Vec Ideal S1x1 .f32)
    (a x : FVec Ideal S50000x128 .f32) (wl : FVec Ideal S128x1 .f32) (b : FVec Ideal S1x1 .f32) (wr : FVec Ideal S128x1 .f32)
    (r : Fin 50000) (p : Fin 5000)
    (h0 : ∀ k : Fin 128, x0 (ix2 p k) = a (ix2 r k)) (h1 : ∀ k : Fin 128, x1 (ix2 p k) = x (ix2 r k))
    (h2 : ∀ k : Fin 128, x2 (ix2 k (0 : Fin 1)) = wl (ix2 k (0 : Fin 1))) (h4 : ∀ k : Fin 128, x4 (ix2 k (0 : Fin 1)) = wr (ix2 k (0 : Fin 1)))
    (h3 : x3 (ix2 (0 : Fin 1) (0 : Fin 1)) = b (ix2 (0 : Fin 1) (0 : Fin 1))) :
    k1_pay1 (F := Ideal) x0 x1 x2 x4 x3 (ix2 p (0 : Fin 1)) = dense2At a x wl b wr r := by
  rw [stored2_apply]
  unfold dense2At
  simp only [h0, h1, h2, h4, h3]

/-- What point t writes back is its block of layer 2 of the arrays the launch finds. -/
theorem flushed2_eq (c : Dev nD) (t : Fin cfg1.N) :
    (dat1 (F := Ideal) V c).flushed 5 t
      = ((cfg1.win 5).blk t).view.read (Elt Ideal) (dense2 (V c main_v38) (V c main_v26) (V c main_arg7) (V c main_v39) (V c main_arg9)) := by
  show (cfg1.win 5).cut (grid1.coords t) ((dat1 (F := Ideal) V c).after 5 t) = _
  rw [after1_5]
  unfold out1_5
  rw [View.canon_unit_zero zeroOffsets]
  simp only [View.ld_unit_zero (S := S5000x128) zeroOffsets, View.ld_unit_zero (S := S128x1) zeroOffsets, View.ld_unit_zero (S := S1x1) zeroOffsets]
  refine funext fun (y : S5000x1.Idx) => ?_
  obtain ⟨p, z, rfl⟩ : ∃ (p : Fin 5000) (z : Fin 1), y = ix2 p z := ⟨y 0, y 1, eq_ix2 y⟩
  obtain rfl : z = 0 := Subsingleton.elim z 0
  show k1_pay1 (F := Ideal) (blk1 V c 0 t) (blk1 V c 1 t) (blk1 V c 2 t) (blk1 V c 4 t) (blk1 V c 3 t) (ix2 p (0 : Fin 1))
    = dense2 (V c main_v38) (V c main_v26) (V c main_arg7) (V c main_v39) (V c main_arg9) (((cfg1.win 5).blk t).view.emb (ix2 p (0 : Fin 1)))
  rw [place2_5 t p 0]
  show _ = dense2At (V c main_v38) (V c main_v26) (V c main_arg7) (V c main_v39) (V c main_arg9) (rowAt2 t p)
  refine stored2_of_rows (blk1 V c 0 t) (blk1 V c 1 t) (blk1 V c 2 t) (blk1 V c 4 t) (blk1 V c 3 t)
    (V c main_v38) (V c main_v26) (V c main_arg7) (V c main_v39) (V c main_arg9) (rowAt2 t p) p ?_ ?_ ?_ ?_ ?_
  · intro k
    show V c main_v38 (((cfg1.win 0).blk t).view.emb (ix2 p k)) = _
    rw [place2_0 t p k]
  · intro k
    show V c main_v26 (((cfg1.win 1).blk t).view.emb (ix2 p k)) = _
    rw [place2_1 t p k]
  · intro k
    show V c main_arg7 (((cfg1.win 2).blk t).view.emb (ix2 k (0 : Fin 1))) = _
    rw [place2_2 t k 0]
  · intro k
    show V c main_arg9 (((cfg1.win 4).blk t).view.emb (ix2 k (0 : Fin 1))) = _
    rw [place2_4 t k 0]
  · show V c main_v39 (((cfg1.win 3).blk t).view.emb (ix2 (0 : Fin 1) (0 : Fin 1))) = _
    rw [place2_3 t 0 0]

/-- An index of the array is in point t's block iff each coordinate is in the block's range on its axis. -/
theorem mem_block2 (t : Fin cfg1.N) (i : S50000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v40).slice (win1_5.rect t)).set ↔ _
  rw [View.set_slice_whole, Rect.mem_set_unit]
  exact Iff.rfl

/-- Row r of the array is in the block of point r / 5000, which writes it back. -/
theorem covered2 (i : S50000x1.Idx) :
    ∃ t : Fin cfg1.N, (cfg1.win 5).flush t = true ∧ i ∈ ((cfg1.win 5).blk t).view.set := by
  have hi0 : (i 0).val < 50000 := (i 0).isLt
  have hi1 : (i 1).val < 1 := (i 1).isLt
  have ht : (i 0).val / 5000 < cfg1.N := by rw [show cfg1.N = 10 from N_1]; omega
  refine ⟨⟨(i 0).val / 5000, ht⟩, flush1_5 _, ?_⟩
  obtain ⟨-, -, -, -, -, -, -, -, -, -, e0, e1⟩ := blockIndex2 ⟨(i 0).val / 5000, ht⟩
  have e0' : win1_5.index ⟨(i 0).val / 5000, ht⟩ (0 : Fin 2) = (i 0).val / 5000 := e0
  rw [mem_block2]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    omega
  | ⟨1, _⟩ =>
    show win1_5.index ⟨(i 0).val / 5000, ht⟩ (1 : Fin 2) * 1 ≤ (i 1).val ∧ (i 1).val < win1_5.index ⟨(i 0).val / 5000, ht⟩ (1 : Fin 2) * 1 + 1
    omega

/-- The output array after launch 1 is layer 2 of the arrays the launch finds. -/
theorem layer2_array (c : Dev nD) :
    (dat1 (F := Ideal) V c).arrAt 5 cfg1.N = dense2 (V c main_v38) (V c main_v26) (V c main_arg7) (V c main_v39) (V c main_arg9) :=
  (dat1 (F := Ideal) V c).arrAt_eq_of_cover 5 _ (fun t _ => flushed2_eq V c t) covered2

theorem layer2_at (V : (c : Dev nD) → (b : Ref sig .tc) → Buf (Elt Ideal) ((c : Thread nD τ).loc b)) (c : Dev nD) (n : Fin 50000) :
    (dat1 (F := Ideal) V c).arrAt 5 cfg1.N (ix2 n (0 : Fin 1))
      = dense2At (V c main_v38) (V c main_v26) (V c main_arg7) (V c main_v39) (V c main_arg9) n :=
  congrFun (layer2_array V c) (ix2 n (0 : Fin 1))

end Cert.KernelIdeal.Hand

end
-- ==== Proof.KI.Pool.lean ====
/-
  The pooling launch's result as mathematics, over the extended reals. The launch walks the fifty thousand nodes in
  ten blocks of five thousand rows. At each block it forms the one-hot matrix of the rows' graph-id words against the
  sixty-four graph numbers (entry one where row r's id word is the word of g, zero elsewhere), and multiplies its
  transpose with the block's value column, and with a column of ones: row g of the first product is the sum of the
  values of the block's nodes of graph g, of the second their number. Two 64 × 1 accumulators carry these sums over
  the ten points, cleared at the first; the last point stores sum / max(count, 1) over the result's buffer, and that
  buffer — the result's one block, the whole array — is written back after the last point only.

  So the result array at graph g is (per-graph sum) / max(per-graph count, 1), the sums running over all fifty
  thousand rows: a factor one or zero selects (1 · x = x and 0 · x = 0 for every extended real, infinite ones
  included, so no finiteness is asked), the extended reals' addition is associative and commutative (so the order of
  the blocks does not matter), and ten blocks of five thousand rows are the fifty thousand rows, each once.
-/
import proofs.«416588_j74285754351848_1_alg».proof.Proof.KI.Reg2
import Idealize.ShloMosaic.Lib.Pipeline.Value
import Idealize.ShloMosaic.Lib.ValueIdx
import Idealize.ShloMosaic.Lib.IdealHost
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The specification -/

/-- The per-graph sum: the values of the nodes whose id word is the word of g. -/
def poolSum (feat : FVec Ideal S50000x1 .f32) (ids : IVec S50000x1 32) (g : Fin 64) : EReal :=
  ∑ n : Fin 50000, if ids (ix2 n (0 : Fin 1)) = BitVec.ofNat 32 g.val then feat (ix2 n (0 : Fin 1)) else 0
/-- The per-graph count. -/
def poolCnt (ids : IVec S50000x1 32) (g : Fin 64) : EReal :=
  ∑ n : Fin 50000, if ids (ix2 n (0 : Fin 1)) = BitVec.ofNat 32 g.val then (1 : EReal) else 0
/-- The mean with the count raised to at least one. -/
def poolAt (feat : FVec Ideal S50000x1 .f32) (ids : IVec S50000x1 32) (g : Fin 64) : EReal :=
  Ideal.div (poolSum feat ids g) (max (poolCnt ids g) 1)

/-! Everything below up to the closing theorem is auxiliary to it and lives in a namespace of its own. -/
namespace Pool

/-! ## The payloads at an element, over the extended reals -/

/-- A word compare for equality, widened to 32 bits and converted as a signed integer: one or zero. -/
theorem eqWord_toReal (a b : BitVec 32) :
    ((((IntOp.cmpi .eq a b).setWidth 32).toInt : ℝ) : EReal) = if a = b then (1 : EReal) else 0 := by
  by_cases h : a = b
  · rw [if_pos h, h]
    have e : IntOp.cmpi .eq b b = 1#1 := by simp [IntOp.cmpi]
    rw [e]
    have e2 : ((1#1 : BitVec 1).setWidth 32).toInt = 1 := by decide
    rw [e2]; norm_num
  · rw [if_neg h]
    have e : IntOp.cmpi .eq a b = 0#1 := by
      show BitVec.ofBool (a == b) = 0#1
      rw [beq_eq_false_iff_ne.mpr h]; rfl
    rw [e]
    have e2 : ((0#1 : BitVec 1).setWidth 32).toInt = 0 := by decide
    rw [e2]; norm_num

/-- The one-hot entry for row r of a block and graph g: one when the row's id word is the word of g, else zero. -/
theorem onehot_apply (ids : Vec Ideal S5000x1 .i32) (r : Fin 5000) (g : Fin 64) :
    k2_pay3 (F := Ideal) ids (ix2 r g) = if ids (ix2 r (0 : Fin 1)) = BitVec.ofNat 32 g.val then (1 : EReal) else 0 := by
  unfold k2_pay3
  show ((((IntOp.cmpi .eq (broadcastTo S5000x64 (shapeCast S5000x1 ids shapeCasts_S5000x1_S5000x1) broadcasts_S5000x1_S5000x64 (ix2 r g))
    (iota Kind.tc S5000x64 32 [1] iota_S5000x64_d1_w32 (ix2 r g))).setWidth 32).toInt : ℝ) : EReal) = _
  rw [iota_single_apply, broadcastTo_apply _ broadcasts_S5000x1_S5000x64 (ix2 r g) (ix2 r (0 : Fin 1)) (fun a => match a with
    | ⟨0, _⟩ => by show r.val = if (5000 : Nat) = 1 then 0 else r.val; rw [if_neg (by decide)]
    | ⟨1, _⟩ => by show (0 : Nat) = if (1 : Nat) = 1 then 0 else g.val; rw [if_pos rfl]), shapeCast_self]
  exact eqWord_toReal _ _

/-! ### The contraction of the block product: row r of the transposed one-hot matrix against row r of the column -/

theorem lhs_pool_0 (i : S64x1.Idx) (q : dot_S64x5000_S5000x1_S64x1_1_0_0_1_n_n.contr.Idx) :
    (dot_S64x5000_S5000x1_S64x1_1_0_0_1_n_n.lhsIdx i q 0).val = (i 0).val := by
  unfold DotDims.lhsIdx
  rw [dif_neg (show ¬(0 : Fin S64x5000.rank) ∈ dot_S64x5000_S5000x1_S64x1_1_0_0_1_n_n.lhsBatch by decide), dif_pos (show (0 : Fin S64x5000.rank) ∈ dot_S64x5000_S5000x1_S64x1_1_0_0_1_n_n.lhsNonContracting by decide)]
  rfl
theorem lhs_pool_1 (i : S64x1.Idx) (q : dot_S64x5000_S5000x1_S64x1_1_0_0_1_n_n.contr.Idx) :
    (dot_S64x5000_S5000x1_S64x1_1_0_0_1_n_n.lhsIdx i q 1).val = (q ⟨0, by decide⟩).val :=
  dot_S64x5000_S5000x1_S64x1_1_0_0_1_n_n.lhsIdx_val_of_single rfl i q
theorem rhs_pool_0 (i : S64x1.Idx) (q : dot_S64x5000_S5000x1_S64x1_1_0_0_1_n_n.contr.Idx) :
    (dot_S64x5000_S5000x1_S64x1_1_0_0_1_n_n.rhsIdx i q 0).val = (q ⟨0, by decide⟩).val :=
  dot_S64x5000_S5000x1_S64x1_1_0_0_1_n_n.rhsIdx_val_of_single rfl i q
theorem rhs_pool_1 (i : S64x1.Idx) (q : dot_S64x5000_S5000x1_S64x1_1_0_0_1_n_n.contr.Idx) :
    (dot_S64x5000_S5000x1_S64x1_1_0_0_1_n_n.rhsIdx i q 1).val = (i 1).val := by
  unfold DotDims.rhsIdx
  rw [dif_neg (show ¬(1 : Fin S5000x1.rank) ∈ dot_S64x5000_S5000x1_S64x1_1_0_0_1_n_n.rhsBatch by decide), dif_pos (show (1 : Fin S5000x1.rank) ∈ dot_S64x5000_S5000x1_S64x1_1_0_0_1_n_n.rhsNonContracting by decide)]
  rfl

/-- The block product into a zero accumulator, at graph g: the sum over the block's rows of the left operand at
    (g, r) times the right operand at (r, 0). -/
theorem poolDot_apply (lhs : FVec Ideal S64x5000 .bf16) (rhs : FVec Ideal S5000x1 .bf16) (g : Fin 64) :
    matmul dot_S64x5000_S5000x1_S64x1_1_0_0_1_n_n none lhs rhs (constant S64x1 .f32 0x00000000#32) (ix2 g (0 : Fin 1))
      = ∑ r : Fin 5000, lhs (ix2 g r) * rhs (ix2 r (0 : Fin 1)) := by
  simp only [matmul]
  rw [Ideal.matmul_constant_zero_apply, ← Equiv.sum_comp (ValueIdx.contrEquiv1 dot_S64x5000_S5000x1_S64x1_1_0_0_1_n_n 5000 rfl rfl).symm]
  refine Finset.sum_congr rfl fun k _ => ?_
  have hk := ValueIdx.contrEquiv1_symm_val dot_S64x5000_S5000x1_S64x1_1_0_0_1_n_n 5000 rfl rfl k
  have el : dot_S64x5000_S5000x1_S64x1_1_0_0_1_n_n.lhsIdx (ix2 g (0 : Fin 1)) ((ValueIdx.contrEquiv1 dot_S64x5000_S5000x1_S64x1_1_0_0_1_n_n 5000 rfl rfl).symm k) = ix2 g k := funext fun a => Fin.ext (by
    match a with
    | ⟨0, _⟩ => exact lhs_pool_0 _ _
    | ⟨1, _⟩ => exact (lhs_pool_1 _ _).trans hk)
  have er : dot_S64x5000_S5000x1_S64x1_1_0_0_1_n_n.rhsIdx (ix2 g (0 : Fin 1)) ((ValueIdx.contrEquiv1 dot_S64x5000_S5000x1_S64x1_1_0_0_1_n_n 5000 rfl rfl).symm k) = ix2 k (0 : Fin 1) := funext fun a => Fin.ext (by
    match a with
    | ⟨0, _⟩ => exact (rhs_pool_0 _ _).trans hk
    | ⟨1, _⟩ => exact rhs_pool_1 _ _)
  rw [el, er]

/-- The transposed one-hot matrix at (g, r) is the one-hot entry for row r and graph g. -/
theorem onehotT_apply (ids : Vec Ideal S5000x1 .i32) (g : Fin 64) (r : Fin 5000) :
    transpose S64x5000 [1, 0] (k2_pay3 (F := Ideal) ids) transposes_S5000x64_p1_0_S64x5000 (ix2 g r)
      = if ids (ix2 r (0 : Fin 1)) = BitVec.ofNat 32 g.val then (1 : EReal) else 0 :=
  (transpose_apply [1, 0] (k2_pay3 (F := Ideal) ids) transposes_S5000x64_p1_0_S64x5000 (ix2 g r) (ix2 r g) (fun b => match b with
    | ⟨0, _⟩ => rfl
    | ⟨1, _⟩ => rfl)).trans (onehot_apply ids r g)

/-- The sum accumulator's new contents at graph g: what it held plus the block's contribution. -/
theorem pay4_apply (x0 : Vec Ideal S5000x1 .f32) (x1 : Vec Ideal S5000x1 .i32) (s : Vec Ideal S64x1 .f32) (g : Fin 64) :
    k2_pay4 x0 x1 s (ix2 g (0 : Fin 1))
      = s (ix2 g (0 : Fin 1)) + ∑ r : Fin 5000, (if x1 (ix2 r (0 : Fin 1)) = BitVec.ofNat 32 g.val then (1 : EReal) else 0) * x0 (ix2 r (0 : Fin 1)) := by
  unfold k2_pay4
  rw [shapeCast_self]
  show s (ix2 g (0 : Fin 1)) + matmul dot_S64x5000_S5000x1_S64x1_1_0_0_1_n_n none
      (transpose S64x5000 [1, 0] (k2_pay3 (F := Ideal) x1) transposes_S5000x64_p1_0_S64x5000)
      (truncf .bf16 (shapeCast S5000x1 x0 shapeCasts_S5000x1_S5000x1) bitsLt_bf16_f32) (constant S64x1 .f32 0x00000000#32) (ix2 g (0 : Fin 1)) = _
  refine congrArg (s (ix2 g (0 : Fin 1)) + ·) ?_
  refine (poolDot_apply _ _ g).trans ?_
  refine Finset.sum_congr rfl fun r _ => ?_
  rw [onehotT_apply, shapeCast_self]
  rfl

/-- The count accumulator's new contents at graph g: what it held plus the number of the block's rows of graph g. -/
theorem pay5_apply (x1 : Vec Ideal S5000x1 .i32) (s : Vec Ideal S64x1 .f32) (g : Fin 64) :
    k2_pay5 x1 s (ix2 g (0 : Fin 1))
      = s (ix2 g (0 : Fin 1)) + ∑ r : Fin 5000, (if x1 (ix2 r (0 : Fin 1)) = BitVec.ofNat 32 g.val then (1 : EReal) else 0) * 1 := by
  unfold k2_pay5
  rw [shapeCast_self]
  show s (ix2 g (0 : Fin 1)) + matmul dot_S64x5000_S5000x1_S64x1_1_0_0_1_n_n none
      (transpose S64x5000 [1, 0] (k2_pay3 (F := Ideal) x1) transposes_S5000x64_p1_0_S64x5000)
      (broadcast S5000x1 (Scalar.ofBits (F := Ideal) .bf16 0x3F80#16)) (constant S64x1 .f32 0x00000000#32) (ix2 g (0 : Fin 1)) = _
  refine congrArg (s (ix2 g (0 : Fin 1)) + ·) ?_
  refine (poolDot_apply _ _ g).trans ?_
  refine Finset.sum_congr rfl fun r _ => ?_
  rw [onehotT_apply]
  show _ * Ideal.ofBits .bf16 0x3F80#16 = _
  rw [Ideal.ofBits_one_bf16]

/-- The quotient stored at the last point, at graph g. -/
theorem pay6_apply (s n : Vec Ideal S64x1 .f32) (g : Fin 64) :
    k2_pay6 s n (ix2 g (0 : Fin 1)) = Ideal.div (s (ix2 g (0 : Fin 1))) (max (n (ix2 g (0 : Fin 1))) 1) := by
  unfold k2_pay6
  show Ideal.div (s (ix2 g (0 : Fin 1))) (max (n (ix2 g (0 : Fin 1))) (Ideal.ofBits .f32 0x3F800000#32)) = _
  rw [Ideal.ofBits_one_f32]

/-- The cleared accumulators hold zero. -/
theorem pay1_apply (j : S64x1.Idx) : k2_pay1 (F := Ideal) j = 0 := by
  unfold k2_pay1
  rw [shapeCast_self]
  show Ideal.ofBits .f32 0x00000000#32 = 0
  exact Ideal.ofBits_zero_f32
theorem pay2_apply (j : S64x1.Idx) : k2_pay2 (F := Ideal) j = 0 := by
  unfold k2_pay2
  rw [shapeCast_self]
  show Ideal.ofBits .f32 0x00000000#32 = 0
  exact Ideal.ofBits_zero_f32

/-! ## What each case leaves in the accumulators and in the result's buffer: the payloads of the staged blocks -/

section Pieces
variable {F : FTy → Type} [FloatOps F]

theorem hzero2 : (![0, 0] : Fin 2 → Nat) = fun _ => 0 := funext fun a => by fin_cases a <;> rfl

/-- The first point leaves, in the sum accumulator, the cleared accumulator plus the block's contribution. -/
theorem piece_A_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) :
    sout2_A_0 c i arg1 harg1 arg2 harg2 arg3 harg3 arg4 harg4 arg5 harg5 hc0 hc1 x0 x1 = k2_pay4 x0 x1 (k2_pay1 (F := F)) := by
  unfold sout2_A_0
  rw [View.read_writes_eq_canon _ _ _ (scover2_A_0 c i arg1 harg1 arg2 harg2 arg3 harg3 arg4 harg4 arg5 harg5 hc0 hc1 x0 x1)]
  unfold kernelRun2_A
  dsimp only
  sl_unfold_words
  rw [View.canon_cons_unit_zero (S := S64x1) hzero2, View.readCov_unit_zero (S := S64x1) _ hzero2]
  simp only [View.readCov_unit_zero (S := S64x1) _ hzero2, View.readAt_eq_ld, harg1.read_unread, harg2.read_unread, harg4.read_unread, harg5.read_unread, View.ld_unit_zero (S := S5000x1) hzero2, View.ld_unit_zero (S := S64x1) hzero2]

/-- The first point leaves, in the count accumulator, the cleared accumulator plus the block's count. -/
theorem piece_A_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : cond2_0 i) (hc1 : ¬cond2_1 i) (x0 : Vec F S5000x1 .f32) (x1 : Vec F S5000x1 .i32) :
    sout2_A_1 c i arg1 harg1 arg2 harg2 arg3 harg3 arg4 harg4 arg5 harg5 hc0 hc1 x0 x1 = k2_pay5 x1 (k2_pay2 (F := F)) := by
  unfold sout2_A_1
  rw [View.read_writes_eq_canon _ _ _ (scover2_A_1 c i arg1 harg1 arg2 harg2 arg3 harg3 arg4 harg4 arg5 harg5 hc0 hc1 x0 x1)]
  unfold kernelRun2_A
  dsimp only
  sl_unfold_words
  rw [View.canon_cons_unit_zero (S := S64x1) hzero2, View.readCov_unit_zero (S := S64x1) _ hzero2]
  simp only [View.readCov_unit_zero (S := S64x1) _ hzero2, View.readAt_eq_ld, harg1.read_unread, harg2.read_unread, harg4.read_unread, harg5.read_unread, View.ld_unit_zero (S := S5000x1) hzero2, View.ld_unit_zero (S := S64x1) hzero2]

/-- A middle point adds the block's contribution to what the sum accumulator held. -/
theorem piece_B_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) :
    sout2_B_0 c i arg1 harg1 arg2 harg2 arg3 harg3 arg4 harg4 arg5 harg5 hc0 hc1 x0 x1 xs0 xs1 = k2_pay4 x0 x1 xs0 := by
  unfold sout2_B_0
  rw [View.read_writes_eq_canon _ _ _ (scover2_B_0 c i arg1 harg1 arg2 harg2 arg3 harg3 arg4 harg4 arg5 harg5 hc0 hc1 x0 x1 xs0 xs1)]
  unfold kernelRun2_B
  dsimp only
  sl_unfold_words
  rw [View.canon_unit_zero hzero2]
  simp only [View.readCov_unit_zero (S := S64x1) _ hzero2, View.readAt_eq_ld, harg1.read_unread, harg2.read_unread, harg4.read_unread, harg5.read_unread, View.ld_unit_zero (S := S5000x1) hzero2, View.ld_unit_zero (S := S64x1) hzero2]

/-- A middle point adds the block's count to what the count accumulator held. -/
theorem piece_B_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : ¬cond2_1 i) (x0 : Vec F S5000x1 .f32) (x1 : Vec F S5000x1 .i32) (xs0 xs1 : Vec F S64x1 .f32) :
    sout2_B_1 c i arg1 harg1 arg2 harg2 arg3 harg3 arg4 harg4 arg5 harg5 hc0 hc1 x0 x1 xs0 xs1 = k2_pay5 x1 xs1 := by
  unfold sout2_B_1
  rw [View.read_writes_eq_canon _ _ _ (scover2_B_1 c i arg1 harg1 arg2 harg2 arg3 harg3 arg4 harg4 arg5 harg5 hc0 hc1 x0 x1 xs0 xs1)]
  unfold kernelRun2_B
  dsimp only
  sl_unfold_words
  rw [View.canon_unit_zero hzero2]
  simp only [View.readCov_unit_zero (S := S64x1) _ hzero2, View.readAt_eq_ld, harg1.read_unread, harg2.read_unread, harg4.read_unread, harg5.read_unread, View.ld_unit_zero (S := S5000x1) hzero2, View.ld_unit_zero (S := S64x1) hzero2]

/-- The last point does the same to the sum accumulator, -/
theorem piece_C_0 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) :
    sout2_C_0 c i arg1 harg1 arg2 harg2 arg3 harg3 arg4 harg4 arg5 harg5 hc0 hc1 x0 x1 xs0 xs1 = k2_pay4 x0 x1 xs0 := by
  unfold sout2_C_0
  rw [View.read_writes_eq_canon _ _ _ (scover2_C_0 c i arg1 harg1 arg2 harg2 arg3 harg3 arg4 harg4 arg5 harg5 hc0 hc1 x0 x1 xs0 xs1)]
  unfold kernelRun2_C
  dsimp only
  sl_unfold_words
  rw [View.canon_unit_zero hzero2]
  simp only [View.readCov_unit_zero (S := S64x1) _ hzero2, View.readAt_eq_ld, harg1.read_unread, harg2.read_unread, harg4.read_unread, harg5.read_unread, View.ld_unit_zero (S := S5000x1) hzero2, View.ld_unit_zero (S := S64x1) hzero2]

/-- and to the count accumulator, -/
theorem piece_C_1 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) :
    sout2_C_1 c i arg1 harg1 arg2 harg2 arg3 harg3 arg4 harg4 arg5 harg5 hc0 hc1 x0 x1 xs0 xs1 = k2_pay5 x1 xs1 := by
  unfold sout2_C_1
  rw [View.read_writes_eq_canon _ _ _ (scover2_C_1 c i arg1 harg1 arg2 harg2 arg3 harg3 arg4 harg4 arg5 harg5 hc0 hc1 x0 x1 xs0 xs1)]
  unfold kernelRun2_C
  dsimp only
  sl_unfold_words
  rw [View.canon_unit_zero hzero2]
  simp only [View.readCov_unit_zero (S := S64x1) _ hzero2, View.readAt_eq_ld, harg1.read_unread, harg2.read_unread, harg4.read_unread, harg5.read_unread, View.ld_unit_zero (S := S5000x1) hzero2, View.ld_unit_zero (S := S64x1) hzero2]

/-- and stores the quotient of the two new accumulators over the result's buffer. -/
theorem piece_C_2 (c : Dev nD) (i : grid2.Coords) (arg1 : Memref sig .tc .vmem S5000x1 .f32) (harg1 : arg1.IsWhole) (arg2 : Memref sig .tc .vmem S5000x1 .i32) (harg2 : arg2.IsWhole)
    (arg3 : Memref sig .tc .vmem S64x1 .f32) (harg3 : arg3.IsWhole) (arg4 : Memref sig .tc .vmem S64x1 .f32) (harg4 : arg4.IsWhole)
    (arg5 : Memref sig .tc .vmem S64x1 .f32) (harg5 : arg5.IsWhole)
    (hc0 : ¬cond2_0 i) (hc1 : cond2_1 i) (x0 : Vec F S5000x1 .f32) (x1 : Vec F S5000x1 .i32) (xs0 xs1 : Vec F S64x1 .f32) :
    out2_C_2 c i arg1 harg1 arg2 harg2 arg3 harg3 arg4 harg4 arg5 harg5 hc0 hc1 x0 x1 xs0 xs1 = k2_pay6 (k2_pay4 x0 x1 xs0) (k2_pay5 x1 xs1) := by
  unfold out2_C_2
  rw [View.read_writes_eq_canon _ _ _ (cover2_C_2 c i arg1 harg1 arg2 harg2 arg3 harg3 arg4 harg4 arg5 harg5 hc0 hc1 x0 x1 xs0 xs1)]
  unfold kernelRun2_C
  dsimp only
  sl_unfold_words
  rw [View.canon_unit_zero hzero2]
  simp only [View.readCov_unit_zero (S := S64x1) _ hzero2, View.readAt_eq_ld, harg1.read_unread, harg2.read_unread, harg4.read_unread, harg5.read_unread, View.ld_unit_zero (S := S5000x1) hzero2, View.ld_unit_zero (S := S64x1) hzero2]

end Pieces

/-! ## Ten blocks of five thousand rows are the fifty thousand rows -/

/-- Row r of the block staged at point s, as a row of the whole column. -/
def rowOf (s : ℕ) (r : Fin 5000) : Fin 50000 := ⟨(5000 * s + r.val) % 50000, Nat.mod_lt _ (by decide)⟩

theorem rowOf_val (s : ℕ) (hs : s < 10) (r : Fin 5000) : (rowOf s r).val = 5000 * s + r.val := by
  have := r.isLt
  show (5000 * s + r.val) % 50000 = _
  omega

/-- Summing block by block, in point order, sums every row once. -/
theorem sum_blocks (f : Fin 50000 → EReal) :
    ∑ s ∈ Finset.range 10, ∑ r : Fin 5000, f (rowOf s r) = ∑ m : Fin 50000, f m := by
  rw [Finset.sum_range (fun s => ∑ r : Fin 5000, f (rowOf s r))]
  rw [← Fintype.sum_prod_type' (fun (s : Fin 10) (r : Fin 5000) => f (rowOf s.val r))]
  refine Fintype.sum_equiv (finProdFinEquiv : Fin 10 × Fin 5000 ≃ Fin (10 * 5000)) _ (fun m : Fin (10 * 5000) => f m) (fun x => congrArg f (Fin.ext ?_))
  have h1 := x.1.isLt
  have h2 := x.2.isLt
  show (5000 * x.1.val + x.2.val) % 50000 = x.2.val + 5000 * x.1.val
  omega

/-! ## The blocks the points stage are rows of the two columns -/

section Fold
variable (V : (c : Dev nD) → (b : Ref sig .tc) → Buf (Elt Ideal) ((c : Thread nD τ).loc b))

/-- The value column and the id column as the launch finds them, and their blocks at a point, at their literal types. -/
abbrev featArr (c : Dev nD) : FVec Ideal S50000x1 .f32 := V c main_v40
abbrev idArr (c : Dev nD) : IVec S50000x1 32 := V c main_v41
abbrev featBlk (c : Dev nD) (t : Fin cfg2.N) : Vec Ideal S5000x1 .f32 := blk2 V c 0 t
abbrev idBlk (c : Dev nD) (t : Fin cfg2.N) : Vec Ideal S5000x1 .i32 := blk2 V c 1 t

/-- The two input windows' block index at point t is (t, 0), decided over the grid. -/
theorem index2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, win2_0.index t (0 : Fin 2) = t.val ∧ win2_0.index t (1 : Fin 2) = 0
    ∧ win2_1.index t (0 : Fin 2) = t.val ∧ win2_1.index t (1 : Fin 2) = 0)

/-- Row r of the value block at point t is row 5000·t + r of the value column. -/
theorem featBlk_apply (c : Dev nD) (t : Fin cfg2.N) (r : Fin 5000) :
    featBlk V c t (ix2 r (0 : Fin 1)) = featArr V c (ix2 (rowOf t.val r) (0 : Fin 1)) := by
  obtain ⟨e0, e1, -, -⟩ := index2 t
  have hN : t.val < 10 := lt_of_lt_of_eq t.isLt (show cfg2.N = 10 from N_2)
  have hr := r.isLt
  show blk2 V c 0 t (ix2 r (0 : Fin 1)) = V c main_v40 (ix2 (rowOf t.val r) (0 : Fin 1))
  unfold blk2
  rw [View.read_apply]
  show V c main_v40 _ = V c main_v40 _
  congr 1
  funext a
  apply Fin.ext
  match a with
  | ⟨0, _⟩ => show win2_0.index t (0 : Fin 2) * 5000 + 1 * r.val = (5000 * t.val + r.val) % 50000; rw [e0]; omega
  | ⟨1, _⟩ => show win2_0.index t (1 : Fin 2) * 1 + 1 * 0 = 0; rw [e1]

/-- Row r of the id block at point t is row 5000·t + r of the id column. -/
theorem idBlk_apply (c : Dev nD) (t : Fin cfg2.N) (r : Fin 5000) :
    idBlk V c t (ix2 r (0 : Fin 1)) = idArr V c (ix2 (rowOf t.val r) (0 : Fin 1)) := by
  obtain ⟨-, -, e0, e1⟩ := index2 t
  have hN : t.val < 10 := lt_of_lt_of_eq t.isLt (show cfg2.N = 10 from N_2)
  have hr := r.isLt
  show blk2 V c 1 t (ix2 r (0 : Fin 1)) = V c main_v41 (ix2 (rowOf t.val r) (0 : Fin 1))
  unfold blk2
  rw [View.read_apply]
  show V c main_v41 _ = V c main_v41 _
  congr 1
  funext a
  apply Fin.ext
  match a with
  | ⟨0, _⟩ => show win2_1.index t (0 : Fin 2) * 5000 + 1 * r.val = (5000 * t.val + r.val) % 50000; rw [e0]; omega
  | ⟨1, _⟩ => show win2_1.index t (1 : Fin 2) * 1 + 1 * 0 = 0; rw [e1]

end Fold

/-! ## The accumulators after each point -/

section Chain
variable (V : (c : Dev nD) → (b : Ref sig .tc) → Buf (Elt Ideal) ((c : Thread nD τ).loc b))

/-- The pair (sum accumulator, count accumulator) after point n: cleared and added to at the first point, added to at
    every later one. -/
def accAt (c : Dev nD) : (n : ℕ) → n < cfg2.N → Vec Ideal S64x1 .f32 × Vec Ideal S64x1 .f32
  | 0, h => (k2_pay4 (featBlk V c ⟨0, h⟩) (idBlk V c ⟨0, h⟩) (k2_pay1 (F := Ideal)), k2_pay5 (idBlk V c ⟨0, h⟩) (k2_pay2 (F := Ideal)))
  | n + 1, h => (k2_pay4 (featBlk V c ⟨n + 1, h⟩) (idBlk V c ⟨n + 1, h⟩) (accAt c n (Nat.lt_of_succ_lt h)).1,
      k2_pay5 (idBlk V c ⟨n + 1, h⟩) (accAt c n (Nat.lt_of_succ_lt h)).2)

/-- What the launch's record of the accumulators holds after point n is that pair: by induction on the point. -/
theorem outs_eq (c : Dev nD) : ∀ (n : ℕ) (hn : n < cfg2.N), (outsAt2 V c n hn).2 = accAt V c n hn
  | 0, hn => by
    have h0 : (⟨0, hn⟩ : Fin cfg2.N).val % 10 = 0 := Nat.zero_mod _
    have h1 : ¬(⟨0, hn⟩ : Fin cfg2.N).val % 10 = 9 := by dsimp only; omega
    rw [outsAt2_A V c ⟨0, hn⟩ h0 h1]
    dsimp only
    rw [piece_A_0 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr h0) (fun h => h1 ((hcond2_1 ⟨0, hn⟩).mp h)) (blk2 V c 0 ⟨0, hn⟩) (blk2 V c 1 ⟨0, hn⟩),
      piece_A_1 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) scM2_1 (Memref.isWhole_whole _) ((hcond2_0 ⟨0, hn⟩).mpr h0) (fun h => h1 ((hcond2_1 ⟨0, hn⟩).mp h)) (blk2 V c 0 ⟨0, hn⟩) (blk2 V c 1 ⟨0, hn⟩)]
    rfl
  | n + 1, hn => by
    have hN : n + 1 < 10 := lt_of_lt_of_eq hn (show cfg2.N = 10 from N_2)
    have h0 : ¬(⟨n + 1, hn⟩ : Fin cfg2.N).val % 10 = 0 := by dsimp only; omega
    have ih := outs_eq c n (Nat.lt_of_succ_lt hn)
    by_cases h1 : (⟨n + 1, hn⟩ : Fin cfg2.N).val % 10 = 9
    · rw [outsAt2_C V c ⟨n + 1, hn⟩ h0 h1]
      dsimp only
      rw [piece_C_0 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) ((hcond2_1 ⟨n + 1, hn⟩).mpr h1) (blk2 V c 0 ⟨n + 1, hn⟩) (blk2 V c 1 ⟨n + 1, hn⟩) (outsAt2 V c (n + 1 - 1) (Nat.lt_of_le_of_lt (Nat.sub_le _ _) hn)).2.1 (outsAt2 V c (n + 1 - 1) (Nat.lt_of_le_of_lt (Nat.sub_le _ _) hn)).2.2,
        piece_C_1 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) ((hcond2_1 ⟨n + 1, hn⟩).mpr h1) (blk2 V c 0 ⟨n + 1, hn⟩) (blk2 V c 1 ⟨n + 1, hn⟩) (outsAt2 V c (n + 1 - 1) (Nat.lt_of_le_of_lt (Nat.sub_le _ _) hn)).2.1 (outsAt2 V c (n + 1 - 1) (Nat.lt_of_le_of_lt (Nat.sub_le _ _) hn)).2.2]
      show (k2_pay4 (blk2 V c 0 ⟨n + 1, hn⟩) (blk2 V c 1 ⟨n + 1, hn⟩) (outsAt2 V c n (Nat.lt_of_succ_lt hn)).2.1, k2_pay5 (blk2 V c 1 ⟨n + 1, hn⟩) (outsAt2 V c n (Nat.lt_of_succ_lt hn)).2.2)
        = (k2_pay4 (blk2 V c 0 ⟨n + 1, hn⟩) (blk2 V c 1 ⟨n + 1, hn⟩) (accAt V c n (Nat.lt_of_succ_lt hn)).1, k2_pay5 (blk2 V c 1 ⟨n + 1, hn⟩) (accAt V c n (Nat.lt_of_succ_lt hn)).2)
      rw [ih]
    · rw [outsAt2_B V c ⟨n + 1, hn⟩ h0 h1]
      dsimp only
      rw [piece_B_0 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (blk2 V c 0 ⟨n + 1, hn⟩) (blk2 V c 1 ⟨n + 1, hn⟩) (outsAt2 V c (n + 1 - 1) (Nat.lt_of_le_of_lt (Nat.sub_le _ _) hn)).2.1 (outsAt2 V c (n + 1 - 1) (Nat.lt_of_le_of_lt (Nat.sub_le _ _) hn)).2.2,
        piece_B_1 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (blk2 V c 0 ⟨n + 1, hn⟩) (blk2 V c 1 ⟨n + 1, hn⟩) (outsAt2 V c (n + 1 - 1) (Nat.lt_of_le_of_lt (Nat.sub_le _ _) hn)).2.1 (outsAt2 V c (n + 1 - 1) (Nat.lt_of_le_of_lt (Nat.sub_le _ _) hn)).2.2]
      show (k2_pay4 (blk2 V c 0 ⟨n + 1, hn⟩) (blk2 V c 1 ⟨n + 1, hn⟩) (outsAt2 V c n (Nat.lt_of_succ_lt hn)).2.1, k2_pay5 (blk2 V c 1 ⟨n + 1, hn⟩) (outsAt2 V c n (Nat.lt_of_succ_lt hn)).2.2)
        = (k2_pay4 (blk2 V c 0 ⟨n + 1, hn⟩) (blk2 V c 1 ⟨n + 1, hn⟩) (accAt V c n (Nat.lt_of_succ_lt hn)).1, k2_pay5 (blk2 V c 1 ⟨n + 1, hn⟩) (accAt V c n (Nat.lt_of_succ_lt hn)).2)
      rw [ih]

/-- What the last point stores into the result's buffer: the quotient of the two accumulators as that point leaves them. -/
theorem out_last (c : Dev nD) : ∀ (n : ℕ) (hn : n < cfg2.N), n % 10 = 9 →
    (outsAt2 V c n hn).1 = k2_pay6 (accAt V c n hn).1 (accAt V c n hn).2
  | 0, hn, h9 => absurd h9 (by omega)
  | n + 1, hn, h9 => by
    have hN : n + 1 < 10 := lt_of_lt_of_eq hn (show cfg2.N = 10 from N_2)
    have h0 : ¬(⟨n + 1, hn⟩ : Fin cfg2.N).val % 10 = 0 := by dsimp only; omega
    have h1 : (⟨n + 1, hn⟩ : Fin cfg2.N).val % 10 = 9 := h9
    have ih := outs_eq V c n (Nat.lt_of_succ_lt hn)
    rw [outsAt2_C V c ⟨n + 1, hn⟩ h0 h1]
    dsimp only
    rw [piece_C_2 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) scM2_1 (Memref.isWhole_whole _) (fun h => h0 ((hcond2_0 ⟨n + 1, hn⟩).mp h)) ((hcond2_1 ⟨n + 1, hn⟩).mpr h1) (blk2 V c 0 ⟨n + 1, hn⟩) (blk2 V c 1 ⟨n + 1, hn⟩) (outsAt2 V c (n + 1 - 1) (Nat.lt_of_le_of_lt (Nat.sub_le _ _) hn)).2.1 (outsAt2 V c (n + 1 - 1) (Nat.lt_of_le_of_lt (Nat.sub_le _ _) hn)).2.2]
    show k2_pay6 (k2_pay4 (blk2 V c 0 ⟨n + 1, hn⟩) (blk2 V c 1 ⟨n + 1, hn⟩) (outsAt2 V c n (Nat.lt_of_succ_lt hn)).2.1) (k2_pay5 (blk2 V c 1 ⟨n + 1, hn⟩) (outsAt2 V c n (Nat.lt_of_succ_lt hn)).2.2)
      = k2_pay6 (k2_pay4 (blk2 V c 0 ⟨n + 1, hn⟩) (blk2 V c 1 ⟨n + 1, hn⟩) (accAt V c n (Nat.lt_of_succ_lt hn)).1) (k2_pay5 (blk2 V c 1 ⟨n + 1, hn⟩) (accAt V c n (Nat.lt_of_succ_lt hn)).2)
    rw [ih]

end Chain

/-! ## The accumulators' values: sums over the blocks staged so far -/

section Values
variable (V : (c : Dev nD) → (b : Ref sig .tc) → Buf (Elt Ideal) ((c : Thread nD τ).loc b))

/-- The term of row m for graph g in the per-graph sum, and in the per-graph count. -/
def sumTerm (feat : FVec Ideal S50000x1 .f32) (ids : IVec S50000x1 32) (g : Fin 64) (m : Fin 50000) : EReal :=
  (if ids (ix2 m (0 : Fin 1)) = BitVec.ofNat 32 g.val then (1 : EReal) else 0) * feat (ix2 m (0 : Fin 1))
def cntTerm (ids : IVec S50000x1 32) (g : Fin 64) (m : Fin 50000) : EReal :=
  (if ids (ix2 m (0 : Fin 1)) = BitVec.ofNat 32 g.val then (1 : EReal) else 0) * 1

/-- The block product of point t, at graph g, in rows of the whole columns. -/
theorem blockSum_eq (c : Dev nD) (t : Fin cfg2.N) (g : Fin 64) :
    ∑ r : Fin 5000, (if idBlk V c t (ix2 r (0 : Fin 1)) = BitVec.ofNat 32 g.val then (1 : EReal) else 0) * featBlk V c t (ix2 r (0 : Fin 1))
      = ∑ r : Fin 5000, sumTerm (featArr V c) (idArr V c) g (rowOf t.val r) :=
  Finset.sum_congr rfl fun r _ => by rw [featBlk_apply V c t r, idBlk_apply V c t r]; rfl
theorem blockCnt_eq (c : Dev nD) (t : Fin cfg2.N) (g : Fin 64) :
    ∑ r : Fin 5000, (if idBlk V c t (ix2 r (0 : Fin 1)) = BitVec.ofNat 32 g.val then (1 : EReal) else 0) * 1
      = ∑ r : Fin 5000, cntTerm (idArr V c) g (rowOf t.val r) :=
  Finset.sum_congr rfl fun r _ => by rw [idBlk_apply V c t r]; rfl

/-- After point n the sum accumulator at graph g is the sum of the blocks 0 … n, and the count accumulator likewise:
    the extended reals' addition is associative and commutative, so the order of the points does not matter. -/
theorem accAt_apply (c : Dev nD) (g : Fin 64) : ∀ (n : ℕ) (hn : n < cfg2.N),
    (accAt V c n hn).1 (ix2 g (0 : Fin 1)) = ∑ s ∈ Finset.range (n + 1), ∑ r : Fin 5000, sumTerm (featArr V c) (idArr V c) g (rowOf s r)
    ∧ (accAt V c n hn).2 (ix2 g (0 : Fin 1)) = ∑ s ∈ Finset.range (n + 1), ∑ r : Fin 5000, cntTerm (idArr V c) g (rowOf s r)
  | 0, hn => by
    constructor
    · show k2_pay4 (featBlk V c ⟨0, hn⟩) (idBlk V c ⟨0, hn⟩) (k2_pay1 (F := Ideal)) (ix2 g (0 : Fin 1)) = _
      refine (pay4_apply (featBlk V c ⟨0, hn⟩) (idBlk V c ⟨0, hn⟩) (k2_pay1 (F := Ideal)) g).trans ?_
      rw [pay1_apply, zero_add, Finset.sum_range_one]
      exact blockSum_eq V c ⟨0, hn⟩ g
    · show k2_pay5 (idBlk V c ⟨0, hn⟩) (k2_pay2 (F := Ideal)) (ix2 g (0 : Fin 1)) = _
      refine (pay5_apply (idBlk V c ⟨0, hn⟩) (k2_pay2 (F := Ideal)) g).trans ?_
      rw [pay2_apply, zero_add, Finset.sum_range_one]
      exact blockCnt_eq V c ⟨0, hn⟩ g
  | n + 1, hn => by
    obtain ⟨ih1, ih2⟩ := accAt_apply c g n (Nat.lt_of_succ_lt hn)
    constructor
    · show k2_pay4 (featBlk V c ⟨n + 1, hn⟩) (idBlk V c ⟨n + 1, hn⟩) (accAt V c n (Nat.lt_of_succ_lt hn)).1 (ix2 g (0 : Fin 1)) = _
      refine (pay4_apply (featBlk V c ⟨n + 1, hn⟩) (idBlk V c ⟨n + 1, hn⟩) (accAt V c n (Nat.lt_of_succ_lt hn)).1 g).trans ?_
      rw [ih1, Finset.sum_range_succ _ (n + 1)]
      exact congrArg (_ + ·) (blockSum_eq V c ⟨n + 1, hn⟩ g)
    · show k2_pay5 (idBlk V c ⟨n + 1, hn⟩) (accAt V c n (Nat.lt_of_succ_lt hn)).2 (ix2 g (0 : Fin 1)) = _
      refine (pay5_apply (idBlk V c ⟨n + 1, hn⟩) (accAt V c n (Nat.lt_of_succ_lt hn)).2 g).trans ?_
      rw [ih2, Finset.sum_range_succ _ (n + 1)]
      exact congrArg (_ + ·) (blockCnt_eq V c ⟨n + 1, hn⟩ g)

/-- A one-or-zero factor selects: one times x is x and zero times x is zero for every extended real. -/
theorem sumTerm_eq (feat : FVec Ideal S50000x1 .f32) (ids : IVec S50000x1 32) (g : Fin 64) (m : Fin 50000) :
    sumTerm feat ids g m = if ids (ix2 m (0 : Fin 1)) = BitVec.ofNat 32 g.val then feat (ix2 m (0 : Fin 1)) else 0 := by
  unfold sumTerm
  by_cases h : ids (ix2 m (0 : Fin 1)) = BitVec.ofNat 32 g.val
  · rw [if_pos h, if_pos h, one_mul]
  · rw [if_neg h, if_neg h, zero_mul]
theorem cntTerm_eq (ids : IVec S50000x1 32) (g : Fin 64) (m : Fin 50000) :
    cntTerm ids g m = if ids (ix2 m (0 : Fin 1)) = BitVec.ofNat 32 g.val then (1 : EReal) else 0 := by
  unfold cntTerm
  exact mul_one _

/-- After the last point the accumulators hold the per-graph sum and the per-graph count. -/
theorem acc_last (c : Dev nD) (g : Fin 64) (n : ℕ) (hn : n < cfg2.N) (h9 : n = 9) :
    (accAt V c n hn).1 (ix2 g (0 : Fin 1)) = poolSum (featArr V c) (idArr V c) g
    ∧ (accAt V c n hn).2 (ix2 g (0 : Fin 1)) = poolCnt (idArr V c) g := by
  subst h9
  obtain ⟨e1, e2⟩ := accAt_apply V c g 9 hn
  constructor
  · rw [e1, sum_blocks (sumTerm (featArr V c) (idArr V c) g)]
    exact Finset.sum_congr rfl fun m _ => sumTerm_eq _ _ g m
  · rw [e2, sum_blocks (cntTerm (idArr V c) g)]
    exact Finset.sum_congr rfl fun m _ => cntTerm_eq _ g m

end Values

/-! ## The result array -/

section Result
variable (V : (c : Dev nD) → (b : Ref sig .tc) → Buf (Elt Ideal) ((c : Thread nD τ).loc b))

/-- The result column: every graph's mean. -/
def poolArr (c : Dev nD) : FVec Ideal S64x1 .f32 :=
  fun j => poolAt (featArr V c) (idArr V c) ⟨(j 0).val, idx2_lt0 j⟩

/-- The quotient of the two accumulators as the last point leaves them is the result column. -/
theorem pay6_last (c : Dev nD) (n : ℕ) (hn : n < cfg2.N) (h9 : n = 9) :
    k2_pay6 (accAt V c n hn).1 (accAt V c n hn).2 = poolArr V c := by
  funext j
  obtain ⟨g, z, rfl⟩ : ∃ (g : Fin 64) (z : Fin 1), j = ix2 g z := ⟨j 0, j 1, eq_ix2 j⟩
  obtain rfl : z = 0 := Subsingleton.elim _ _
  obtain ⟨e1, e2⟩ := acc_last V c g n hn h9
  refine (pay6_apply (accAt V c n hn).1 (accAt V c n hn).2 g).trans ?_
  rw [e1, e2]
  rfl

/-- The one write-back, after the last point, writes the result column: the result's one block is the whole array. -/
theorem flushed_eq (c : Dev nD) (t : Fin cfg2.N) (hf : (cfg2.win 2).flush t = true) :
    (dat2 V c).flushed 2 t = ((cfg2.win 2).blk t).view.read (Elt Ideal) (poolArr V c) := by
  have hN : cfg2.N = 10 := N_2
  have h9 : t.val = 9 := by have := (flush2_2 t).mp hf; have := t.isLt; omega
  obtain rfl : t = t2_9 := Fin.ext h9
  show (cfg2.win 2).cut (grid2.coords t2_9) ((dat2 V c).after 2 t2_9) = _
  rw [after2_2, out_last V c t2_9.val t2_9.isLt rfl, pay6_last V c t2_9.val t2_9.isLt rfl]
  have hz' : (fun a => win2_2.index t2_9 a * main_v42.ty.shape.size a) = fun _ => 0 := funext fun a => by fin_cases a <;> decide
  exact (Memref.read_access_unit_zero (Elt Ideal) main_v42 hz' (fun a => by rw [congrFun hz' a]; simp) (poolArr V c)).symm

/-- That block covers the result array. -/
theorem cover_last (c : Dev nD) (i : ((cfg2.win 2).arr.view.loc (c.tc : Thread nD τ)).2.ty.Idx) :
    ∃ t : Fin cfg2.N, (cfg2.win 2).flush t = true ∧ i ∈ ((cfg2.win 2).blk t).view.set :=
  ⟨t2_9, (flush2_2 t2_9).mpr rfl, by
    show i ∈ ((View.whole main_v42).slice (win2_2.rect t2_9)).set
    rw [View.set_slice_whole, Rect.mem_set_unit]
    intro a
    have h0 : (i 0 : Nat) < 64 := (i 0).isLt
    have h1 : (i 1 : Nat) < 1 := (i 1).isLt
    match a with
    | ⟨0, _⟩ => show win2_2.index t2_9 0 * win2_2.size 0 ≤ (i 0 : Nat) ∧ (i 0 : Nat) < win2_2.index t2_9 0 * win2_2.size 0 + win2_2.xsize (grid2.coords t2_9) 0
                rw [show win2_2.index t2_9 0 * win2_2.size 0 = 0 from by decide +kernel, show win2_2.xsize (grid2.coords t2_9) 0 = 64 from by decide +kernel]; omega
    | ⟨1, _⟩ => show win2_2.index t2_9 1 * win2_2.size 1 ≤ (i 1 : Nat) ∧ (i 1 : Nat) < win2_2.index t2_9 1 * win2_2.size 1 + win2_2.xsize (grid2.coords t2_9) 1
                rw [show win2_2.index t2_9 1 * win2_2.size 1 = 0 from by decide +kernel, show win2_2.xsize (grid2.coords t2_9) 1 = 1 from by decide +kernel]; omega⟩

end Result

end Pool

/-- THE POOLING LAUNCH'S RESULT: after the launch the result array holds, for every graph, the sum of the values of
    its nodes over the number of its nodes raised to at least one. -/
theorem pool_at (V : (c : Dev nD) → (b : Ref sig .tc) → Buf (Elt Ideal) ((c : Thread nD τ).loc b)) (c : Dev nD) (g : Fin 64) :
    (dat2 (F := Ideal) V c).arrAt 2 cfg2.N (ix2 g (0 : Fin 1)) = poolAt (V c main_v40) (V c main_v41) g := by
  have e := (dat2 V c).arrAt_eq_of_cover 2 (Pool.poolArr V c) (Pool.flushed_eq V c) (Pool.cover_last c)
  rw [e]
  rfl

end Cert.KernelIdeal.Hand

end
-- ==== Proof.LibScatterWords.lean ====
/-
  A host scatter with an add body whose one index word per update names a row (an entry of a vector, or a row of a
  matrix), read at one element for ARBITRARY index words: the word is read signed and is not clamped, so an update
  whose word is not a row number of the operand lands nowhere and adds nothing.
-/
import Idealize.ShloMosaic.Lib.ValueIdx

noncomputable section

open scoped BigOperators

namespace Cert.Lib.ScatterWords

open Idealize.ShloMosaic Idealize.ShloMosaic.ValueIdx

/-- Of two axes, axis 0 is not in the list holding axis 1 alone … -/
private theorem fin2_zero_notMem : (0 : Fin 2) ∉ ([1] : List (Fin 2)) := by decide
/-- … and axis 1 is not in the list holding axis 0 alone. -/
private theorem fin2_one_notMem : (1 : Fin 2) ∉ ([0] : List (Fin 2)) := by decide

/-- A rank-1 index set is its one coordinate's range. -/
private def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
private theorem sum_idx1 {M : Type*} [AddCommMonoid M] {n : Nat} (g : (⟨1, ![n]⟩ : Shape).Idx → M) :
    ∑ j, g j = ∑ a : Fin n, g (ix1 a) := by
  rw [← Equiv.sum_comp (idxEquiv1 (n := n)).symm g]
  rfl

/-- For any dimension numbers: update j lands on the operand index t exactly when, on every operand axis, start plus
    window coordinate is t's coordinate. (If the sums are t's coordinates they are inside the operand, so the update
    is kept and lands there; if the update is kept, the sums are nonnegative and are the coordinates of where it
    lands; if it is dropped it lands on no t.) -/
private theorem resultIdx?_eq_some_iff {s si u : Shape} (d : ScatterDims s si u) {w : Nat} (j : u.Idx)
    (idx : IVec si w) (t : s.Idx) :
    d.resultIdx? j idx = some t ↔ ∀ a, d.start j idx a + (d.window j a : Int) = ((t a).val : Int) := by
  unfold ScatterDims.resultIdx?
  constructor
  · intro h a
    split at h
    · rename_i hall
      have ht := congrFun (Option.some.inj h) a
      have hv := congrArg Fin.val ht
      simp only at hv
      have := (hall a).1
      omega
    · exact absurd h (by simp)
  · intro h
    have hall : ∀ a, 0 ≤ d.start j idx a + d.window j a ∧ d.start j idx a + d.window j a < s.size a := by
      intro a
      have := (t a).isLt
      rw [h a]
      omega
    rw [dif_pos hall]
    congr 1
    funext a
    refine Fin.ext ?_
    show (d.start j idx a + d.window j a).toNat = (t a).val
    rw [h a]
    omega

/-- Update e of the vector scatter lands on entry i exactly when its index word, read signed, is i: the start on the
    one operand axis is that word and the window coordinate there is 0 (the axis is inserted). -/
private theorem vec_resultIdx_iff {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  obtain ⟨uw, iw, sd, iv, wf⟩ := d
  simp only at h1 h2 h3 h4
  subst h1 h2 h3 h4
  set D : ScatterDims ⟨1, ![N]⟩ ⟨2, ![E, 1]⟩ ⟨1, ![E]⟩ := ⟨[], [0], [0], 1, wf⟩ with hD
  have hwin : D.window (ix1 e) 0 = 0 := by
    unfold ScatterDims.window
    split
    · rename_i h; exact absurd h (List.not_mem_nil (a := (0 : Fin 1)))
    · rfl
  have hstart : D.start (ix1 e) idx 0 = (idx (ix2 e (0 : Fin 1))).toInt := by
    unfold ScatterDims.start
    rw [dif_pos (show (0 : Fin 1) ∈ D.scatterDimsToOperandDims from List.mem_singleton.mpr rfl)]
    congr 2
    funext b; refine Fin.ext ?_
    match b with
    | ⟨0, _⟩ => rfl
    | ⟨1, _⟩ => rfl
  rw [resultIdx?_eq_some_iff]
  constructor
  · intro h
    have h0 := h 0
    rw [hwin, hstart] at h0
    have h0' : (idx (ix2 e (0 : Fin 1))).toInt + ((0 : Nat) : Int) = (i.val : Int) := h0
    omega
  · intro h a
    obtain rfl : a = 0 := Subsingleton.elim _ _
    rw [hwin, hstart, h]
    show (i.val : Int) + ((0 : Nat) : Int) = (i.val : Int)
    omega

/-- Update (e, k') of the row scatter lands on (i, k) exactly when its index word, read signed, is i and k' is k: on
    the row axis the start is the word and the window coordinate 0 (the axis is inserted); on the column axis the
    start is 0 (the map does not name it) and the window coordinate is k'. -/
private theorem rows_resultIdx_iff {N E K w : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1) (idx : IVec ⟨2, ![E, 1]⟩ w) (e : Fin E) (k' : Fin K) (i : Fin N) (k : Fin K) :
    d.resultIdx? (ix2 e k') idx = some (ix2 i k)
      ↔ (idx (ix2 e (0 : Fin 1))).toInt = (i.val : Int) ∧ k' = k := by
  obtain ⟨uw, iw, sd, iv, wf⟩ := d
  simp only at h1 h2 h3 h4
  subst h1 h2 h3 h4
  set D : ScatterDims ⟨2, ![N, K]⟩ ⟨2, ![E, 1]⟩ ⟨2, ![E, K]⟩ := ⟨[1], [0], [0], 1, wf⟩ with hD
  have hwin0 : D.window (ix2 e k') 0 = 0 := by
    unfold ScatterDims.window
    split
    · rename_i h; exact absurd h fin2_zero_notMem
    · rfl
  have hwin1 : D.window (ix2 e k') 1 = k'.val := by
    unfold ScatterDims.window
    split
    · rfl
    · rename_i h; exact absurd (show (1 : Fin 2) ∈ ([1] : List (Fin 2)) from List.mem_singleton.mpr rfl) h
  have hstart0 : D.start (ix2 e k') idx 0 = (idx (ix2 e (0 : Fin 1))).toInt := by
    unfold ScatterDims.start
    rw [dif_pos (show (0 : Fin 2) ∈ D.scatterDimsToOperandDims from List.mem_singleton.mpr rfl)]
    congr 2
    funext b; refine Fin.ext ?_
    match b with
    | ⟨0, _⟩ => rfl
    | ⟨1, _⟩ => rfl
  have hstart1 : D.start (ix2 e k') idx 1 = 0 := by
    unfold ScatterDims.start
    split
    · rename_i h; exact absurd h fin2_one_notMem
    · rfl
  rw [resultIdx?_eq_some_iff]
  constructor
  · intro h
    have h0 := h 0
    have h1 := h 1
    rw [hwin0, hstart0] at h0
    rw [hwin1, hstart1] at h1
    have h0' : (idx (ix2 e (0 : Fin 1))).toInt + ((0 : Nat) : Int) = (i.val : Int) := h0
    have h1' : (0 : Int) + ((k'.val : Nat) : Int) = (k.val : Int) := h1
    refine ⟨by omega, Fin.ext (by omega)⟩
  · rintro ⟨h, rfl⟩ a
    match a with
    | ⟨0, _⟩ =>
      show D.start (ix2 e k') idx 0 + ((D.window (ix2 e k') 0 : Nat) : Int) = (i.val : Int)
      rw [hwin0, hstart0, h]
      omega
    | ⟨1, _⟩ =>
      show D.start (ix2 e k') idx 1 + ((D.window (ix2 e k') 1 : Nat) : Int) = (k'.val : Int)
      rw [hwin1, hstart1]
      omega

/-- Scalars added into a vector, for arbitrary index words: entry i of the result is entry i of the operand plus
    every update whose index word, read signed, is i. A word that is no entry number (negative, or N or more) is
    equal to no i below N, so its update appears in no entry. -/
theorem scatterAdd_vec_words {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ 32) (upd : (⟨1, ![E]⟩ : Shape).Idx → EReal)
    (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  exact if_congr (vec_resultIdx_iff d h1 h2 h3 h4 idx e i) rfl rfl

/-- Rows added into a matrix, for arbitrary index words: element (i, k) of the result is that element of the operand
    plus column k of every update row whose index word, read signed, is i. A word that is no row number (negative,
    or N or more) is equal to no i below N, so its update row appears in no row. -/
theorem scatterAdd_rows_words {N E K : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1)
    (x : (⟨2, ![N, K]⟩ : Shape).Idx → EReal) (idx : IVec ⟨2, ![E, 1]⟩ 32) (upd : (⟨2, ![E, K]⟩ : Shape).Idx → EReal)
    (i : Fin N) (k : Fin K) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  rw [Finset.sum_filter, sum_idx2]
  refine Finset.sum_congr rfl fun e _ => ?_
  have hinner : ∀ k' : Fin K,
      (if d.resultIdx? (ix2 e k') idx = some (ix2 i k) then upd (ix2 e k') else 0)
        = if k' = k then (if (idx (ix2 e (0 : Fin 1))).toInt = (i.val : Int) then upd (ix2 e k') else 0) else 0 := by
    intro k'
    by_cases hk : k' = k
    · rw [if_pos hk]
      refine if_congr ?_ rfl rfl
      rw [rows_resultIdx_iff d h1 h2 h3 h4 idx e k' i k]
      exact ⟨fun h => h.1, fun h => ⟨h, hk⟩⟩
    · rw [if_neg hk, if_neg]
      rw [rows_resultIdx_iff d h1 h2 h3 h4 idx e k' i k]
      exact fun h => hk h.2
  rw [Finset.sum_congr rfl fun k' _ => hinner k', Finset.sum_ite_eq' Finset.univ k]
  rw [if_pos (Finset.mem_univ k)]

/-- A 32-bit word read signed is the natural number n below 2³¹ exactly when it is the word of n: below 2³¹ the
    word of n has its top bit clear, so its signed reading is n, and the signed reading determines the word. -/
theorem toInt_eq_natCast_iff (w : BitVec 32) (n : Nat) (hn : n < 2 ^ 31) :
    w.toInt = (n : Int) ↔ w = BitVec.ofNat 32 n := by
  have hn' : n < 2147483648 := by simpa using hn
  have hnat : (BitVec.ofNat 32 n).toNat = n := by
    rw [BitVec.toNat_ofNat]
    exact Nat.mod_eq_of_lt (by omega)
  have hof : (BitVec.ofNat 32 n).toInt = (n : Int) := by
    rw [BitVec.toInt_eq_toNat_of_lt (by rw [hnat]; omega), hnat]
  constructor
  · intro h
    apply BitVec.eq_of_toInt_eq
    rw [h, hof]
  · intro h
    rw [h, hof]

end Cert.Lib.ScatterWords

end
-- ==== Proof.RefRead.lean ====
/-
  The reference program read at an element: the hidden layer and the second layer as sums over the 128 features, the
  second neighbour aggregation as the first one applied to the hidden layer, and the pooled result of a graph as the sum
  over its nodes divided by their number raised to at least one.
-/
import proofs.«416588_j74285754351848_1_alg».proof.Proof.Gen.ReferenceIdeal.Read
import proofs.«416588_j74285754351848_1_alg».proof.Proof.LibScatterWords
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx
open scoped BigOperators

variable (x0 : (⟨S50000x128, .f32⟩ : BufTy).Contents (Elt Ideal)) (x1 : (⟨S2x800000, .i32⟩ : BufTy).Contents (Elt Ideal))
  (x3 : (⟨S50000, .i32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 : (⟨S128x1, .f32⟩ : BufTy).Contents (Elt Ideal)) (x8 : (⟨S1, .f32⟩ : BufTy).Contents (Elt Ideal))
  (x9 : (⟨S128x1, .f32⟩ : BufTy).Contents (Elt Ideal))

/-! ## Where each stage reads its operands, at the element (n, j) -/

/-- The aggregated product's left operand at summation index k is row n, column k, -/
theorem aggLeft1 (n : Fin 50000) (j k : Fin 128) : lidx_main_v25 (ix2 n j) k = ix2 n k :=
  funext fun a => Fin.ext (by match a with | ⟨0, _⟩ => rfl | ⟨1, _⟩ => rfl)
/-- and its right operand row k, column j. -/
theorem aggRight1 (n : Fin 50000) (j k : Fin 128) : ridx_main_v25 (ix2 n j) k = ix2 k j :=
  funext fun a => Fin.ext (by match a with | ⟨0, _⟩ => rfl | ⟨1, _⟩ => rfl)
/-- The root product's operands likewise. -/
theorem rootLeft1 (n : Fin 50000) (j k : Fin 128) : lidx_main_v29 (ix2 n j) k = ix2 n k :=
  funext fun a => Fin.ext (by match a with | ⟨0, _⟩ => rfl | ⟨1, _⟩ => rfl)
theorem rootRight1 (n : Fin 50000) (j k : Fin 128) : ridx_main_v29 (ix2 n j) k = ix2 k j :=
  funext fun a => Fin.ext (by match a with | ⟨0, _⟩ => rfl | ⟨1, _⟩ => rfl)
/-- The bias row broadcast over the nodes reads the bias at the feature. -/
theorem biasAt1 (n : Fin 50000) (j : Fin 128) : idx_main_v26 (idx_main_v27 (ix2 n j)) = ix1 j :=
  funext fun a => Fin.ext (by match a with | ⟨0, _⟩ => rfl)

/-- The hidden layer at node n, feature j: the aggregated product, the bias, the root product, then the maximum with zero. -/
theorem hidden_at (n : Fin 50000) (j : Fin 128) :
    val_main_v31 (F := Ideal) x0 x1 x4 x5 x6 (ix2 n j)
      = max (((∑ k : Fin 128, val_main_v24 (F := Ideal) x0 x1 (ix2 n k) * x4 (ix2 k j)) + x5 (ix1 j))
          + ∑ k : Fin 128, x0 (ix2 n k) * x6 (ix2 k j)) 0 := by
  rw [val_main_v31_apply, val_main_v30_apply, val_main_v28_apply, val_main_v29_apply, val_main_v25_apply,
    val_main_v27_apply, val_main_v26_apply, val_main_call0_v0_apply, val_main_call0_cst_apply]
  simp only [aggLeft1, aggRight1, rootLeft1, rootRight1, biasAt1]
  simp only [Ideal.addf_def, Ideal.maximumf_def, Ideal.ofBits_def, Ideal.ofBits_zero_f32]

/-- The second aggregation is the first one applied to the hidden layer (the same host operations on another operand). -/
theorem agg_hidden :
    val_main_v43 (F := Ideal) x0 x1 x4 x5 x6 = val_main_v24 (F := Ideal) (val_main_v31 (F := Ideal) x0 x1 x4 x5 x6) x1 := rfl

/-! ## The second layer at node n -/

theorem aggLeft2 (n : Fin 50000) (k : Fin 128) : lidx_main_v44 (ix2 n (0 : Fin 1)) k = ix2 n k :=
  funext fun a => Fin.ext (by match a with | ⟨0, _⟩ => rfl | ⟨1, _⟩ => rfl)
theorem aggRight2 (n : Fin 50000) (k : Fin 128) : ridx_main_v44 (ix2 n (0 : Fin 1)) k = ix2 k (0 : Fin 1) :=
  funext fun a => Fin.ext (by match a with | ⟨0, _⟩ => rfl | ⟨1, _⟩ => rfl)
theorem rootLeft2 (n : Fin 50000) (k : Fin 128) : lidx_main_v48 (ix2 n (0 : Fin 1)) k = ix2 n k :=
  funext fun a => Fin.ext (by match a with | ⟨0, _⟩ => rfl | ⟨1, _⟩ => rfl)
theorem rootRight2 (n : Fin 50000) (k : Fin 128) : ridx_main_v48 (ix2 n (0 : Fin 1)) k = ix2 k (0 : Fin 1) :=
  funext fun a => Fin.ext (by match a with | ⟨0, _⟩ => rfl | ⟨1, _⟩ => rfl)
/-- The one bias broadcast over the nodes reads the bias's one entry. -/
theorem biasAt2 (n : Fin 50000) : idx_main_v45 (idx_main_v46 (ix2 n (0 : Fin 1))) = ix1 (0 : Fin 1) :=
  funext fun a => Fin.ext (by match a with | ⟨0, _⟩ => rfl)

/-- The second layer at node n. -/
theorem out_at (n : Fin 50000) :
    val_main_v49 (F := Ideal) x0 x1 x4 x5 x6 x7 x8 x9 (ix2 n (0 : Fin 1))
      = ((∑ k : Fin 128, val_main_v43 (F := Ideal) x0 x1 x4 x5 x6 (ix2 n k) * x7 (ix2 k (0 : Fin 1))) + x8 (ix1 (0 : Fin 1)))
          + ∑ k : Fin 128, val_main_v31 (F := Ideal) x0 x1 x4 x5 x6 (ix2 n k) * x9 (ix2 k (0 : Fin 1)) := by
  rw [val_main_v49_apply, val_main_v47_apply, val_main_v48_apply, val_main_v44_apply, val_main_v46_apply, val_main_v45_apply]
  simp only [aggLeft2, aggRight2, rootLeft2, rootRight2, biasAt2]
  simp only [Ideal.addf_def]

/-! ## The pooled result of a graph -/

/-- The word 0x3F800000 denotes one. -/
theorem ofBits_one_f32 : Ideal.ofBits .f32 0x3F800000#32 = 1 := by
  simp [Ideal.ofBits, Ideal.ieee, -EReal.coe_mul]; norm_num

/-- The id column reads the node's id word. -/
theorem idWordAt (n : Fin 50000) : idx_main_v51 (ix2 n (0 : Fin 1)) = ix1 n :=
  funext fun a => Fin.ext (by match a with | ⟨0, _⟩ => rfl)
theorem idWordAt' (n : Fin 50000) : idx_main_v55 (ix2 n (0 : Fin 1)) = ix1 n :=
  funext fun a => Fin.ext (by match a with | ⟨0, _⟩ => rfl)

/-- A node's id word, read signed, is the graph number g exactly when it is the word of g. -/
theorem idWord_iff (w : BitVec 32) (g : Fin 64) : w.toInt = (g.val : Int) ↔ w = BitVec.ofNat 32 g.val :=
  Cert.Lib.ScatterWords.toInt_eq_natCast_iff w g.val (by have := g.isLt; omega)

/-- The values added into graph g's entry: those of the nodes whose id word is the word of g. -/
theorem summed_at (g : Fin 64) :
    val_main_v52 (F := Ideal) x0 x1 x3 x4 x5 x6 x7 x8 x9 (ix2 g (0 : Fin 1))
      = ∑ n : Fin 50000, if x3 (ix1 n) = BitVec.ofNat 32 g.val then val_main_v49 (F := Ideal) x0 x1 x4 x5 x6 x7 x8 x9 (ix2 n (0 : Fin 1)) else 0 := by
  unfold val_main_v52
  refine (Cert.Lib.ScatterWords.scatterAdd_rows_words scatter_S64x1_S50000x1_S50000x1_1_0_0_1 rfl rfl rfl rfl
    (val_main_v50 (F := Ideal)) (val_main_v51 (F := Ideal) x3) (val_main_v49 (F := Ideal) x0 x1 x4 x5 x6 x7 x8 x9) g (0 : Fin 1)).trans ?_
  rw [val_main_v50_apply, val_main_cst_8_apply]
  show Ideal.ofBits .f32 0x00000000#32 + _ = _
  rw [Ideal.ofBits_zero_f32, zero_add]
  refine Finset.sum_congr rfl fun n _ => ?_
  rw [val_main_v51_apply, idWordAt]
  exact if_congr (idWord_iff _ g) rfl rfl

/-- The ones added into graph g's entry: one for each node whose id word is the word of g. -/
theorem counted_at (g : Fin 64) :
    val_main_v56 (F := Ideal) x3 (ix2 g (0 : Fin 1))
      = ∑ n : Fin 50000, if x3 (ix1 n) = BitVec.ofNat 32 g.val then (1 : EReal) else 0 := by
  unfold val_main_v56
  refine (Cert.Lib.ScatterWords.scatterAdd_rows_words scatter_S64x1_S50000x1_S50000x1_1_0_0_1 rfl rfl rfl rfl
    (val_main_v54 (F := Ideal)) (val_main_v55 (F := Ideal) x3) (val_main_v53 (F := Ideal)) g (0 : Fin 1)).trans ?_
  rw [val_main_v54_apply, val_main_cst_10_apply]
  show Ideal.ofBits .f32 0x00000000#32 + _ = _
  rw [Ideal.ofBits_zero_f32, zero_add]
  refine Finset.sum_congr rfl fun n _ => ?_
  rw [val_main_v55_apply, idWordAt', val_main_v53_apply, val_main_cst_9_apply]
  show (if (x3 (ix1 n)).toInt = (g.val : Int) then Ideal.ofBits .f32 0x3F800000#32 else 0) = _
  rw [ofBits_one_f32]
  exact if_congr (idWord_iff _ g) rfl rfl

/-- The pooled result at graph g: the values of the nodes whose id word is the word of g, over their number raised to at least one. -/
theorem pooled_at (g : Fin 64) :
    val_main_v59 (F := Ideal) x0 x1 x3 x4 x5 x6 x7 x8 x9 (ix2 g (0 : Fin 1))
      = Ideal.div (∑ n : Fin 50000, if x3 (ix1 n) = BitVec.ofNat 32 g.val then val_main_v49 (F := Ideal) x0 x1 x4 x5 x6 x7 x8 x9 (ix2 n (0 : Fin 1)) else 0)
          (max (∑ n : Fin 50000, if x3 (ix1 n) = BitVec.ofNat 32 g.val then (1 : EReal) else 0) 1) := by
  rw [val_main_v59_apply, val_main_v58_apply, summed_at, counted_at, val_main_v57_apply, val_main_cst_11_apply]
  show Ideal.div _ (max _ (Ideal.ofBits .f32 0x3F800000#32)) = _
  rw [ofBits_one_f32]

end Cert.ReferenceIdeal.Hand

end
-- ==== Proof.Equal.lean ====
/-
  The two programs compute one function, at the ideal instance. Layer by layer: the hidden features the first
  launch leaves are the reference's hidden features (element by element both are the maximum with zero of the
  aggregated product, the root product and the bias added up — the kernel adds the bias last, the reference between
  the two products, and addition of extended reals is commutative and associative); the column the second launch
  leaves is the reference's second layer for the same reason, the aggregation being the same function applied to equal
  hidden features; and the pooled quotient the third launch leaves is the reference's scatter-added sum over its
  scatter-added count, both being sums over the nodes whose graph-id word is the graph's.
-/
import proofs.«416588_j74285754351848_1_alg».proof.Proof.KI.Entry
import proofs.«416588_j74285754351848_1_alg».proof.Proof.KI.Dense
import proofs.«416588_j74285754351848_1_alg».proof.Proof.KI.Pool
import proofs.«416588_j74285754351848_1_alg».proof.Proof.RefRead
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- A vector of n entries as one row: the row's entry j is the vector's. -/
theorem row_of_vec {n : ℕ} (x : (⟨1, ![n]⟩ : Shape).Idx → EReal) (h : (⟨1, ![n]⟩ : Shape).ShapeCasts ⟨2, ![1, n]⟩) (j : Fin n) :
    shapeCast ⟨2, ![1, n]⟩ x h (ix2 (0 : Fin 1) j) = x (ix1 j) :=
  shapeCast_a_1a_apply x h 0 j

/-- A vector of n words as one column: the column's entry i is the vector's. -/
theorem col_of_vec {n : ℕ} (x : (⟨1, ![n]⟩ : Shape).Idx → BitVec 32) (h : (⟨1, ![n]⟩ : Shape).ShapeCasts ⟨2, ![n, 1]⟩) (i : Fin n) :
    shapeCast ⟨2, ![n, 1]⟩ x h (ix2 i (0 : Fin 1)) = x (ix1 i) :=
  shapeCast_apply x h _ _ (by
    rw [Shape.rowMajor_val_two, Shape.rowMajor_val_one]
    show i.val = i.val * 1 + 0
    omega)

/-- The hidden features: what the first launch leaves is the reference's first layer. -/
theorem hidden_eq :
    E2 m ρ c main_v26 = Cert.ReferenceIdeal.Read.val_main_v31 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  funext i
  obtain ⟨n, j, rfl⟩ : ∃ (n : Fin 50000) (j : Fin 128), i = ix2 n j := ⟨i 0, i 1, eq_ix2 i⟩
  rw [E2_v26, layer1_at, Cert.ReferenceIdeal.Hand.hidden_at]
  unfold dense1At
  rw [E1_v24, E1_arg0, E1_arg4, E1_arg6, E1_v25, row_of_vec, add_right_comm]

/-- The second layer: what the second launch leaves is the reference's. -/
theorem out_eq :
    E4 m ρ c main_v40 = Cert.ReferenceIdeal.Read.val_main_v49 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨n, z, rfl⟩ : ∃ (n : Fin 50000) (z : Fin 1), i = ix2 n z := ⟨i 0, i 1, eq_ix2 i⟩
  obtain rfl : z = 0 := Subsingleton.elim _ _
  rw [E4_v40, layer2_at, Cert.ReferenceIdeal.Hand.out_at, Cert.ReferenceIdeal.Hand.agg_hidden]
  unfold dense2At
  rw [E3_v38, E3_v26, hidden_eq, E3_arg7, E3_arg9, E3_v39, row_of_vec, add_right_comm]

/-- The pooled result: what the third launch leaves is the reference's result. -/
theorem pooled_eq :
    (dat2 (F := Ideal) (E5 m ρ) c).arrAt 2 cfg2.N
      = Cert.ReferenceIdeal.Read.val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨g, z, rfl⟩ : ∃ (g : Fin 64) (z : Fin 1), i = ix2 g z := ⟨i 0, i 1, eq_ix2 i⟩
  obtain rfl : z = 0 := Subsingleton.elim _ _
  rw [pool_at, Cert.ReferenceIdeal.Hand.pooled_at]
  unfold poolAt poolSum poolCnt
  rw [E5_v40, ← E4_v40, out_eq, E5_v41]
  have hcol : ∀ n : Fin 50000, shapeCast S50000x1 (m ((c.tc : Thread nD τ).loc main_arg3)) shapeCasts_S50000_S50000x1 (ix2 n (0 : Fin 1))
      = (m ((c.tc : Thread nD τ).loc main_arg3)) (ix1 n) := fun n => col_of_vec _ _ n
  simp only [hcol]

end Cert.KernelIdeal.Hand

end
-- ==== Proof.lean ====
/-
  A two-layer GraphSAGE with a global mean pool, as three launches among host operations, against its plain
  reference. The word-level program and its idealization run to the end and leave their arguments as launched: each
  is a run of six segments (three host stretches, three launches), the two dense layers' launches storing each output
  block whole from the blocks they are handed, the pooling launch carrying a per-graph sum and a per-graph count
  across its ten grid points. The reference is host operations only. The idealization rewrote nothing, so it preserves
  the word-level program trivially. At the ideal instance the two programs end with equal results: the aggregation is
  the same host computation in both; a dense layer adds the same three terms in another order; and the pooled
  one-hot products are the scatter-added sums, an id word that is no graph number contributing to neither.
-/
import proofs.«416588_j74285754351848_1_alg».proof.Defs
import proofs.«416588_j74285754351848_1_alg».proof.Proof.Gen.Kernel
import proofs.«416588_j74285754351848_1_alg».proof.Proof.Gen.KernelIdeal
import proofs.«416588_j74285754351848_1_alg».proof.Proof.Gen.ReferenceIdeal
import proofs.«416588_j74285754351848_1_alg».proof.Proof.Gen.ReferenceIdeal.Run
import proofs.«416588_j74285754351848_1_alg».proof.Proof.Gen.ReferenceIdeal.Read
import proofs.«416588_j74285754351848_1_alg».proof.Proof.Gen.Pre_finite_inputs
import proofs.«416588_j74285754351848_1_alg».proof.Proof.K.Run
import proofs.«416588_j74285754351848_1_alg».proof.Proof.KI.Run
import proofs.«416588_j74285754351848_1_alg».proof.Proof.Equal
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at the pooling launch's output array,
    which is the reference's result term of the same arguments. -/
theorem algebraic : Cert.algebraic_KernelIdeal_ReferenceIdeal := by
  intro m ρ m' ρ' _ hagree
  refine ⟨fun c => (Cert.KernelIdeal.Hand.dat2 (F := Ideal) (Cert.KernelIdeal.Hand.E5 m ρ) c).arrAt 2 Cert.KernelIdeal.cfg2.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2]
  exact (Cert.KernelIdeal.Hand.pooled_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
